-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S100000x1 : Shape := ⟨2, ![100000, 1]⟩
abbrev S64x64 : Shape := ⟨2, ![64, 64]⟩
abbrev S2000x64 : Shape := ⟨2, ![2000, 64]⟩
abbrev S2000x1 : Shape := ⟨2, ![2000, 1]⟩
abbrev S64x1 : Shape := ⟨2, ![64, 1]⟩
abbrev S64x2000 : Shape := ⟨2, ![64, 2000]⟩

abbrev nBuf : Space → Nat
  | .hbm => 87
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x64, .f32⟩
  | .hbm, ⟨67, _⟩ => ⟨S1700000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x1, .i32⟩
  | .hbm, ⟨86, _⟩ => ⟨S64x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S2000x64, .f32⟩
  | .local _ .vmem, ⟨21, _⟩ => ⟨S2000x64, .f32⟩
  | .local _ .vmem, ⟨22, _⟩ => ⟨S2000x1, .i32⟩
  | .local _ .vmem, ⟨23, _⟩ => ⟨S2000x1, .i32⟩
  | .local _ .vmem, ⟨24, _⟩ => ⟨S64x64, .f32⟩
  | .local _ .vmem, ⟨25, _⟩ => ⟨S64x64, .f32⟩
  | .local _ .vmem, ⟨26, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_scratch0 : Ref sig .tc := ⟨.vmem, 25, rfl⟩
abbrev cc4_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v28 : BitVec 1 := Scalar.cmpi .eq arg0 c49_i32
  let v29 : BitVec 32 := Scalar.extui v28
  let c0_i32_14 : BitVec 32 := 0#32
  let v30 : BitVec 1 := Scalar.cmpi .ne v29 c0_i32_14
  v30

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S100000_S100000x1 : S100000.ShapeCasts S100000x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S2000x64_d1_w32 : S2000x64.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  natLt_1_32 : 1 < 32
  transposes_S2000x64_p1_0_S64x2000 : S2000x64.Transposes [1, 0] S64x2000
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S64x1_S64x64 : S64x1.Broadcasts S64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S64x2000_S2000x64_S64x64_1_0_0_1_n_n_wf : DotDims.WF S64x2000 S2000x64 S64x64 [1] [0] [0] [1] [] []
  dot_S64x2000_S2000x1_S64x1_1_0_0_1_n_n_wf : DotDims.WF S64x2000 S2000x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .i32 = 32 ∨ (Rect.block (s := S100000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S64x2000_S2000x64_S64x64_1_0_0_1_n_n : DotDims S64x2000 S2000x64 S64x64 where
  lhsContracting := [1]
  rhsContracting := [0]
  lhsNonContracting := [0]
  rhsNonContracting := [1]
  lhsBatch := []
  rhsBatch := []
  wf := dot_S64x2000_S2000x64_S64x64_1_0_0_1_n_n_wf
def dot_S64x2000_S2000x1_S64x1_1_0_0_1_n_n : DotDims S64x2000 S2000x1 S64x1 where
  lhsContracting := [1]
  rhsContracting := [0]
  lhsNonContracting := [0]
  rhsNonContracting := [1]
  lhsBatch := []
  rhsBatch := []
  wf := dot_S64x2000_S2000x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S64x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x64, .f32⟩
  | .hbm, ⟨71, _⟩ => ⟨S1700000x1, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S64x64, .f32⟩
  | .hbm, ⟨95, _⟩ => ⟨S100000x1, .i32⟩
  | .hbm, ⟨96, _⟩ => ⟨S64x64, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S64, .f32⟩
  | .hbm, ⟨101, _⟩ => ⟨S100000x1, .i32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x64, .f32⟩
  | .hbm, ⟨108, _⟩ => ⟨S64x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.K.R0.lean ====
/-
  A linear layer's launch, at the buffer contents `V` the launch finds. Grid point t stages rows
  5000·t … 5000·t+4999 of the node features and the whole weight matrix; the body stores the product of the
  row block with the weights into the output's staging block, which is written back to the same rows of the
  result. Here: what each window's staging block holds at a point, the body's run, the launch's proof data and
  its body obligation.
-/
import proofs.«418392_j82944408420780_1_alg».proof.Proof.Gen.Kernel.Launch
import proofs.«418392_j82944408420780_1_alg».proof.Proof.Gen.Kernel.Skeleton
import proofs.«418392_j82944408420780_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's staging block holds its rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging block holds the whole matrix at every point (fetched once, never moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x128 := Rect.unit (s := S5000x128) ![0, 0] S5000x128.size inb_S5000x128_S5000x128_0_0

/-- The output's staging block after the body: the one whole-block store of the row block times the weights. -/
def out0_2 (x0 : Vec F S5000x128 .f32) (x1 : Vec F S128x128 .f32) : Vec F S5000x128 .f32 :=
  View.canon [⟨r0_2, k0_pay1 (View.ld x0 r0_0) (View.ld x1 r0_1)⟩]

/-- The one store covers the whole output block. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

set_option maxHeartbeats 1000000 in
/-- The body on whole staging blocks: both inputs are handed back as found, the output block holds the stored value. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The launch's proof data on core `c`: the arrays as found; after the body each input block in place and the
    output block at the stored value; the untouched rest as the invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every grid point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.R1.lean ====
/-
  A bias-and-rectify launch, at the buffer contents `V` the launch finds. Grid point t stages rows
  5000·t … 5000·t+4999 of the aggregated messages and the one-row bias; the body stores max(a + b, 0), the bias
  row repeated down the block, into the output's staging block, which is written back to the same rows of the
  result. Here: what each window's staging block holds at a point, the body's run, the launch's proof data and
  its body obligation.
-/
import proofs.«418392_j82944408420780_1_alg».proof.Proof.Gen.Kernel.Launch
import proofs.«418392_j82944408420780_1_alg».proof.Proof.Gen.Kernel.Skeleton
import proofs.«418392_j82944408420780_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row window's staging block holds its rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging block holds the bias row at every point (fetched once, never moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S5000x128 := Rect.unit (s := S5000x128) ![0, 0] S5000x128.size inb_S5000x128_S5000x128_0_0

/-- The output's staging block after the body: the one whole-block store of max(a + b, 0). -/
def out1_2 (x0 : Vec F S5000x128 .f32) (x1 : Vec F S1x128 .f32) : Vec F S5000x128 .f32 :=
  View.canon [⟨r1_2, k1_pay1 (View.ld x0 r1_0) (View.ld x1 r1_1)⟩]

/-- The one store covers the whole output block. -/
theorem cover1_2 (p0 : Vec F S5000x128 .f32) (y : S5000x128.Idx) :
    ∃ pc ∈ ([⟨r1_2, p0⟩] : List (View.Piece (Elt F) S5000x128 .f32)), y ∈ pc.1.set :=
  View.cover_of_tiled [⟨r1_2, p0⟩] S5000x128.size (by rfl) y

set_option maxHeartbeats 1000000 in
/-- The body on whole staging blocks: both inputs are handed back as found, the output block holds the stored value. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The launch's proof data on core `c`: the arrays as found; after the body each input block in place and the
    output block at the stored value; the untouched rest as the invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every grid point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.K.R2.lean ====
/-
  A linear layer's launch, at the buffer contents `V` the launch finds. Grid point t stages rows
  5000·t … 5000·t+4999 of the node features and the whole weight matrix; the body stores the product of the
  row block with the weights into the output's staging block, which is written back to the same rows of the
  result. Here: what each window's staging block holds at a point, the body's run, the launch's proof data and
  its body obligation.
-/
import proofs.«418392_j82944408420780_1_alg».proof.Proof.Gen.Kernel.Launch
import proofs.«418392_j82944408420780_1_alg».proof.Proof.Gen.Kernel.Skeleton
import proofs.«418392_j82944408420780_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row window's staging block holds its rows at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging block holds the whole matrix at every point (fetched once, never moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x128 := Rect.unit (s := S5000x128) ![0, 0] S5000x128.size inb_S5000x128_S5000x128_0_0
abbrev r2_1 : Rect S128x64 := Rect.unit (s := S128x64) ![0, 0] S128x64.size inb_S128x64_S128x64_0_0
abbrev r2_2 : Rect S5000x64 := Rect.unit (s := S5000x64) ![0, 0] S5000x64.size inb_S5000x64_S5000x64_0_0

/-- The output's staging block after the body: the one whole-block store of the row block times the weights. -/
def out2_2 (x0 : Vec F S5000x128 .f32) (x1 : Vec F S128x64 .f32) : Vec F S5000x64 .f32 :=
  View.canon [⟨r2_2, k2_pay1 (View.ld x0 r2_0) (View.ld x1 r2_1)⟩]

/-- The one store covers the whole output block. -/
theorem cover2_2 (p0 : Vec F S5000x64 .f32) (y : S5000x64.Idx) :
    ∃ pc ∈ ([⟨r2_2, p0⟩] : List (View.Piece (Elt F) S5000x64 .f32)), y ∈ pc.1.set :=
  View.cover_of_tiled [⟨r2_2, p0⟩] S5000x64.size (by rfl) y

set_option maxHeartbeats 1000000 in
/-- The body on whole staging blocks: both inputs are handed back as found, the output block holds the stored value. -/
theorem sound_kernel2 (c : Dev nD) (E : Set ℕ) (i : grid2.Coords) (arg1 : Memref sig .tc .vmem S5000x128 .f32) (harg1 : arg1.IsWhole) (arg2 : Memref sig .tc .vmem S128x64 .f32) (harg2 : arg2.IsWhole) (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The launch's proof data on core `c`: the arrays as found; after the body each input block in place and the
    output block at the stored value; the untouched rest as the invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every grid point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.K.R3.lean ====
/-
  A bias-and-rectify launch, at the buffer contents `V` the launch finds. Grid point t stages rows
  5000·t … 5000·t+4999 of the aggregated messages and the one-row bias; the body stores max(a + b, 0), the bias
  row repeated down the block, into the output's staging block, which is written back to the same rows of the
  result. Here: what each window's staging block holds at a point, the body's run, the launch's proof data and
  its body obligation.
-/
import proofs.«418392_j82944408420780_1_alg».proof.Proof.Gen.Kernel.Launch
import proofs.«418392_j82944408420780_1_alg».proof.Proof.Gen.Kernel.Skeleton
import proofs.«418392_j82944408420780_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row window's staging block holds its rows at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias window's staging block holds the bias row at every point (fetched once, never moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x64 := Rect.unit (s := S5000x64) ![0, 0] S5000x64.size inb_S5000x64_S5000x64_0_0
abbrev r3_1 : Rect S1x64 := Rect.unit (s := S1x64) ![0, 0] S1x64.size inb_S1x64_S1x64_0_0
abbrev r3_2 : Rect S5000x64 := Rect.unit (s := S5000x64) ![0, 0] S5000x64.size inb_S5000x64_S5000x64_0_0

/-- The output's staging block after the body: the one whole-block store of max(a + b, 0). -/
def out3_2 (x0 : Vec F S5000x64 .f32) (x1 : Vec F S1x64 .f32) : Vec F S5000x64 .f32 :=
  View.canon [⟨r3_2, k3_pay1 (View.ld x0 r3_0) (View.ld x1 r3_1)⟩]

/-- The one store covers the whole output block. -/
theorem cover3_2 (p0 : Vec F S5000x64 .f32) (y : S5000x64.Idx) :
    ∃ pc ∈ ([⟨r3_2, p0⟩] : List (View.Piece (Elt F) S5000x64 .f32)), y ∈ pc.1.set :=
  View.cover_of_tiled [⟨r3_2, p0⟩] S5000x64.size (by rfl) y

set_option maxHeartbeats 1000000 in
/-- The body on whole staging blocks: both inputs are handed back as found, the output block holds the stored value. -/
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The launch's proof data on core `c`: the arrays as found; after the body each input block in place and the
    output block at the stored value; the untouched rest as the invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every grid point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.K.R4Defs.lean ====
/-
  The pooling launch (pallas_call 4) as pure functions of the buffer contents `V` the launch finds: the blocks
  its grid points stage, and what its two carried accumulators hold after each point. Point n stages rows
  2000·n … 2000·n+1999 of the node features (64 columns) and of the graph ids (one column). The first point
  clears both accumulators; every point adds, for each graph g, the sum of the block's rows whose id is g to row g
  of the 64×64 accumulator and the number of such rows to entry g of the 64×1 accumulator; the last point stores
  the sums divided by max(count, 1).
-/
import proofs.«418392_j82944408420780_1_alg».proof.Proof.Gen.Kernel.Launch
import proofs.«418392_j82944408420780_1_alg».proof.Proof.Gen.Kernel.Skeleton
import proofs.«418392_j82944408420780_1_alg».proof.Proof.Gen.Kernel.Points
import Idealize.ShloMosaic.Lib.Pipeline.FrameBody

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The feature rows staged at point `n` (anything past the grid's end). -/
def hblk4 (c : Dev nD) (n : ℕ) : Vec F S2000x64 .f32 :=
  if h : n < cfg4.N then iblk4 V c 0 ⟨n, h⟩ else iblk4 V c 0 ⟨0, by decide⟩

/-- The graph ids staged at point `n` (anything past the grid's end). -/
def bblk4 (c : Dev nD) (n : ℕ) : Vec F S2000x1 .i32 :=
  if h : n < cfg4.N then iblk4 V c 1 ⟨n, h⟩ else iblk4 V c 1 ⟨0, by decide⟩

/-- The 64×64 accumulator after point `n`: cleared before point 0's contribution, then one contribution a point. -/
def sumsAt4 (c : Dev nD) : ℕ → Vec F S64x64 .f32
  | 0 => k4_pay4 (bblk4 V c 0) (hblk4 V c 0) k4_pay1
  | n + 1 => k4_pay4 (bblk4 V c (n + 1)) (hblk4 V c (n + 1)) (sumsAt4 c n)

/-- The 64×1 accumulator of row counts after point `n`. -/
def cntsAt4 (c : Dev nD) : ℕ → Vec F S64x1 .f32
  | 0 => k4_pay5 (bblk4 V c 0) k4_pay2
  | n + 1 => k4_pay5 (bblk4 V c (n + 1)) (cntsAt4 c n)

/-- What the last point stores into the result's staging block: the sums over the counts, a count below one read as one. -/
def res4 (c : Dev nD) : Vec F S64x64 .f32 := k4_pay6 (sumsAt4 V c 49) (cntsAt4 V c 49)

end Cert.Kernel.Frm

end
-- ==== Proof.K.R4.lean ====
/-
  The pooling launch, at the buffer contents `V` the launch finds. Grid point t stages rows 2000·t … 2000·t+1999 of
  the node features and of the graph ids; two carried accumulators (a 64×64 block of sums, a 64×1 block of counts)
  live beside the staged blocks and are no window of the launch. The first point clears them, every point adds
  its block's contribution, the last point stores the quotient into the result's staging block, which is written
  back once. Here: the launch's invariant between points (the accumulators' contents), the body's run in its three
  control cases, the launch's proof data and its body obligation, and the result array after the launch.
-/
import proofs.«418392_j82944408420780_1_alg».proof.Proof.K.R4Defs
import proofs.«418392_j82944408420780_1_alg».proof.Proof.Gen.Kernel.Launch
import proofs.«418392_j82944408420780_1_alg».proof.Proof.Gen.Kernel.Skeleton
import proofs.«418392_j82944408420780_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- The body's first condition (it clears the accumulators), as computed from the grid coordinate. -/
abbrev cond4_1 (i : grid4.Coords) : Prop :=
  (Scalar.cmpi .ne (Scalar.extui (Scalar.cmpi .eq (BitVec.ofNat 32 (i 0).val) 0#32)) 0#32) = 1#1

/-- It holds at the first point only. -/
theorem hcond4_1 : ∀ t : Fin cfg4.N, cond4_1 (grid4.coords t) ↔ t.val = 0 :=
  (by decide +kernel : ∀ t : Fin grid4.N, cond4_1 (grid4.coords t) ↔ t.val = 0)

/-- The second condition (the quotient is stored) holds at the last point only. -/
theorem hcond4_2 : ∀ t : Fin cfg4.N, k4_cond2 (grid4.coords t) = 1#1 ↔ t.val = 49 :=
  (by decide +kernel : ∀ t : Fin grid4.N, k4_cond2 (grid4.coords t) = 1#1 ↔ t.val = 49)

/-- The result's window is idle at every point but the last, -/
theorem idle4_2_true : ∀ t : Fin cfg4.N, t.val ≠ 49 → cfg4.idle (2 : Fin 3) (cfg4.grid.coords t) = true :=
  (by decide +kernel : ∀ t : Fin grid4.N, t.val ≠ 49 → idle4 2 (grid4.coords t) = true)

/-- live at the last, -/
theorem idle4_2_false : ∀ t : Fin cfg4.N, t.val = 49 → cfg4.idle (2 : Fin 3) (cfg4.grid.coords t) = false :=
  (by decide +kernel : ∀ t : Fin grid4.N, t.val = 49 → idle4 2 (grid4.coords t) = false)

/-- and written back at no point but the last. -/
theorem flush4_2_false : ∀ t : Fin cfg4.N, t.val ≠ 49 → (cfg4.win 2).flush t = false :=
  (by decide +kernel : ∀ t : Fin grid4.N, t.val ≠ 49 → win4_2.flush t = false)

/-! ## The staged blocks and the accumulators' recursion, at a grid point -/

theorem hblk4_val (c : Dev nD) (t : Fin cfg4.N) : hblk4 V c t.val = iblk4 V c 0 t := by
  simp only [hblk4, dif_pos t.isLt, Fin.eta]

theorem bblk4_val (c : Dev nD) (t : Fin cfg4.N) : bblk4 V c t.val = iblk4 V c 1 t := by
  simp only [bblk4, dif_pos t.isLt, Fin.eta]

/-- The sums after the first point: the cleared block plus the point's contribution. -/
theorem sumsAt4_first (c : Dev nD) (t : Fin cfg4.N) (h0 : t.val = 0) :
    k4_pay4 (iblk4 V c 1 t) (iblk4 V c 0 t) k4_pay1 = sumsAt4 V c t.val := by
  rw [← bblk4_val, ← hblk4_val, h0]; simp only [sumsAt4]

theorem cntsAt4_first (c : Dev nD) (t : Fin cfg4.N) (h0 : t.val = 0) :
    k4_pay5 (iblk4 V c 1 t) k4_pay2 = cntsAt4 V c t.val := by
  rw [← bblk4_val, h0]; simp only [cntsAt4]

/-- The sums after a later point: the sums after the point before plus the point's contribution. -/
theorem sumsAt4_next (c : Dev nD) (t : Fin cfg4.N) (h0 : t.val ≠ 0) :
    k4_pay4 (iblk4 V c 1 t) (iblk4 V c 0 t) (sumsAt4 V c (t.val - 1)) = sumsAt4 V c t.val := by
  obtain ⟨n, hn⟩ := Nat.exists_eq_succ_of_ne_zero h0
  rw [← bblk4_val, ← hblk4_val, hn]; simp only [sumsAt4, Nat.succ_eq_add_one, Nat.add_sub_cancel]

theorem cntsAt4_next (c : Dev nD) (t : Fin cfg4.N) (h0 : t.val ≠ 0) :
    k4_pay5 (iblk4 V c 1 t) (cntsAt4 V c (t.val - 1)) = cntsAt4 V c t.val := by
  obtain ⟨n, hn⟩ := Nat.exists_eq_succ_of_ne_zero h0
  rw [← bblk4_val, hn]; simp only [cntsAt4, Nat.succ_eq_add_one, Nat.add_sub_cancel]

/-! ## Loads and stores of whole buffers -/

theorem hz2 : (![0, 0] : Fin 2 → Nat) = fun _ => 0 := funext fun a => by fin_cases a <;> rfl

/-- A load of a whole buffer through the full rectangle reads its contents. -/
theorem readAt_full {S : Shape} {e : EltTy} {κ : Kind} {sp : Space} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  View.ld_unit_zero h inb _

/-- One store through the full rectangle covers the buffer, whatever was stored before. -/
theorem cover_full {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-! ## The body's run, in its three control cases -/

set_option maxHeartbeats 1000000 in
/-- A point that is neither the first nor the last: both accumulators are read, the point's contribution is added,
    and they are stored back; the result's staging block is not touched. -/
theorem sound_kernel4_mid (c : Dev nD) (E : Set ℕ) (i : grid4.Coords) (h1 : ¬ cond4_1 i) (h2 : ¬ k4_cond2 i = 1#1)
    (arg1 : Memref sig .tc .vmem S2000x64 .f32) (harg1 : arg1.IsWhole) (arg2 : Memref sig .tc .vmem S2000x1 .i32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole)
    (x0 : Vec F S2000x64 .f32) (x1 : Vec F S2000x1 .i32) (s : Vec F S64x64 .f32) (n : Vec F S64x1 .f32) (K : PUnit → sProp 𝕄) :
    iprop(owns (c : Thread nD τ) arg1 fullShare x0 ∗ owns (c : Thread nD τ) arg2 fullShare x1
        ∗ owns (c : Thread nD τ) arg4 fullShare s ∗ owns (c : Thread nD τ) arg5 fullShare n
        ∗ (iprop(owns (c : Thread nD τ) arg1 fullShare x0 ∗ owns (c : Thread nD τ) arg2 fullShare x1
            ∗ owns (c : Thread nD τ) arg4 fullShare (k4_pay4 x1 x0 s) ∗ owns (c : Thread nD τ) arg5 fullShare (k4_pay5 x1 n)) -∗ K ⟨⟩))
      ⊢ wp frame (wpE (defs₀ (F := F)) Variants.none c none) E (cc4__mean_pool_kernel i arg1 harg1 arg2 harg2 arg3 harg3 arg4 harg4 arg5 harg5) K := by
  simp only [cc4__mean_pool_kernel_eq_skeleton]; unfold cc4__mean_pool_kernel_skel
  unfold owns
  iintro ⟨⟨%f0, %hf0, H0⟩, ⟨%f1, %hf1, H1⟩, ⟨%f4, %hf4, H4⟩, ⟨%f5, %hf5, H5⟩, Hk⟩
  subst hf0
  subst hf1
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (cover_full (S := S64x64) hz2 _ _ _), View.canon_cons_unit_zero (S := S64x64) hz2,
      readAt_full (S := S2000x1) _ hz2, readAt_full (S := S2000x64) _ hz2, readAt_full (S := S64x64) _ hz2]
  · iexists _; isplitr
    swap; · iexact H5
    ipureintro
    rw [View.read_writes_eq_canon _ _ _ (cover_full (S := S64x1) hz2 _ _ _), View.canon_cons_unit_zero (S := S64x1) hz2,
      readAt_full (S := S2000x1) _ hz2, readAt_full (S := S64x1) _ hz2]

set_option maxHeartbeats 1000000 in
/-- The first point: the accumulators, whatever they held, are cleared, then read back with the point's contribution
    added; the result's staging block is not touched. -/
theorem sound_kernel4_first (c : Dev nD) (E : Set ℕ) (i : grid4.Coords) (h1 : cond4_1 i) (h2 : ¬ k4_cond2 i = 1#1)
    (arg1 : Memref sig .tc .vmem S2000x64 .f32) (harg1 : arg1.IsWhole) (arg2 : Memref sig .tc .vmem S2000x1 .i32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole)
    (x0 : Vec F S2000x64 .f32) (x1 : Vec F S2000x1 .i32) (K : PUnit → sProp 𝕄) :
    iprop(owns (c : Thread nD τ) arg1 fullShare x0 ∗ owns (c : Thread nD τ) arg2 fullShare x1
        ∗ (∃ s, owns (c : Thread nD τ) arg4 fullShare s) ∗ (∃ n, owns (c : Thread nD τ) arg5 fullShare n)
        ∗ (iprop(owns (c : Thread nD τ) arg1 fullShare x0 ∗ owns (c : Thread nD τ) arg2 fullShare x1
            ∗ owns (c : Thread nD τ) arg4 fullShare (k4_pay4 x1 x0 k4_pay1) ∗ owns (c : Thread nD τ) arg5 fullShare (k4_pay5 x1 k4_pay2)) -∗ K ⟨⟩))
      ⊢ wp frame (wpE (defs₀ (F := F)) Variants.none c none) E (cc4__mean_pool_kernel i arg1 harg1 arg2 harg2 arg3 harg3 arg4 harg4 arg5 harg5) K := by
  simp only [cc4__mean_pool_kernel_eq_skeleton]; unfold cc4__mean_pool_kernel_skel
  unfold owns
  iintro ⟨⟨%f0, %hf0, H0⟩, ⟨%f1, %hf1, H1⟩, ⟨%s, %f4, -, H4⟩, ⟨%n, %f5, -, H5⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (cover_full (S := S64x64) hz2 _ _ _), View.canon_cons_unit_zero (S := S64x64) hz2,
      View.readCov_unit_zero (S := S64x64) _ hz2, readAt_full (S := S2000x1) _ hz2, readAt_full (S := S2000x64) _ hz2]
  · iexists _; isplitr
    swap; · iexact H5
    ipureintro
    sl_unfold_words
    rw [View.read_writes_eq_canon _ _ _ (cover_full (S := S64x1) hz2 _ _ _), View.canon_cons_unit_zero (S := S64x1) hz2,
      View.readCov_unit_zero (S := S64x1) _ hz2, readAt_full (S := S2000x1) _ hz2]

set_option maxHeartbeats 1000000 in
/-- The last point: as a middle point, and then both accumulators are read back and their quotient is stored into
    the result's staging block. -/
theorem sound_kernel4_last (c : Dev nD) (E : Set ℕ) (i : grid4.Coords) (h1 : ¬ cond4_1 i) (h2 : k4_cond2 i = 1#1)
    (arg1 : Memref sig .tc .vmem S2000x64 .f32) (harg1 : arg1.IsWhole) (arg2 : Memref sig .tc .vmem S2000x1 .i32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole)
    (x0 : Vec F S2000x64 .f32) (x1 : Vec F S2000x1 .i32) (s : Vec F S64x64 .f32) (n : Vec F S64x1 .f32) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare s ∗ owns (c : Thread nD τ) arg5 fullShare n
        ∗ (iprop(owns (c : Thread nD τ) arg1 fullShare x0 ∗ owns (c : Thread nD τ) arg2 fullShare x1
            ∗ owns (c : Thread nD τ) arg3 fullShare (k4_pay6 (k4_pay4 x1 x0 s) (k4_pay5 x1 n))
            ∗ owns (c : Thread nD τ) arg4 fullShare (k4_pay4 x1 x0 s) ∗ owns (c : Thread nD τ) arg5 fullShare (k4_pay5 x1 n)) -∗ K ⟨⟩))
      ⊢ wp frame (wpE (defs₀ (F := F)) Variants.none c none) E (cc4__mean_pool_kernel i arg1 harg1 arg2 harg2 arg3 harg3 arg4 harg4 arg5 harg5) K := by
  simp only [cc4__mean_pool_kernel_eq_skeleton]; unfold cc4__mean_pool_kernel_skel
  unfold owns
  iintro ⟨⟨%f0, %hf0, H0⟩, ⟨%f1, %hf1, H1⟩, ⟨%d3, %f3, -, H3⟩, ⟨%f4, %hf4, H4⟩, ⟨%f5, %hf5, H5⟩, Hk⟩
  subst hf0
  subst hf1
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [View.read_writes_eq_canon _ _ _ (cover_full (S := S64x64) hz2 _ _ _), View.canon_cons_unit_zero (S := S64x64) hz2,
      View.readCov_unit_zero (S := S64x64) _ hz2, View.readCov_unit_zero (S := S64x1) _ hz2,
      readAt_full (S := S2000x1) _ hz2, readAt_full (S := S2000x64) _ hz2, readAt_full (S := S64x64) _ hz2, readAt_full (S := S64x1) _ hz2]
  isplitl [H4]
  · iexists _; isplitr
    swap; · iexact H4
    ipureintro
    sl_unfold_words
    rw [View.read_writes_eq_canon _ _ _ (cover_full (S := S64x64) hz2 _ _ _), View.canon_cons_unit_zero (S := S64x64) hz2,
      readAt_full (S := S2000x1) _ hz2, readAt_full (S := S2000x64) _ hz2, readAt_full (S := S64x64) _ hz2]
  · iexists _; isplitr
    swap; · iexact H5
    ipureintro
    sl_unfold_words
    rw [View.read_writes_eq_canon _ _ _ (cover_full (S := S64x1) hz2 _ _ _), View.canon_cons_unit_zero (S := S64x1) hz2,
      readAt_full (S := S2000x1) _ hz2, readAt_full (S := S64x1) _ hz2]

/-! ## The launch's invariant and proof data -/

/-- The launch's invariant before point `t` (after point `t - 1`): the two accumulators held whole — at any contents
    before the first point, after point `t - 1` at the sums and the counts of the rows staged so far — beside the
    core's other scoped buffers and its generator register. -/
def Φ4 (c : Dev nD) (t : Fin (cfg4.N + 1)) : sProp 𝕄 :=
  iprop((∃ X : cc4_scratch0.ty.Contents (Elt F), ⌜t.val ≠ 0 → X = sumsAt4 V c (t.val - 1)⌝
        ∗ owns (c : Thread nD τ) (Memref.whole cc4_scratch0) fullShare X)
    ∗ (∃ Y : cc4_scratch1.ty.Contents (Elt F), ⌜t.val ≠ 0 → Y = cntsAt4 V c (t.val - 1)⌝
        ∗ owns (c : Thread nD τ) (Memref.whole cc4_scratch1) fullShare Y)
    ∗ Pipeline.scopedRestBut (Ix := Unit) (Name := ℕ) (U := UR sig nD τ) (Lvl := ℕ) (Val := Elt F) spec4 c [cc4_scratch0, cc4_scratch1]
    ∗ ∃ r, prngReg c r)

/-- The launch's proof data on core `c`: the arrays as found; after the body each input block in place and the
    result's block at the quotient; the accumulators as the invariant; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => res4 V c
  Φ t := Φ4 V c t
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = res4 V c := by dsimp only [dat4]

/-- The core's scoped buffers that no window stages, split at the two accumulators. -/
theorem scopedRest4_split (c : Dev nD) :
    (Pipeline.scopedRest (Ix := Unit) (Name := ℕ) (U := UR sig nD τ) (Lvl := ℕ) (Val := Elt F) spec4 c : sProp 𝕄)
      = iprop(iprop((∃ f : Buf (Elt F) ((c : Thread nD τ).loc cc4_scratch0), ((c : Thread nD τ).loc cc4_scratch0) ↦{fullShare} f)
            ∗ (∃ f : Buf (Elt F) ((c : Thread nD τ).loc cc4_scratch1), ((c : Thread nD τ).loc cc4_scratch1) ↦{fullShare} f))
          ∗ Pipeline.scopedRestBut (Ix := Unit) (Name := ℕ) (U := UR sig nD τ) (Lvl := ℕ) (Val := Elt F) spec4 c [cc4_scratch0, cc4_scratch1]) :=
  Pipeline.scopedRest_split_of_list spec4 c [cc4_scratch0, cc4_scratch1] (by decide) (by decide)

/-- Entering the launch: the accumulators hold anything. -/
theorem Φ4_in (c : Dev nD) : (Pipeline.ΦA spec4 c : sProp 𝕄) ⊢ (dat4 V c).Φ 0 := by
  show (Pipeline.ΦA spec4 c : sProp 𝕄) ⊢ Φ4 V c 0
  unfold Pipeline.ΦA Φ4
  rw [scopedRest4_split]
  iintro ⟨⟨⟨⟨%f0, H0⟩, ⟨%f1, H1⟩⟩, Hrest⟩, Hr⟩
  isplitl [H0]
  · iexists f0; isplitr; · ipureintro; intro h; exact absurd rfl h
    rw [owns_whole]; iexact H0
  isplitl [H1]
  · iexists f1; isplitr; · ipureintro; intro h; exact absurd rfl h
    rw [owns_whole]; iexact H1
  isplitl [Hrest]; · iexact Hrest
  iexact Hr

/-- A whole buffer held at known contents is held at some contents. -/
theorem whole_forget (c : Dev nD) (b : Ref sig .tc) (X : b.ty.Contents (Elt F)) :
    owns (c : Thread nD τ) (Memref.whole b) fullShare X
      ⊢ (iprop(∃ f : Buf (Elt F) ((c : Thread nD τ).loc b), ((c : Thread nD τ).loc b) ↦{fullShare} f) : sProp 𝕄) := by
  rw [owns_whole]; iintro H; iexists X; iexact H

/-- Leaving it: what they hold is forgotten. -/
theorem Φ4_out (c : Dev nD) : (dat4 V c).Φ (Fin.last _) ⊢ (Pipeline.ΦA spec4 c : sProp 𝕄) := by
  show Φ4 V c (Fin.last _) ⊢ (Pipeline.ΦA spec4 c : sProp 𝕄)
  unfold Pipeline.ΦA Φ4
  rw [scopedRest4_split]
  iintro ⟨⟨%X, -, H0⟩, ⟨%Y, -, H1⟩, Hrest, Hr⟩
  isplitr [Hr]
  · isplitr [Hrest]
    · isplitl [H0]
      · iapply whole_forget; iexact H0
      · iapply whole_forget; iexact H1
    · iexact Hrest
  · iexact Hr

/-! ## What the body finds in the input windows' staging blocks -/

/-- The feature window's staging block holds its rows at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The id window's staging block holds its rows at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The quotient the last point stores, over the accumulators after that point. -/
theorem res4_at (c : Dev nD) (t : Fin cfg4.N) (h49 : t.val = 49) :
    res4 V c = k4_pay6 (sumsAt4 V c t.val) (cntsAt4 V c t.val) := by
  rw [h49]; rfl

/-! ## The body obligation -/

/-- At a point before the last the result's window is idle and not written back: its block is handed back as found. -/
theorem leaves4_idle (c : Dev nD) (t : Fin cfg4.N) (h49 : t.val ≠ 49) :
    (dat4 V c).leavesExact 2 t = iprop(∃ d, owns (c : Thread nD τ) (st4_2 t) fullShare ((dat4 V c).before 2 t d)) :=
  (dat4 V c).leavesExact_idle 2 t (idle4_2_true t h49) (flush4_2_false t h49)

/-- At the last point it is live: its block is left at the stored quotient. -/
theorem leaves4_last (c : Dev nD) (t : Fin cfg4.N) (h49 : t.val = 49) :
    (dat4 V c).leavesExact 2 t = owns (c : Thread nD τ) (st4_2 t) fullShare ((dat4 V c).after 2 t) := by
  unfold Dat.leavesExact; rw [idle4_2_false t h49]

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the inputs' blocks in place, the result's block as its window's state at the point says. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ (dat4 V c).leavesExact 2 t)

/-- The first point: the accumulators end at the first block's contribution to the cleared blocks. -/
theorem sound_body4_first (c : Dev nD) (t : Fin cfg4.N) (h0 : t.val = 0) (h49 : t.val ≠ 49) :
    bodyPre4 V c t ⊢ wp frame (wpE (defs₀ (F := F)) Variants.none c none) Set.univ (bodyAt4 t) (fun _ => bodyPost4 V c t) := by
  unfold bodyPre4 bodyPost4 bodyAt4
  rw [leaves4_idle V c t h49]
  simp only [before4_0, before4_1]
  rw [show (dat4 V c).Φ t.succ = Φ4 V c t.succ from rfl, show (dat4 V c).Φ t.castSucc = Φ4 V c t.castSucc from rfl,
    show (dat4 V c).owesAt () t.succ = (dat4 V c).owesAt () t.castSucc from rfl, after4_0, after4_1]
  unfold Φ4
  iintro ⟨⟨⟨%X, -, HS⟩, ⟨%Y, -, HC⟩, Hrest, Hr⟩, Ho, ⟨%d0, H0⟩, ⟨%d1, H1⟩, H2⟩
  iapply (sound_kernel4_first c Set.univ _ ((hcond4_1 t).mpr h0) (mt (hcond4_2 t).mp h49) _ _ _ _ _ _ _ _ _ _ (iblk4 V c 0 t) (iblk4 V c 1 t) _)
  isplitl [H0]; · iexact H0
  isplitl [H1]; · iexact H1
  isplitl [HS]; · iexists X; iexact HS
  isplitl [HC]; · iexists Y; iexact HC
  iintro ⟨H0, H1, HS, HC⟩
  rw [sumsAt4_first V c t h0, cntsAt4_first V c t h0]
  isplitl [HS HC Hrest Hr]
  · isplitl [HS]
    · iexists _; isplitr; swap; · iexact HS
      ipureintro; intro _; simp only [Fin.val_succ, Nat.add_sub_cancel]
    isplitl [HC]
    · iexists _; isplitr; swap; · iexact HC
      ipureintro; intro _; simp only [Fin.val_succ, Nat.add_sub_cancel]
    isplitl [Hrest]; · iexact Hrest
    iexact Hr
  isplitl [Ho]; · iexact Ho
  isplitl [H0]; · iexact H0
  isplitl [H1]; · iexact H1
  iexact H2

/-- A point between: each accumulator gains the point's contribution. -/
theorem sound_body4_mid (c : Dev nD) (t : Fin cfg4.N) (h0 : t.val ≠ 0) (h49 : t.val ≠ 49) :
    bodyPre4 V c t ⊢ wp frame (wpE (defs₀ (F := F)) Variants.none c none) Set.univ (bodyAt4 t) (fun _ => bodyPost4 V c t) := by
  unfold bodyPre4 bodyPost4 bodyAt4
  rw [leaves4_idle V c t h49]
  simp only [before4_0, before4_1]
  rw [show (dat4 V c).Φ t.succ = Φ4 V c t.succ from rfl, show (dat4 V c).Φ t.castSucc = Φ4 V c t.castSucc from rfl,
    show (dat4 V c).owesAt () t.succ = (dat4 V c).owesAt () t.castSucc from rfl, after4_0, after4_1]
  unfold Φ4
  iintro ⟨⟨⟨%X, %hX, HS⟩, ⟨%Y, %hY, HC⟩, Hrest, Hr⟩, Ho, ⟨%d0, H0⟩, ⟨%d1, H1⟩, H2⟩
  have hX' : X = sumsAt4 V c (t.val - 1) := hX h0
  have hY' : Y = cntsAt4 V c (t.val - 1) := hY h0
  subst hX'
  subst hY'
  iapply (sound_kernel4_mid c Set.univ _ (mt (hcond4_1 t).mp h0) (mt (hcond4_2 t).mp h49) _ _ _ _ _ _ _ _ _ _ (iblk4 V c 0 t) (iblk4 V c 1 t)
    (sumsAt4 V c (t.val - 1)) (cntsAt4 V c (t.val - 1)) _)
  isplitl [H0]; · iexact H0
  isplitl [H1]; · iexact H1
  isplitl [HS]; · iexact HS
  isplitl [HC]; · iexact HC
  iintro ⟨H0, H1, HS, HC⟩
  rw [sumsAt4_next V c t h0, cntsAt4_next V c t h0]
  isplitl [HS HC Hrest Hr]
  · isplitl [HS]
    · iexists _; isplitr; swap; · iexact HS
      ipureintro; intro _; simp only [Fin.val_succ, Nat.add_sub_cancel]
    isplitl [HC]
    · iexists _; isplitr; swap; · iexact HC
      ipureintro; intro _; simp only [Fin.val_succ, Nat.add_sub_cancel]
    isplitl [Hrest]; · iexact Hrest
    iexact Hr
  isplitl [Ho]; · iexact Ho
  isplitl [H0]; · iexact H0
  isplitl [H1]; · iexact H1
  iexact H2

/-- The last point: as a point between, and the result's staging block ends at the quotient. -/
theorem sound_body4_last (c : Dev nD) (t : Fin cfg4.N) (h0 : t.val ≠ 0) (h49 : t.val = 49) :
    bodyPre4 V c t ⊢ wp frame (wpE (defs₀ (F := F)) Variants.none c none) Set.univ (bodyAt4 t) (fun _ => bodyPost4 V c t) := by
  unfold bodyPre4 bodyPost4 bodyAt4
  rw [leaves4_last V c t h49]
  simp only [before4_0, before4_1]
  rw [show (dat4 V c).Φ t.succ = Φ4 V c t.succ from rfl, show (dat4 V c).Φ t.castSucc = Φ4 V c t.castSucc from rfl,
    show (dat4 V c).owesAt () t.succ = (dat4 V c).owesAt () t.castSucc from rfl, after4_0, after4_1, after4_2, res4_at V c t h49]
  unfold Φ4
  iintro ⟨⟨⟨%X, %hX, HS⟩, ⟨%Y, %hY, HC⟩, Hrest, Hr⟩, Ho, ⟨%d0, H0⟩, ⟨%d1, H1⟩, ⟨%d2, H2⟩⟩
  have hX' : X = sumsAt4 V c (t.val - 1) := hX h0
  have hY' : Y = cntsAt4 V c (t.val - 1) := hY h0
  subst hX'
  subst hY'
  iapply (sound_kernel4_last c Set.univ _ (mt (hcond4_1 t).mp h0) ((hcond4_2 t).mpr h49) _ _ _ _ _ _ _ _ _ _ (iblk4 V c 0 t) (iblk4 V c 1 t)
    (sumsAt4 V c (t.val - 1)) (cntsAt4 V c (t.val - 1)) _)
  isplitl [H0]; · iexact H0
  isplitl [H1]; · iexact H1
  isplitl [H2]; · iexists _; iexact H2
  isplitl [HS]; · iexact HS
  isplitl [HC]; · iexact HC
  iintro ⟨H0, H1, H2, HS, HC⟩
  rw [sumsAt4_next V c t h0, cntsAt4_next V c t h0]
  isplitl [HS HC Hrest Hr]
  · isplitl [HS]
    · iexists _; isplitr; swap; · iexact HS
      ipureintro; intro _; simp only [Fin.val_succ, Nat.add_sub_cancel]
    isplitl [HC]
    · iexists _; isplitr; swap; · iexact HC
      ipureintro; intro _; simp only [Fin.val_succ, Nat.add_sub_cancel]
    isplitl [Hrest]; · iexact Hrest
    iexact Hr
  isplitl [Ho]; · iexact Ho
  isplitl [H0]; · iexact H0
  isplitl [H1]; · iexact H1
  iexact H2

/-- The body obligation of the launch, at every grid point: the point's place in the grid tells the case. -/
theorem body_obligation4 (c : Dev nD) : BodyObligation (dat4 (F := F) V c) (defs₀ (F := F)) Variants.none () Set.univ := fun t => by
  rw [bigSep_W4, bigSep_W4]
  by_cases h49 : t.val = 49
  · exact sound_body4_last V c t (by omega) h49
  · by_cases h0 : t.val = 0
    · exact sound_body4_first V c t h0 h49
    · exact sound_body4_mid V c t h0 h49

/-! ## The result array after the launch -/

/-- The last grid point, the one that writes the result's block back. -/
abbrev t4_last : Fin cfg4.N := ⟨49, by decide⟩

/-- The one write-back writes the quotient: the window's one block, read through zero offsets, is the whole array. -/
theorem flushed4_2 (c : Dev nD) (t : Fin cfg4.N) (hf : (cfg4.win 2).flush t = true) :
    (dat4 V c).flushed 2 t
      = ((cfg4.win 2).blk t).view.read (Elt F) (res4 V c : Buf (Elt F) ((c : Thread nD τ).loc main_v63)) := by
  have hN : cfg4.N = 50 := N_4
  have h49 : t.val = 49 := by have := (flush4_2 t).mp hf; have := t.isLt; omega
  obtain rfl : t = t4_last := Fin.ext h49
  show (cfg4.win 2).cut (grid4.coords t4_last) ((dat4 V c).after 2 t4_last) = _
  rw [after4_2]
  have hz' : (fun a => win4_2.index t4_last a * main_v63.ty.shape.size a) = fun _ => 0 :=
    funext fun a => by fin_cases a <;> decide
  exact (Memref.read_access_unit_zero (Elt F) main_v63 hz' (fun a => by rw [congrFun hz' a]; simp) (res4 V c)).symm

/-- So the result array ends holding the quotient: the last point's block covers it. -/
theorem arrAt4_2 (c : Dev nD) :
    (dat4 V c).arrAt 2 cfg4.N = (res4 V c : Buf (Elt F) ((c : Thread nD τ).loc main_v63)) :=
  (dat4 V c).arrAt_eq_of_cover 2 (res4 V c) (flushed4_2 V c) fun i =>
    ⟨t4_last, (flush4_2 t4_last).mpr rfl, by
      show i ∈ ((View.whole main_v63).slice (win4_2.rect t4_last)).set
      rw [View.set_slice_whole, Rect.mem_set_unit]
      intro a
      have h0 : (i 0 : Nat) < 64 := (i 0).isLt
      have h1 : (i 1 : Nat) < 64 := (i 1).isLt
      match a with
      | ⟨0, _⟩ =>
        show win4_2.index t4_last 0 * win4_2.size 0 ≤ (i 0 : Nat)
          ∧ (i 0 : Nat) < win4_2.index t4_last 0 * win4_2.size 0 + win4_2.xsize (grid4.coords t4_last) 0
        rw [show win4_2.index t4_last 0 * win4_2.size 0 = 0 from by decide +kernel,
          show win4_2.xsize (grid4.coords t4_last) 0 = 64 from by decide +kernel]
        omega
      | ⟨1, _⟩ =>
        show win4_2.index t4_last 1 * win4_2.size 1 ≤ (i 1 : Nat)
          ∧ (i 1 : Nat) < win4_2.index t4_last 1 * win4_2.size 1 + win4_2.xsize (grid4.coords t4_last) 1
        rw [show win4_2.index t4_last 1 * win4_2.size 1 = 0 from by decide +kernel,
          show win4_2.xsize (grid4.coords t4_last) 1 = 64 from by decide +kernel]
        omega⟩

end Cert.Kernel.Frm

end
-- ==== Proof.K.Run.lean ====
/-
  The run of the whole program on the TensorCores: eleven segments in order — three stretches of host operations
  (self-loops and degree normalisation), the first linear layer's launch, a host stretch (gather, scale, scatter-add),
  the bias-and-rectifier launch, the second linear layer's launch, a host stretch, the second bias-and-rectifier
  launch, a one-operation host stretch, and the pooling launch. Here: what every unscoped buffer holds at each of
  the twelve segment boundaries, as a fold from the launch memory (a host stretch leaves what its operations
  compute; a launch leaves its arrays at what its write-backs fold to and every other buffer as it was); each
  argument array read back through the fold to its launch contents; each launch's result array read at its
  boundary; every launch's proof data at its entry contents; the segments' thread states, chained; and the run
  itself — from any memory with zero counters every weakly fair execution terminates and every unscoped buffer
  ends at the last boundary's contents, whence the arguments end as launched.
-/
import proofs.«418392_j82944408420780_1_alg».proof.Proof.K.R0
import proofs.«418392_j82944408420780_1_alg».proof.Proof.K.R1
import proofs.«418392_j82944408420780_1_alg».proof.Proof.K.R2
import proofs.«418392_j82944408420780_1_alg».proof.Proof.K.R3
import proofs.«418392_j82944408420780_1_alg».proof.Proof.K.R4
import proofs.«418392_j82944408420780_1_alg».proof.Proof.Gen.Kernel.Launch
import proofs.«418392_j82944408420780_1_alg».proof.Proof.Gen.Kernel.Skeleton
import proofs.«418392_j82944408420780_1_alg».proof.Proof.Gen.Kernel.Points
import proofs.«418392_j82944408420780_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the host stretch `hostOps0`: each buffer an operation writes at what it computes from the contents before. -/
abbrev W1 : Dev nD → Valuation τ sig (Elt F) := fun c => StableHlo.after hostOps0 (W0 m ρ c)

/-- After the host stretch `hostOps0_1`: each buffer an operation writes at what it computes from the contents before. -/
abbrev W2 : Dev nD → Valuation τ sig (Elt F) := fun c => StableHlo.after hostOps0_1 (W1 m ρ c)

/-- After the host stretch `hostOps0_2`: each buffer an operation writes at what it computes from the contents before. -/
abbrev W3 : Dev nD → Valuation τ sig (Elt F) := fun c => StableHlo.after hostOps0_2 (W2 m ρ c)
/-- Boundary 3's contents read at the TensorCore's references (what launch 0's proof data take). -/
abbrev V3 : (c : Dev nD) → (b : Ref sig .tc) → Buf (Elt F) ((c : Thread nD τ).loc b) := fun c b => W3 m ρ c b

/-- After launch 0: its arrays at what the write-backs fold to over the grid (an input as entered), every other
    buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- An input array of launch 0 is left as entered. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
/-- The result array of launch 0 holds the write-backs' fold. -/
theorem W4_out (c : Dev nD) : W4 m ρ c (Proc.devRef .tc main_v30) = (dat0 (V3 m ρ) c).arrAt 2 cfg0.N :=
  W4_arr m ρ c 2
/-- Boundary 4's contents read at the TensorCore's references (launch 0's exit contents). -/
abbrev V4 : (c : Dev nD) → (b : Ref sig .tc) → Buf (Elt F) ((c : Thread nD τ).loc b) := fun c b => W4 m ρ c b
/-- At launch 0's exit each of its arrays holds what the pipeline leaves and every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch `hostOps1`: each buffer an operation writes at what it computes from the contents before. -/
abbrev W5 : Dev nD → Valuation τ sig (Elt F) := fun c => StableHlo.after hostOps1 (W4 m ρ c)
/-- Boundary 5's contents read at the TensorCore's references (what launch 1's proof data take). -/
abbrev V5 : (c : Dev nD) → (b : Ref sig .tc) → Buf (Elt F) ((c : Thread nD τ).loc b) := fun c b => W5 m ρ c b

/-- After launch 1: its arrays at what the write-backs fold to over the grid (an input as entered), every other
    buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- An input array of launch 1 is left as entered. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
/-- The result array of launch 1 holds the write-backs' fold. -/
theorem W6_out (c : Dev nD) : W6 m ρ c (Proc.devRef .tc main_v45) = (dat1 (V5 m ρ) c).arrAt 2 cfg1.N :=
  W6_arr m ρ c 2
/-- Boundary 6's contents read at the TensorCore's references (launch 1's exit contents). -/
abbrev V6 : (c : Dev nD) → (b : Ref sig .tc) → Buf (Elt F) ((c : Thread nD τ).loc b) := fun c b => W6 m ρ c b
/-- At launch 1's exit each of its arrays holds what the pipeline leaves and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After launch 2: its arrays at what the write-backs fold to over the grid (an input as entered), every other
    buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- An input array of launch 2 is left as entered. -/
theorem W7_in (c : Dev nD) (w : Fin cfg2.W) (hin : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hin _).trans (A_eq2 (V6 m ρ) c w))
/-- The result array of launch 2 holds the write-backs' fold. -/
theorem W7_out (c : Dev nD) : W7 m ρ c (Proc.devRef .tc main_v46) = (dat2 (V6 m ρ) c).arrAt 2 cfg2.N :=
  W7_arr m ρ c 2
/-- Boundary 7's contents read at the TensorCore's references (launch 2's exit contents). -/
abbrev V7 : (c : Dev nD) → (b : Ref sig .tc) → Buf (Elt F) ((c : Thread nD τ).loc b) := fun c b => W7 m ρ c b
/-- At launch 2's exit each of its arrays holds what the pipeline leaves and every other buffer what it held at entry. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the host stretch `hostOps3`: each buffer an operation writes at what it computes from the contents before. -/
abbrev W8 : Dev nD → Valuation τ sig (Elt F) := fun c => StableHlo.after hostOps3 (W7 m ρ c)
/-- Boundary 8's contents read at the TensorCore's references (what launch 3's proof data take). -/
abbrev V8 : (c : Dev nD) → (b : Ref sig .tc) → Buf (Elt F) ((c : Thread nD τ).loc b) := fun c b => W8 m ρ c b

/-- After launch 3: its arrays at what the write-backs fold to over the grid (an input as entered), every other
    buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- An input array of launch 3 is left as entered. -/
theorem W9_in (c : Dev nD) (w : Fin cfg3.W) (hin : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hin _).trans (A_eq3 (V8 m ρ) c w))
/-- The result array of launch 3 holds the write-backs' fold. -/
theorem W9_out (c : Dev nD) : W9 m ρ c (Proc.devRef .tc main_v61) = (dat3 (V8 m ρ) c).arrAt 2 cfg3.N :=
  W9_arr m ρ c 2
/-- Boundary 9's contents read at the TensorCore's references (launch 3's exit contents). -/
abbrev V9 : (c : Dev nD) → (b : Ref sig .tc) → Buf (Elt F) ((c : Thread nD τ).loc b) := fun c b => W9 m ρ c b
/-- At launch 3's exit each of its arrays holds what the pipeline leaves and every other buffer what it held at entry. -/
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After the host stretch `hostOps4`: each buffer an operation writes at what it computes from the contents before. -/
abbrev W10 : Dev nD → Valuation τ sig (Elt F) := fun c => StableHlo.after hostOps4 (W9 m ρ c)
/-- Boundary 10's contents read at the TensorCore's references (what launch 4's proof data take). -/
abbrev V10 : (c : Dev nD) → (b : Ref sig .tc) → Buf (Elt F) ((c : Thread nD τ).loc b) := fun c b => W10 m ρ c b

/-- After launch 4: its arrays at what the write-backs fold to over the grid (an input as entered), every other
    buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
/-- An input array of launch 4 is left as entered. -/
theorem W11_in (c : Dev nD) (w : Fin cfg4.W) (hin : (cfg4.win w).isOut = false) :
    W11 m ρ c (Proc.devRef .tc (Pipeline.arrRef spec4 w)) = W10 m ρ c (Proc.devRef .tc (Pipeline.arrRef spec4 w)) :=
  (W11_arr m ρ c w).trans (((dat4 (V10 m ρ) c).arrAt_in w hin _).trans (A_eq4 (V10 m ρ) c w))
/-- The result array of launch 4 holds the write-backs' fold. -/
theorem W11_out (c : Dev nD) : W11 m ρ c (Proc.devRef .tc main_v63) = (dat4 (V10 m ρ) c).arrAt 2 cfg4.N :=
  W11_arr m ρ c 2
/-- Boundary 11's contents read at the TensorCore's references (launch 4's exit contents). -/
abbrev V11 : (c : Dev nD) → (b : Ref sig .tc) → Buf (Elt F) ((c : Thread nD τ).loc b) := fun c b => W11 m ρ c b
/-- At launch 4's exit each of its arrays holds what the pipeline leaves and every other buffer what it held at entry. -/
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)

/-! ## The arguments end as launched

No host operation writes an argument and no launch has one as a result array (a launch reads it through an input
window or bypasses it), so the fold at an argument's buffer walks back to the launch memory. -/

theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_ne m ρ c main_arg0 (by decide)
    _ = W9 m ρ c (Proc.devRef .tc main_arg0) := StableHlo.after_of_writes_sub hostOps4 _ hostOps4_writes (by decide)
    _ = W8 m ρ c (Proc.devRef .tc main_arg0) := W9_of_ne m ρ c main_arg0 (by decide)
    _ = W7 m ρ c (Proc.devRef .tc main_arg0) := StableHlo.after_of_writes_sub hostOps3 _ hostOps3_writes (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_in m ρ c 0 rfl
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := StableHlo.after_of_writes_sub hostOps4 _ hostOps4_writes (by decide)
    _ = W8 m ρ c (Proc.devRef .tc main_arg1) := W9_of_ne m ρ c main_arg1 (by decide)
    _ = W7 m ρ c (Proc.devRef .tc main_arg1) := StableHlo.after_of_writes_sub hostOps3 _ hostOps3_writes (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := StableHlo.after_of_writes_sub hostOps4 _ hostOps4_writes (by decide)
    _ = W8 m ρ c (Proc.devRef .tc main_arg2) := W9_of_ne m ρ c main_arg2 (by decide)
    _ = W7 m ρ c (Proc.devRef .tc main_arg2) := StableHlo.after_of_writes_sub hostOps3 _ hostOps3_writes (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := StableHlo.after_of_writes_sub hostOps4 _ hostOps4_writes (by decide)
    _ = W8 m ρ c (Proc.devRef .tc main_arg3) := W9_of_ne m ρ c main_arg3 (by decide)
    _ = W7 m ρ c (Proc.devRef .tc main_arg3) := StableHlo.after_of_writes_sub hostOps3 _ hostOps3_writes (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_in m ρ c 1 rfl
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_ne m ρ c main_arg4 (by decide)
    _ = W9 m ρ c (Proc.devRef .tc main_arg4) := StableHlo.after_of_writes_sub hostOps4 _ hostOps4_writes (by decide)
    _ = W8 m ρ c (Proc.devRef .tc main_arg4) := W9_of_ne m ρ c main_arg4 (by decide)
    _ = W7 m ρ c (Proc.devRef .tc main_arg4) := StableHlo.after_of_writes_sub hostOps3 _ hostOps3_writes (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := StableHlo.after_of_writes_sub hostOps4 _ hostOps4_writes (by decide)
    _ = W8 m ρ c (Proc.devRef .tc main_arg5) := W9_of_ne m ρ c main_arg5 (by decide)
    _ = W7 m ρ c (Proc.devRef .tc main_arg5) := StableHlo.after_of_writes_sub hostOps3 _ hostOps3_writes (by decide)
    _ = W6 m ρ c (Proc.devRef .tc main_arg5) := W7_in m ρ c 1 rfl
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W11_main_arg6 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := StableHlo.after_of_writes_sub hostOps4 _ hostOps4_writes (by decide)
    _ = W8 m ρ c (Proc.devRef .tc main_arg6) := W9_of_ne m ρ c main_arg6 (by decide)
    _ = W7 m ρ c (Proc.devRef .tc main_arg6) := StableHlo.after_of_writes_sub hostOps3 _ hostOps3_writes (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

/-! ## The proof data family and the thread state -/

/-- The prefetched tables' admissible contents: no launch has a table. -/
abbrev adm : (p : Fin 5) → (pcfgs (F := F) p).Adm := fun p => (cfgs p).toPCfg_adm
/-- Every launch's proof data, each at its entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references, from the contents `W`: it ends at those references at what
    the stretch's operations leave, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W11 m ρ c) ∗ ∃ r, prngReg c r)

/-! ## The launches as segments -/

set_option backward.isDefEq.respectTransparency.types false in
/-- Launch 0 over the thread state: entered from every unscoped buffer at boundary 3's contents, left at boundary 4's.
    Its arrays are split out of the unscoped buffers and put back at the exit contents; the generator register goes into
    the launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at boundary 5's contents, left at boundary 6's.
    Its arrays are split out of the unscoped buffers and put back at the exit contents; the generator register goes into
    the launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at boundary 6's contents, left at boundary 7's.
    Its arrays are split out of the unscoped buffers and put back at the exit contents; the generator register goes into
    the launch's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered from every unscoped buffer at boundary 8's contents, left at boundary 9's.
    Its arrays are split out of the unscoped buffers and put back at the exit contents; the generator register goes into
    the launch's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4 over the thread state: entered from every unscoped buffer at boundary 10's contents, left at boundary 11's.
    Its arrays are split out of the unscoped buffers and put back at the exit contents; the generator register goes into
    the launch's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V10 m ρ) c).Φ 0 from rfl]
    refine BIBase.Entails.trans ?_ (Φ4_in (V10 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (V10 m ρ) c).Φ (Fin.last _) from rfl]
    refine BIBase.Entails.trans (Φ4_out (V10 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The eleven segments in order: a host segment per stretch from its boundary's contents, a region per launch. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .host (hseg hostOps4 hostOps4_sub hostOps4_fresh (W9 m ρ)),
    .region (reg4 m ρ) ]
/-- The program is the run of the segments: it is the chain of its items, and the segments' run unfolds to the same chain. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of the program on the
    TensorCores terminates, nothing faulting, and in every final state every unscoped buffer of every core holds the last
    boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W11 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c b hb => h c _ (mem_uc b hb))

/-- THE FRAME: every weakly fair execution terminates, nothing faulting, and every final state has the argument arrays as
    launched — each argument is an unscoped buffer, and the last boundary's contents at it are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c main_arg0 (by decide)).trans (W11_main_arg0 m ρ c),
     (h c main_arg1 (by decide)).trans (W11_main_arg1 m ρ c),
     (h c main_arg2 (by decide)).trans (W11_main_arg2 m ρ c),
     (h c main_arg3 (by decide)).trans (W11_main_arg3 m ρ c),
     (h c main_arg4 (by decide)).trans (W11_main_arg4 m ρ c),
     (h c main_arg5 (by decide)).trans (W11_main_arg5 m ρ c),
     (h c main_arg6 (by decide)).trans (W11_main_arg6 m ρ c)⟩) (run_all m ρ)

end Cert.Kernel.Frm

end
-- ==== Proof.KI.R0.lean ====
/-
  A linear layer's launch, at the buffer contents `V` the launch finds. Grid point t stages rows
  5000·t … 5000·t+4999 of the node features and the whole weight matrix; the body stores the product of the
  row block with the weights into the output's staging block, which is written back to the same rows of the
  result. Here: what each window's staging block holds at a point, the body's run, the launch's proof data and
  its body obligation.
-/
import proofs.«418392_j82944408420780_1_alg».proof.Proof.Gen.KernelIdeal.Launch
import proofs.«418392_j82944408420780_1_alg».proof.Proof.Gen.KernelIdeal.Skeleton
import proofs.«418392_j82944408420780_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's staging block holds its rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging block holds the whole matrix at every point (fetched once, never moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x128 := Rect.unit (s := S5000x128) ![0, 0] S5000x128.size inb_S5000x128_S5000x128_0_0

/-- The output's staging block after the body: the one whole-block store of the row block times the weights. -/
def out0_2 (x0 : Vec F S5000x128 .f32) (x1 : Vec F S128x128 .f32) : Vec F S5000x128 .f32 :=
  View.canon [⟨r0_2, k0_pay1 (View.ld x0 r0_0) (View.ld x1 r0_1)⟩]

/-- The one store covers the whole output block. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

set_option maxHeartbeats 1000000 in
/-- The body on whole staging blocks: both inputs are handed back as found, the output block holds the stored value. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The launch's proof data on core `c`: the arrays as found; after the body each input block in place and the
    output block at the stored value; the untouched rest as the invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.R1.lean ====
/-
  A bias-and-rectify launch, at the buffer contents `V` the launch finds. Grid point t stages rows
  5000·t … 5000·t+4999 of the aggregated messages and the one-row bias; the body stores max(a + b, 0), the bias
  row repeated down the block, into the output's staging block, which is written back to the same rows of the
  result. Here: what each window's staging block holds at a point, the body's run, the launch's proof data and
  its body obligation.
-/
import proofs.«418392_j82944408420780_1_alg».proof.Proof.Gen.KernelIdeal.Launch
import proofs.«418392_j82944408420780_1_alg».proof.Proof.Gen.KernelIdeal.Skeleton
import proofs.«418392_j82944408420780_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row window's staging block holds its rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging block holds the bias row at every point (fetched once, never moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S5000x128 := Rect.unit (s := S5000x128) ![0, 0] S5000x128.size inb_S5000x128_S5000x128_0_0

/-- The output's staging block after the body: the one whole-block store of max(a + b, 0). -/
def out1_2 (x0 : Vec F S5000x128 .f32) (x1 : Vec F S1x128 .f32) : Vec F S5000x128 .f32 :=
  View.canon [⟨r1_2, k1_pay1 (View.ld x0 r1_0) (View.ld x1 r1_1)⟩]

/-- The one store covers the whole output block. -/
theorem cover1_2 (p0 : Vec F S5000x128 .f32) (y : S5000x128.Idx) :
    ∃ pc ∈ ([⟨r1_2, p0⟩] : List (View.Piece (Elt F) S5000x128 .f32)), y ∈ pc.1.set :=
  View.cover_of_tiled [⟨r1_2, p0⟩] S5000x128.size (by rfl) y

set_option maxHeartbeats 1000000 in
/-- The body on whole staging blocks: both inputs are handed back as found, the output block holds the stored value. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The launch's proof data on core `c`: the arrays as found; after the body each input block in place and the
    output block at the stored value; the untouched rest as the invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.R2.lean ====
/-
  A linear layer's launch, at the buffer contents `V` the launch finds. Grid point t stages rows
  5000·t … 5000·t+4999 of the node features and the whole weight matrix; the body stores the product of the
  row block with the weights into the output's staging block, which is written back to the same rows of the
  result. Here: what each window's staging block holds at a point, the body's run, the launch's proof data and
  its body obligation.
-/
import proofs.«418392_j82944408420780_1_alg».proof.Proof.Gen.KernelIdeal.Launch
import proofs.«418392_j82944408420780_1_alg».proof.Proof.Gen.KernelIdeal.Skeleton
import proofs.«418392_j82944408420780_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row window's staging block holds its rows at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging block holds the whole matrix at every point (fetched once, never moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x128 := Rect.unit (s := S5000x128) ![0, 0] S5000x128.size inb_S5000x128_S5000x128_0_0
abbrev r2_1 : Rect S128x64 := Rect.unit (s := S128x64) ![0, 0] S128x64.size inb_S128x64_S128x64_0_0
abbrev r2_2 : Rect S5000x64 := Rect.unit (s := S5000x64) ![0, 0] S5000x64.size inb_S5000x64_S5000x64_0_0

/-- The output's staging block after the body: the one whole-block store of the row block times the weights. -/
def out2_2 (x0 : Vec F S5000x128 .f32) (x1 : Vec F S128x64 .f32) : Vec F S5000x64 .f32 :=
  View.canon [⟨r2_2, k2_pay1 (View.ld x0 r2_0) (View.ld x1 r2_1)⟩]

/-- The one store covers the whole output block. -/
theorem cover2_2 (p0 : Vec F S5000x64 .f32) (y : S5000x64.Idx) :
    ∃ pc ∈ ([⟨r2_2, p0⟩] : List (View.Piece (Elt F) S5000x64 .f32)), y ∈ pc.1.set :=
  View.cover_of_tiled [⟨r2_2, p0⟩] S5000x64.size (by rfl) y

set_option maxHeartbeats 1000000 in
/-- The body on whole staging blocks: both inputs are handed back as found, the output block holds the stored value. -/
theorem sound_kernel2 (c : Dev nD) (E : Set ℕ) (i : grid2.Coords) (arg1 : Memref sig .tc .vmem S5000x128 .f32) (harg1 : arg1.IsWhole) (arg2 : Memref sig .tc .vmem S128x64 .f32) (harg2 : arg2.IsWhole) (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The launch's proof data on core `c`: the arrays as found; after the body each input block in place and the
    output block at the stored value; the untouched rest as the invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.R3.lean ====
/-
  A bias-and-rectify launch, at the buffer contents `V` the launch finds. Grid point t stages rows
  5000·t … 5000·t+4999 of the aggregated messages and the one-row bias; the body stores max(a + b, 0), the bias
  row repeated down the block, into the output's staging block, which is written back to the same rows of the
  result. Here: what each window's staging block holds at a point, the body's run, the launch's proof data and
  its body obligation.
-/
import proofs.«418392_j82944408420780_1_alg».proof.Proof.Gen.KernelIdeal.Launch
import proofs.«418392_j82944408420780_1_alg».proof.Proof.Gen.KernelIdeal.Skeleton
import proofs.«418392_j82944408420780_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row window's staging block holds its rows at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias window's staging block holds the bias row at every point (fetched once, never moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x64 := Rect.unit (s := S5000x64) ![0, 0] S5000x64.size inb_S5000x64_S5000x64_0_0
abbrev r3_1 : Rect S1x64 := Rect.unit (s := S1x64) ![0, 0] S1x64.size inb_S1x64_S1x64_0_0
abbrev r3_2 : Rect S5000x64 := Rect.unit (s := S5000x64) ![0, 0] S5000x64.size inb_S5000x64_S5000x64_0_0

/-- The output's staging block after the body: the one whole-block store of max(a + b, 0). -/
def out3_2 (x0 : Vec F S5000x64 .f32) (x1 : Vec F S1x64 .f32) : Vec F S5000x64 .f32 :=
  View.canon [⟨r3_2, k3_pay1 (View.ld x0 r3_0) (View.ld x1 r3_1)⟩]

/-- The one store covers the whole output block. -/
theorem cover3_2 (p0 : Vec F S5000x64 .f32) (y : S5000x64.Idx) :
    ∃ pc ∈ ([⟨r3_2, p0⟩] : List (View.Piece (Elt F) S5000x64 .f32)), y ∈ pc.1.set :=
  View.cover_of_tiled [⟨r3_2, p0⟩] S5000x64.size (by rfl) y

set_option maxHeartbeats 1000000 in
/-- The body on whole staging blocks: both inputs are handed back as found, the output block holds the stored value. -/
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The launch's proof data on core `c`: the arrays as found; after the body each input block in place and the
    output block at the stored value; the untouched rest as the invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the launch, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.R4Defs.lean ====
/-
  The pooling launch (pallas_call 4) as pure functions of the buffer contents `V` the launch finds: the blocks
  its grid points stage, and what its two carried accumulators hold after each point. Point n stages rows
  2000·n … 2000·n+1999 of the node features (64 columns) and of the graph ids (one column). The first point
  clears both accumulators; every point adds, for each graph g, the sum of the block's rows whose id is g to row g
  of the 64×64 accumulator and the number of such rows to entry g of the 64×1 accumulator; the last point stores
  the sums divided by max(count, 1).
-/
import proofs.«418392_j82944408420780_1_alg».proof.Proof.Gen.KernelIdeal.Launch
import proofs.«418392_j82944408420780_1_alg».proof.Proof.Gen.KernelIdeal.Skeleton
import proofs.«418392_j82944408420780_1_alg».proof.Proof.Gen.KernelIdeal.Points
import Idealize.ShloMosaic.Lib.Pipeline.FrameBody

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The feature rows staged at point `n` (anything past the grid's end). -/
def hblk4 (c : Dev nD) (n : ℕ) : Vec F S2000x64 .f32 :=
  if h : n < cfg4.N then iblk4 V c 0 ⟨n, h⟩ else iblk4 V c 0 ⟨0, by decide⟩

/-- The graph ids staged at point `n` (anything past the grid's end). -/
def bblk4 (c : Dev nD) (n : ℕ) : Vec F S2000x1 .i32 :=
  if h : n < cfg4.N then iblk4 V c 1 ⟨n, h⟩ else iblk4 V c 1 ⟨0, by decide⟩

/-- The 64×64 accumulator after point `n`: cleared before point 0's contribution, then one contribution a point. -/
def sumsAt4 (c : Dev nD) : ℕ → Vec F S64x64 .f32
  | 0 => k4_pay4 (bblk4 V c 0) (hblk4 V c 0) k4_pay1
  | n + 1 => k4_pay4 (bblk4 V c (n + 1)) (hblk4 V c (n + 1)) (sumsAt4 c n)

/-- The 64×1 accumulator of row counts after point `n`. -/
def cntsAt4 (c : Dev nD) : ℕ → Vec F S64x1 .f32
  | 0 => k4_pay5 (bblk4 V c 0) k4_pay2
  | n + 1 => k4_pay5 (bblk4 V c (n + 1)) (cntsAt4 c n)

/-- What the last point stores into the result's staging block: the sums over the counts, a count below one read as one. -/
def res4 (c : Dev nD) : Vec F S64x64 .f32 := k4_pay6 (sumsAt4 V c 49) (cntsAt4 V c 49)

end Cert.KernelIdeal.Frm

end
-- ==== Proof.KI.R4.lean ====
/-
  The pooling launch, at the buffer contents `V` the launch finds. Grid point t stages rows 2000·t … 2000·t+1999 of
  the node features and of the graph ids; two carried accumulators (a 64×64 block of sums, a 64×1 block of counts)
  live beside the staged blocks and are no window of the launch. The first point clears them, every point adds
  its block's contribution, the last point stores the quotient into the result's staging block, which is written
  back once. Here: the launch's invariant between points (the accumulators' contents), the body's run in its three
  control cases, the launch's proof data and its body obligation, and the result array after the launch.
-/
import proofs.«418392_j82944408420780_1_alg».proof.Proof.KI.R4Defs
import proofs.«418392_j82944408420780_1_alg».proof.Proof.Gen.KernelIdeal.Launch
import proofs.«418392_j82944408420780_1_alg».proof.Proof.Gen.KernelIdeal.Skeleton
import proofs.«418392_j82944408420780_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- The body's first condition (it clears the accumulators), as computed from the grid coordinate. -/
abbrev cond4_1 (i : grid4.Coords) : Prop :=
  (Scalar.cmpi .ne (Scalar.extui (Scalar.cmpi .eq (BitVec.ofNat 32 (i 0).val) 0#32)) 0#32) = 1#1

/-- It holds at the first point only. -/
theorem hcond4_1 : ∀ t : Fin cfg4.N, cond4_1 (grid4.coords t) ↔ t.val = 0 :=
  (by decide +kernel : ∀ t : Fin grid4.N, cond4_1 (grid4.coords t) ↔ t.val = 0)

/-- The second condition (the quotient is stored) holds at the last point only. -/
theorem hcond4_2 : ∀ t : Fin cfg4.N, k4_cond2 (grid4.coords t) = 1#1 ↔ t.val = 49 :=
  (by decide +kernel : ∀ t : Fin grid4.N, k4_cond2 (grid4.coords t) = 1#1 ↔ t.val = 49)

/-- The result's window is idle at every point but the last, -/
theorem idle4_2_true : ∀ t : Fin cfg4.N, t.val ≠ 49 → cfg4.idle (2 : Fin 3) (cfg4.grid.coords t) = true :=
  (by decide +kernel : ∀ t : Fin grid4.N, t.val ≠ 49 → idle4 2 (grid4.coords t) = true)

/-- live at the last, -/
theorem idle4_2_false : ∀ t : Fin cfg4.N, t.val = 49 → cfg4.idle (2 : Fin 3) (cfg4.grid.coords t) = false :=
  (by decide +kernel : ∀ t : Fin grid4.N, t.val = 49 → idle4 2 (grid4.coords t) = false)

/-- and written back at no point but the last. -/
theorem flush4_2_false : ∀ t : Fin cfg4.N, t.val ≠ 49 → (cfg4.win 2).flush t = false :=
  (by decide +kernel : ∀ t : Fin grid4.N, t.val ≠ 49 → win4_2.flush t = false)

/-! ## The staged blocks and the accumulators' recursion, at a grid point -/

theorem hblk4_val (c : Dev nD) (t : Fin cfg4.N) : hblk4 V c t.val = iblk4 V c 0 t := by
  simp only [hblk4, dif_pos t.isLt, Fin.eta]

theorem bblk4_val (c : Dev nD) (t : Fin cfg4.N) : bblk4 V c t.val = iblk4 V c 1 t := by
  simp only [bblk4, dif_pos t.isLt, Fin.eta]

/-- The sums after the first point: the cleared block plus the point's contribution. -/
theorem sumsAt4_first (c : Dev nD) (t : Fin cfg4.N) (h0 : t.val = 0) :
    k4_pay4 (iblk4 V c 1 t) (iblk4 V c 0 t) k4_pay1 = sumsAt4 V c t.val := by
  rw [← bblk4_val, ← hblk4_val, h0]; simp only [sumsAt4]

theorem cntsAt4_first (c : Dev nD) (t : Fin cfg4.N) (h0 : t.val = 0) :
    k4_pay5 (iblk4 V c 1 t) k4_pay2 = cntsAt4 V c t.val := by
  rw [← bblk4_val, h0]; simp only [cntsAt4]

/-- The sums after a later point: the sums after the point before plus the point's contribution. -/
theorem sumsAt4_next (c : Dev nD) (t : Fin cfg4.N) (h0 : t.val ≠ 0) :
    k4_pay4 (iblk4 V c 1 t) (iblk4 V c 0 t) (sumsAt4 V c (t.val - 1)) = sumsAt4 V c t.val := by
  obtain ⟨n, hn⟩ := Nat.exists_eq_succ_of_ne_zero h0
  rw [← bblk4_val, ← hblk4_val, hn]; simp only [sumsAt4, Nat.succ_eq_add_one, Nat.add_sub_cancel]

theorem cntsAt4_next (c : Dev nD) (t : Fin cfg4.N) (h0 : t.val ≠ 0) :
    k4_pay5 (iblk4 V c 1 t) (cntsAt4 V c (t.val - 1)) = cntsAt4 V c t.val := by
  obtain ⟨n, hn⟩ := Nat.exists_eq_succ_of_ne_zero h0
  rw [← bblk4_val, hn]; simp only [cntsAt4, Nat.succ_eq_add_one, Nat.add_sub_cancel]

/-! ## Loads and stores of whole buffers -/

theorem hz2 : (![0, 0] : Fin 2 → Nat) = fun _ => 0 := funext fun a => by fin_cases a <;> rfl

/-- A load of a whole buffer through the full rectangle reads its contents. -/
theorem readAt_full {S : Shape} {e : EltTy} {κ : Kind} {sp : Space} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  View.ld_unit_zero h inb _

/-- One store through the full rectangle covers the buffer, whatever was stored before. -/
theorem cover_full {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

/-! ## The body's run, in its three control cases -/

set_option maxHeartbeats 1000000 in
/-- A point that is neither the first nor the last: both accumulators are read, the point's contribution is added,
    and they are stored back; the result's staging block is not touched. -/
theorem sound_kernel4_mid (c : Dev nD) (E : Set ℕ) (i : grid4.Coords) (h1 : ¬ cond4_1 i) (h2 : ¬ k4_cond2 i = 1#1)
    (arg1 : Memref sig .tc .vmem S2000x64 .f32) (harg1 : arg1.IsWhole) (arg2 : Memref sig .tc .vmem S2000x1 .i32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole)
    (x0 : Vec F S2000x64 .f32) (x1 : Vec F S2000x1 .i32) (s : Vec F S64x64 .f32) (n : Vec F S64x1 .f32) (K : PUnit → sProp 𝕄) :
    iprop(owns (c : Thread nD τ) arg1 fullShare x0 ∗ owns (c : Thread nD τ) arg2 fullShare x1
        ∗ owns (c : Thread nD τ) arg4 fullShare s ∗ owns (c : Thread nD τ) arg5 fullShare n
        ∗ (iprop(owns (c : Thread nD τ) arg1 fullShare x0 ∗ owns (c : Thread nD τ) arg2 fullShare x1
            ∗ owns (c : Thread nD τ) arg4 fullShare (k4_pay4 x1 x0 s) ∗ owns (c : Thread nD τ) arg5 fullShare (k4_pay5 x1 n)) -∗ K ⟨⟩))
      ⊢ wp frame (wpE (defs₀ (F := F)) Variants.none c none) E (cc4__mean_pool_kernel i arg1 harg1 arg2 harg2 arg3 harg3 arg4 harg4 arg5 harg5) K := by
  simp only [cc4__mean_pool_kernel_eq_skeleton]; unfold cc4__mean_pool_kernel_skel
  unfold owns
  iintro ⟨⟨%f0, %hf0, H0⟩, ⟨%f1, %hf1, H1⟩, ⟨%f4, %hf4, H4⟩, ⟨%f5, %hf5, H5⟩, Hk⟩
  subst hf0
  subst hf1
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (cover_full (S := S64x64) hz2 _ _ _), View.canon_cons_unit_zero (S := S64x64) hz2,
      readAt_full (S := S2000x1) _ hz2, readAt_full (S := S2000x64) _ hz2, readAt_full (S := S64x64) _ hz2]
  · iexists _; isplitr
    swap; · iexact H5
    ipureintro
    rw [View.read_writes_eq_canon _ _ _ (cover_full (S := S64x1) hz2 _ _ _), View.canon_cons_unit_zero (S := S64x1) hz2,
      readAt_full (S := S2000x1) _ hz2, readAt_full (S := S64x1) _ hz2]

set_option maxHeartbeats 1000000 in
/-- The first point: the accumulators, whatever they held, are cleared, then read back with the point's contribution
    added; the result's staging block is not touched. -/
theorem sound_kernel4_first (c : Dev nD) (E : Set ℕ) (i : grid4.Coords) (h1 : cond4_1 i) (h2 : ¬ k4_cond2 i = 1#1)
    (arg1 : Memref sig .tc .vmem S2000x64 .f32) (harg1 : arg1.IsWhole) (arg2 : Memref sig .tc .vmem S2000x1 .i32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole)
    (x0 : Vec F S2000x64 .f32) (x1 : Vec F S2000x1 .i32) (K : PUnit → sProp 𝕄) :
    iprop(owns (c : Thread nD τ) arg1 fullShare x0 ∗ owns (c : Thread nD τ) arg2 fullShare x1
        ∗ (∃ s, owns (c : Thread nD τ) arg4 fullShare s) ∗ (∃ n, owns (c : Thread nD τ) arg5 fullShare n)
        ∗ (iprop(owns (c : Thread nD τ) arg1 fullShare x0 ∗ owns (c : Thread nD τ) arg2 fullShare x1
            ∗ owns (c : Thread nD τ) arg4 fullShare (k4_pay4 x1 x0 k4_pay1) ∗ owns (c : Thread nD τ) arg5 fullShare (k4_pay5 x1 k4_pay2)) -∗ K ⟨⟩))
      ⊢ wp frame (wpE (defs₀ (F := F)) Variants.none c none) E (cc4__mean_pool_kernel i arg1 harg1 arg2 harg2 arg3 harg3 arg4 harg4 arg5 harg5) K := by
  simp only [cc4__mean_pool_kernel_eq_skeleton]; unfold cc4__mean_pool_kernel_skel
  unfold owns
  iintro ⟨⟨%f0, %hf0, H0⟩, ⟨%f1, %hf1, H1⟩, ⟨%s, %f4, -, H4⟩, ⟨%n, %f5, -, H5⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (cover_full (S := S64x64) hz2 _ _ _), View.canon_cons_unit_zero (S := S64x64) hz2,
      View.readCov_unit_zero (S := S64x64) _ hz2, readAt_full (S := S2000x1) _ hz2, readAt_full (S := S2000x64) _ hz2]
  · iexists _; isplitr
    swap; · iexact H5
    ipureintro
    sl_unfold_words
    rw [View.read_writes_eq_canon _ _ _ (cover_full (S := S64x1) hz2 _ _ _), View.canon_cons_unit_zero (S := S64x1) hz2,
      View.readCov_unit_zero (S := S64x1) _ hz2, readAt_full (S := S2000x1) _ hz2]

set_option maxHeartbeats 1000000 in
/-- The last point: as a middle point, and then both accumulators are read back and their quotient is stored into
    the result's staging block. -/
theorem sound_kernel4_last (c : Dev nD) (E : Set ℕ) (i : grid4.Coords) (h1 : ¬ cond4_1 i) (h2 : k4_cond2 i = 1#1)
    (arg1 : Memref sig .tc .vmem S2000x64 .f32) (harg1 : arg1.IsWhole) (arg2 : Memref sig .tc .vmem S2000x1 .i32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole)
    (x0 : Vec F S2000x64 .f32) (x1 : Vec F S2000x1 .i32) (s : Vec F S64x64 .f32) (n : Vec F S64x1 .f32) (K : PUnit → sProp 𝕄) :
    iprop(owns (c : Thread nD τ) arg1 fullShare x0 ∗ owns (c : Thread nD τ) arg2 fullShare x1
        ∗ (∃ d, owns (c : Thread nD τ) arg3 fullShare d)
        ∗ owns (c : Thread nD τ) arg4 fullShare s ∗ owns (c : Thread nD τ) arg5 fullShare n
        ∗ (iprop(owns (c : Thread nD τ) arg1 fullShare x0 ∗ owns (c : Thread nD τ) arg2 fullShare x1
            ∗ owns (c : Thread nD τ) arg3 fullShare (k4_pay6 (k4_pay4 x1 x0 s) (k4_pay5 x1 n))
            ∗ owns (c : Thread nD τ) arg4 fullShare (k4_pay4 x1 x0 s) ∗ owns (c : Thread nD τ) arg5 fullShare (k4_pay5 x1 n)) -∗ K ⟨⟩))
      ⊢ wp frame (wpE (defs₀ (F := F)) Variants.none c none) E (cc4__mean_pool_kernel i arg1 harg1 arg2 harg2 arg3 harg3 arg4 harg4 arg5 harg5) K := by
  simp only [cc4__mean_pool_kernel_eq_skeleton]; unfold cc4__mean_pool_kernel_skel
  unfold owns
  iintro ⟨⟨%f0, %hf0, H0⟩, ⟨%f1, %hf1, H1⟩, ⟨%d3, %f3, -, H3⟩, ⟨%f4, %hf4, H4⟩, ⟨%f5, %hf5, H5⟩, Hk⟩
  subst hf0
  subst hf1
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [View.read_writes_eq_canon _ _ _ (cover_full (S := S64x64) hz2 _ _ _), View.canon_cons_unit_zero (S := S64x64) hz2,
      View.readCov_unit_zero (S := S64x64) _ hz2, View.readCov_unit_zero (S := S64x1) _ hz2,
      readAt_full (S := S2000x1) _ hz2, readAt_full (S := S2000x64) _ hz2, readAt_full (S := S64x64) _ hz2, readAt_full (S := S64x1) _ hz2]
  isplitl [H4]
  · iexists _; isplitr
    swap; · iexact H4
    ipureintro
    sl_unfold_words
    rw [View.read_writes_eq_canon _ _ _ (cover_full (S := S64x64) hz2 _ _ _), View.canon_cons_unit_zero (S := S64x64) hz2,
      readAt_full (S := S2000x1) _ hz2, readAt_full (S := S2000x64) _ hz2, readAt_full (S := S64x64) _ hz2]
  · iexists _; isplitr
    swap; · iexact H5
    ipureintro
    sl_unfold_words
    rw [View.read_writes_eq_canon _ _ _ (cover_full (S := S64x1) hz2 _ _ _), View.canon_cons_unit_zero (S := S64x1) hz2,
      readAt_full (S := S2000x1) _ hz2, readAt_full (S := S64x1) _ hz2]

/-! ## The launch's invariant and proof data -/

/-- The launch's invariant before point `t` (after point `t - 1`): the two accumulators held whole — at any contents
    before the first point, after point `t - 1` at the sums and the counts of the rows staged so far — beside the
    core's other scoped buffers and its generator register. -/
def Φ4 (c : Dev nD) (t : Fin (cfg4.N + 1)) : sProp 𝕄 :=
  iprop((∃ X : cc4_scratch0.ty.Contents (Elt F), ⌜t.val ≠ 0 → X = sumsAt4 V c (t.val - 1)⌝
        ∗ owns (c : Thread nD τ) (Memref.whole cc4_scratch0) fullShare X)
    ∗ (∃ Y : cc4_scratch1.ty.Contents (Elt F), ⌜t.val ≠ 0 → Y = cntsAt4 V c (t.val - 1)⌝
        ∗ owns (c : Thread nD τ) (Memref.whole cc4_scratch1) fullShare Y)
    ∗ Pipeline.scopedRestBut (Ix := Unit) (Name := ℕ) (U := UR sig nD τ) (Lvl := ℕ) (Val := Elt F) spec4 c [cc4_scratch0, cc4_scratch1]
    ∗ ∃ r, prngReg c r)

/-- The launch's proof data on core `c`: the arrays as found; after the body each input block in place and the
    result's block at the quotient; the accumulators as the invariant; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => res4 V c
  Φ t := Φ4 V c t
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = res4 V c := by dsimp only [dat4]

/-- The core's scoped buffers that no window stages, split at the two accumulators. -/
theorem scopedRest4_split (c : Dev nD) :
    (Pipeline.scopedRest (Ix := Unit) (Name := ℕ) (U := UR sig nD τ) (Lvl := ℕ) (Val := Elt F) spec4 c : sProp 𝕄)
      = iprop(iprop((∃ f : Buf (Elt F) ((c : Thread nD τ).loc cc4_scratch0), ((c : Thread nD τ).loc cc4_scratch0) ↦{fullShare} f)
            ∗ (∃ f : Buf (Elt F) ((c : Thread nD τ).loc cc4_scratch1), ((c : Thread nD τ).loc cc4_scratch1) ↦{fullShare} f))
          ∗ Pipeline.scopedRestBut (Ix := Unit) (Name := ℕ) (U := UR sig nD τ) (Lvl := ℕ) (Val := Elt F) spec4 c [cc4_scratch0, cc4_scratch1]) :=
  Pipeline.scopedRest_split_of_list spec4 c [cc4_scratch0, cc4_scratch1] (by decide) (by decide)

/-- Entering the launch: the accumulators hold anything. -/
theorem Φ4_in (c : Dev nD) : (Pipeline.ΦA spec4 c : sProp 𝕄) ⊢ (dat4 V c).Φ 0 := by
  show (Pipeline.ΦA spec4 c : sProp 𝕄) ⊢ Φ4 V c 0
  unfold Pipeline.ΦA Φ4
  rw [scopedRest4_split]
  iintro ⟨⟨⟨⟨%f0, H0⟩, ⟨%f1, H1⟩⟩, Hrest⟩, Hr⟩
  isplitl [H0]
  · iexists f0; isplitr; · ipureintro; intro h; exact absurd rfl h
    rw [owns_whole]; iexact H0
  isplitl [H1]
  · iexists f1; isplitr; · ipureintro; intro h; exact absurd rfl h
    rw [owns_whole]; iexact H1
  isplitl [Hrest]; · iexact Hrest
  iexact Hr

/-- A whole buffer held at known contents is held at some contents. -/
theorem whole_forget (c : Dev nD) (b : Ref sig .tc) (X : b.ty.Contents (Elt F)) :
    owns (c : Thread nD τ) (Memref.whole b) fullShare X
      ⊢ (iprop(∃ f : Buf (Elt F) ((c : Thread nD τ).loc b), ((c : Thread nD τ).loc b) ↦{fullShare} f) : sProp 𝕄) := by
  rw [owns_whole]; iintro H; iexists X; iexact H

/-- Leaving it: what they hold is forgotten. -/
theorem Φ4_out (c : Dev nD) : (dat4 V c).Φ (Fin.last _) ⊢ (Pipeline.ΦA spec4 c : sProp 𝕄) := by
  show Φ4 V c (Fin.last _) ⊢ (Pipeline.ΦA spec4 c : sProp 𝕄)
  unfold Pipeline.ΦA Φ4
  rw [scopedRest4_split]
  iintro ⟨⟨%X, -, H0⟩, ⟨%Y, -, H1⟩, Hrest, Hr⟩
  isplitr [Hr]
  · isplitr [Hrest]
    · isplitl [H0]
      · iapply whole_forget; iexact H0
      · iapply whole_forget; iexact H1
    · iexact Hrest
  · iexact Hr

/-! ## What the body finds in the input windows' staging blocks -/

/-- The feature window's staging block holds its rows at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The id window's staging block holds its rows at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The quotient the last point stores, over the accumulators after that point. -/
theorem res4_at (c : Dev nD) (t : Fin cfg4.N) (h49 : t.val = 49) :
    res4 V c = k4_pay6 (sumsAt4 V c t.val) (cntsAt4 V c t.val) := by
  rw [h49]; rfl

/-! ## The body obligation -/

/-- At a point before the last the result's window is idle and not written back: its block is handed back as found. -/
theorem leaves4_idle (c : Dev nD) (t : Fin cfg4.N) (h49 : t.val ≠ 49) :
    (dat4 V c).leavesExact 2 t = iprop(∃ d, owns (c : Thread nD τ) (st4_2 t) fullShare ((dat4 V c).before 2 t d)) :=
  (dat4 V c).leavesExact_idle 2 t (idle4_2_true t h49) (flush4_2_false t h49)

/-- At the last point it is live: its block is left at the stored quotient. -/
theorem leaves4_last (c : Dev nD) (t : Fin cfg4.N) (h49 : t.val = 49) :
    (dat4 V c).leavesExact 2 t = owns (c : Thread nD τ) (st4_2 t) fullShare ((dat4 V c).after 2 t) := by
  unfold Dat.leavesExact; rw [idle4_2_false t h49]

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the inputs' blocks in place, the result's block as its window's state at the point says. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ (dat4 V c).leavesExact 2 t)

/-- The first point: the accumulators end at the first block's contribution to the cleared blocks. -/
theorem sound_body4_first (c : Dev nD) (t : Fin cfg4.N) (h0 : t.val = 0) (h49 : t.val ≠ 49) :
    bodyPre4 V c t ⊢ wp frame (wpE (defs₀ (F := F)) Variants.none c none) Set.univ (bodyAt4 t) (fun _ => bodyPost4 V c t) := by
  unfold bodyPre4 bodyPost4 bodyAt4
  rw [leaves4_idle V c t h49]
  simp only [before4_0, before4_1]
  rw [show (dat4 V c).Φ t.succ = Φ4 V c t.succ from rfl, show (dat4 V c).Φ t.castSucc = Φ4 V c t.castSucc from rfl,
    show (dat4 V c).owesAt () t.succ = (dat4 V c).owesAt () t.castSucc from rfl, after4_0, after4_1]
  unfold Φ4
  iintro ⟨⟨⟨%X, -, HS⟩, ⟨%Y, -, HC⟩, Hrest, Hr⟩, Ho, ⟨%d0, H0⟩, ⟨%d1, H1⟩, H2⟩
  iapply (sound_kernel4_first c Set.univ _ ((hcond4_1 t).mpr h0) (mt (hcond4_2 t).mp h49) _ _ _ _ _ _ _ _ _ _ (iblk4 V c 0 t) (iblk4 V c 1 t) _)
  isplitl [H0]; · iexact H0
  isplitl [H1]; · iexact H1
  isplitl [HS]; · iexists X; iexact HS
  isplitl [HC]; · iexists Y; iexact HC
  iintro ⟨H0, H1, HS, HC⟩
  rw [sumsAt4_first V c t h0, cntsAt4_first V c t h0]
  isplitl [HS HC Hrest Hr]
  · isplitl [HS]
    · iexists _; isplitr; swap; · iexact HS
      ipureintro; intro _; simp only [Fin.val_succ, Nat.add_sub_cancel]
    isplitl [HC]
    · iexists _; isplitr; swap; · iexact HC
      ipureintro; intro _; simp only [Fin.val_succ, Nat.add_sub_cancel]
    isplitl [Hrest]; · iexact Hrest
    iexact Hr
  isplitl [Ho]; · iexact Ho
  isplitl [H0]; · iexact H0
  isplitl [H1]; · iexact H1
  iexact H2

/-- A point between: each accumulator gains the point's contribution. -/
theorem sound_body4_mid (c : Dev nD) (t : Fin cfg4.N) (h0 : t.val ≠ 0) (h49 : t.val ≠ 49) :
    bodyPre4 V c t ⊢ wp frame (wpE (defs₀ (F := F)) Variants.none c none) Set.univ (bodyAt4 t) (fun _ => bodyPost4 V c t) := by
  unfold bodyPre4 bodyPost4 bodyAt4
  rw [leaves4_idle V c t h49]
  simp only [before4_0, before4_1]
  rw [show (dat4 V c).Φ t.succ = Φ4 V c t.succ from rfl, show (dat4 V c).Φ t.castSucc = Φ4 V c t.castSucc from rfl,
    show (dat4 V c).owesAt () t.succ = (dat4 V c).owesAt () t.castSucc from rfl, after4_0, after4_1]
  unfold Φ4
  iintro ⟨⟨⟨%X, %hX, HS⟩, ⟨%Y, %hY, HC⟩, Hrest, Hr⟩, Ho, ⟨%d0, H0⟩, ⟨%d1, H1⟩, H2⟩
  have hX' : X = sumsAt4 V c (t.val - 1) := hX h0
  have hY' : Y = cntsAt4 V c (t.val - 1) := hY h0
  subst hX'
  subst hY'
  iapply (sound_kernel4_mid c Set.univ _ (mt (hcond4_1 t).mp h0) (mt (hcond4_2 t).mp h49) _ _ _ _ _ _ _ _ _ _ (iblk4 V c 0 t) (iblk4 V c 1 t)
    (sumsAt4 V c (t.val - 1)) (cntsAt4 V c (t.val - 1)) _)
  isplitl [H0]; · iexact H0
  isplitl [H1]; · iexact H1
  isplitl [HS]; · iexact HS
  isplitl [HC]; · iexact HC
  iintro ⟨H0, H1, HS, HC⟩
  rw [sumsAt4_next V c t h0, cntsAt4_next V c t h0]
  isplitl [HS HC Hrest Hr]
  · isplitl [HS]
    · iexists _; isplitr; swap; · iexact HS
      ipureintro; intro _; simp only [Fin.val_succ, Nat.add_sub_cancel]
    isplitl [HC]
    · iexists _; isplitr; swap; · iexact HC
      ipureintro; intro _; simp only [Fin.val_succ, Nat.add_sub_cancel]
    isplitl [Hrest]; · iexact Hrest
    iexact Hr
  isplitl [Ho]; · iexact Ho
  isplitl [H0]; · iexact H0
  isplitl [H1]; · iexact H1
  iexact H2

/-- The last point: as a point between, and the result's staging block ends at the quotient. -/
theorem sound_body4_last (c : Dev nD) (t : Fin cfg4.N) (h0 : t.val ≠ 0) (h49 : t.val = 49) :
    bodyPre4 V c t ⊢ wp frame (wpE (defs₀ (F := F)) Variants.none c none) Set.univ (bodyAt4 t) (fun _ => bodyPost4 V c t) := by
  unfold bodyPre4 bodyPost4 bodyAt4
  rw [leaves4_last V c t h49]
  simp only [before4_0, before4_1]
  rw [show (dat4 V c).Φ t.succ = Φ4 V c t.succ from rfl, show (dat4 V c).Φ t.castSucc = Φ4 V c t.castSucc from rfl,
    show (dat4 V c).owesAt () t.succ = (dat4 V c).owesAt () t.castSucc from rfl, after4_0, after4_1, after4_2, res4_at V c t h49]
  unfold Φ4
  iintro ⟨⟨⟨%X, %hX, HS⟩, ⟨%Y, %hY, HC⟩, Hrest, Hr⟩, Ho, ⟨%d0, H0⟩, ⟨%d1, H1⟩, ⟨%d2, H2⟩⟩
  have hX' : X = sumsAt4 V c (t.val - 1) := hX h0
  have hY' : Y = cntsAt4 V c (t.val - 1) := hY h0
  subst hX'
  subst hY'
  iapply (sound_kernel4_last c Set.univ _ (mt (hcond4_1 t).mp h0) ((hcond4_2 t).mpr h49) _ _ _ _ _ _ _ _ _ _ (iblk4 V c 0 t) (iblk4 V c 1 t)
    (sumsAt4 V c (t.val - 1)) (cntsAt4 V c (t.val - 1)) _)
  isplitl [H0]; · iexact H0
  isplitl [H1]; · iexact H1
  isplitl [H2]; · iexists _; iexact H2
  isplitl [HS]; · iexact HS
  isplitl [HC]; · iexact HC
  iintro ⟨H0, H1, H2, HS, HC⟩
  rw [sumsAt4_next V c t h0, cntsAt4_next V c t h0]
  isplitl [HS HC Hrest Hr]
  · isplitl [HS]
    · iexists _; isplitr; swap; · iexact HS
      ipureintro; intro _; simp only [Fin.val_succ, Nat.add_sub_cancel]
    isplitl [HC]
    · iexists _; isplitr; swap; · iexact HC
      ipureintro; intro _; simp only [Fin.val_succ, Nat.add_sub_cancel]
    isplitl [Hrest]; · iexact Hrest
    iexact Hr
  isplitl [Ho]; · iexact Ho
  isplitl [H0]; · iexact H0
  isplitl [H1]; · iexact H1
  iexact H2

/-- The body obligation of the launch, at every grid point: the point's place in the grid tells the case. -/
theorem body_obligation4 (c : Dev nD) : BodyObligation (dat4 (F := F) V c) (defs₀ (F := F)) Variants.none () Set.univ := fun t => by
  rw [bigSep_W4, bigSep_W4]
  by_cases h49 : t.val = 49
  · exact sound_body4_last V c t (by omega) h49
  · by_cases h0 : t.val = 0
    · exact sound_body4_first V c t h0 h49
    · exact sound_body4_mid V c t h0 h49

/-! ## The result array after the launch -/

/-- The last grid point, the one that writes the result's block back. -/
abbrev t4_last : Fin cfg4.N := ⟨49, by decide⟩

/-- The one write-back writes the quotient: the window's one block, read through zero offsets, is the whole array. -/
theorem flushed4_2 (c : Dev nD) (t : Fin cfg4.N) (hf : (cfg4.win 2).flush t = true) :
    (dat4 V c).flushed 2 t
      = ((cfg4.win 2).blk t).view.read (Elt F) (res4 V c : Buf (Elt F) ((c : Thread nD τ).loc main_v63)) := by
  have hN : cfg4.N = 50 := N_4
  have h49 : t.val = 49 := by have := (flush4_2 t).mp hf; have := t.isLt; omega
  obtain rfl : t = t4_last := Fin.ext h49
  show (cfg4.win 2).cut (grid4.coords t4_last) ((dat4 V c).after 2 t4_last) = _
  rw [after4_2]
  have hz' : (fun a => win4_2.index t4_last a * main_v63.ty.shape.size a) = fun _ => 0 :=
    funext fun a => by fin_cases a <;> decide
  exact (Memref.read_access_unit_zero (Elt F) main_v63 hz' (fun a => by rw [congrFun hz' a]; simp) (res4 V c)).symm

/-- So the result array ends holding the quotient: the last point's block covers it. -/
theorem arrAt4_2 (c : Dev nD) :
    (dat4 V c).arrAt 2 cfg4.N = (res4 V c : Buf (Elt F) ((c : Thread nD τ).loc main_v63)) :=
  (dat4 V c).arrAt_eq_of_cover 2 (res4 V c) (flushed4_2 V c) fun i =>
    ⟨t4_last, (flush4_2 t4_last).mpr rfl, by
      show i ∈ ((View.whole main_v63).slice (win4_2.rect t4_last)).set
      rw [View.set_slice_whole, Rect.mem_set_unit]
      intro a
      have h0 : (i 0 : Nat) < 64 := (i 0).isLt
      have h1 : (i 1 : Nat) < 64 := (i 1).isLt
      match a with
      | ⟨0, _⟩ =>
        show win4_2.index t4_last 0 * win4_2.size 0 ≤ (i 0 : Nat)
          ∧ (i 0 : Nat) < win4_2.index t4_last 0 * win4_2.size 0 + win4_2.xsize (grid4.coords t4_last) 0
        rw [show win4_2.index t4_last 0 * win4_2.size 0 = 0 from by decide +kernel,
          show win4_2.xsize (grid4.coords t4_last) 0 = 64 from by decide +kernel]
        omega
      | ⟨1, _⟩ =>
        show win4_2.index t4_last 1 * win4_2.size 1 ≤ (i 1 : Nat)
          ∧ (i 1 : Nat) < win4_2.index t4_last 1 * win4_2.size 1 + win4_2.xsize (grid4.coords t4_last) 1
        rw [show win4_2.index t4_last 1 * win4_2.size 1 = 0 from by decide +kernel,
          show win4_2.xsize (grid4.coords t4_last) 1 = 64 from by decide +kernel]
        omega⟩

end Cert.KernelIdeal.Frm

end
-- ==== Proof.KI.Run.lean ====
/-
  The run of the whole program on the TensorCores: eleven segments in order — three stretches of host operations
  (self-loops and degree normalisation), the first linear layer's launch, a host stretch (gather, scale, scatter-add),
  the bias-and-rectifier launch, the second linear layer's launch, a host stretch, the second bias-and-rectifier
  launch, a one-operation host stretch, and the pooling launch. Here: what every unscoped buffer holds at each of
  the twelve segment boundaries, as a fold from the launch memory (a host stretch leaves what its operations
  compute; a launch leaves its arrays at what its write-backs fold to and every other buffer as it was); each
  argument array read back through the fold to its launch contents; each launch's result array read at its
  boundary; every launch's proof data at its entry contents; the segments' thread states, chained; and the run
  itself — from any memory with zero counters every weakly fair execution terminates and every unscoped buffer
  ends at the last boundary's contents, whence the arguments end as launched.
-/
import proofs.«418392_j82944408420780_1_alg».proof.Proof.KI.R0
import proofs.«418392_j82944408420780_1_alg».proof.Proof.KI.R1
import proofs.«418392_j82944408420780_1_alg».proof.Proof.KI.R2
import proofs.«418392_j82944408420780_1_alg».proof.Proof.KI.R3
import proofs.«418392_j82944408420780_1_alg».proof.Proof.KI.R4
import proofs.«418392_j82944408420780_1_alg».proof.Proof.Gen.KernelIdeal.Launch
import proofs.«418392_j82944408420780_1_alg».proof.Proof.Gen.KernelIdeal.Skeleton
import proofs.«418392_j82944408420780_1_alg».proof.Proof.Gen.KernelIdeal.Points
import proofs.«418392_j82944408420780_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the host stretch `hostOps0`: each buffer an operation writes at what it computes from the contents before. -/
abbrev W1 : Dev nD → Valuation τ sig (Elt F) := fun c => StableHlo.after hostOps0 (W0 m ρ c)

/-- After the host stretch `hostOps0_1`: each buffer an operation writes at what it computes from the contents before. -/
abbrev W2 : Dev nD → Valuation τ sig (Elt F) := fun c => StableHlo.after hostOps0_1 (W1 m ρ c)

/-- After the host stretch `hostOps0_2`: each buffer an operation writes at what it computes from the contents before. -/
abbrev W3 : Dev nD → Valuation τ sig (Elt F) := fun c => StableHlo.after hostOps0_2 (W2 m ρ c)
/-- Boundary 3's contents read at the TensorCore's references (what launch 0's proof data take). -/
abbrev V3 : (c : Dev nD) → (b : Ref sig .tc) → Buf (Elt F) ((c : Thread nD τ).loc b) := fun c b => W3 m ρ c b

/-- After launch 0: its arrays at what the write-backs fold to over the grid (an input as entered), every other
    buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- An input array of launch 0 is left as entered. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
/-- The result array of launch 0 holds the write-backs' fold. -/
theorem W4_out (c : Dev nD) : W4 m ρ c (Proc.devRef .tc main_v30) = (dat0 (V3 m ρ) c).arrAt 2 cfg0.N :=
  W4_arr m ρ c 2
/-- Boundary 4's contents read at the TensorCore's references (launch 0's exit contents). -/
abbrev V4 : (c : Dev nD) → (b : Ref sig .tc) → Buf (Elt F) ((c : Thread nD τ).loc b) := fun c b => W4 m ρ c b
/-- At launch 0's exit each of its arrays holds what the pipeline leaves and every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch `hostOps1`: each buffer an operation writes at what it computes from the contents before. -/
abbrev W5 : Dev nD → Valuation τ sig (Elt F) := fun c => StableHlo.after hostOps1 (W4 m ρ c)
/-- Boundary 5's contents read at the TensorCore's references (what launch 1's proof data take). -/
abbrev V5 : (c : Dev nD) → (b : Ref sig .tc) → Buf (Elt F) ((c : Thread nD τ).loc b) := fun c b => W5 m ρ c b

/-- After launch 1: its arrays at what the write-backs fold to over the grid (an input as entered), every other
    buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- An input array of launch 1 is left as entered. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
/-- The result array of launch 1 holds the write-backs' fold. -/
theorem W6_out (c : Dev nD) : W6 m ρ c (Proc.devRef .tc main_v45) = (dat1 (V5 m ρ) c).arrAt 2 cfg1.N :=
  W6_arr m ρ c 2
/-- Boundary 6's contents read at the TensorCore's references (launch 1's exit contents). -/
abbrev V6 : (c : Dev nD) → (b : Ref sig .tc) → Buf (Elt F) ((c : Thread nD τ).loc b) := fun c b => W6 m ρ c b
/-- At launch 1's exit each of its arrays holds what the pipeline leaves and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After launch 2: its arrays at what the write-backs fold to over the grid (an input as entered), every other
    buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- An input array of launch 2 is left as entered. -/
theorem W7_in (c : Dev nD) (w : Fin cfg2.W) (hin : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hin _).trans (A_eq2 (V6 m ρ) c w))
/-- The result array of launch 2 holds the write-backs' fold. -/
theorem W7_out (c : Dev nD) : W7 m ρ c (Proc.devRef .tc main_v46) = (dat2 (V6 m ρ) c).arrAt 2 cfg2.N :=
  W7_arr m ρ c 2
/-- Boundary 7's contents read at the TensorCore's references (launch 2's exit contents). -/
abbrev V7 : (c : Dev nD) → (b : Ref sig .tc) → Buf (Elt F) ((c : Thread nD τ).loc b) := fun c b => W7 m ρ c b
/-- At launch 2's exit each of its arrays holds what the pipeline leaves and every other buffer what it held at entry. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the host stretch `hostOps3`: each buffer an operation writes at what it computes from the contents before. -/
abbrev W8 : Dev nD → Valuation τ sig (Elt F) := fun c => StableHlo.after hostOps3 (W7 m ρ c)
/-- Boundary 8's contents read at the TensorCore's references (what launch 3's proof data take). -/
abbrev V8 : (c : Dev nD) → (b : Ref sig .tc) → Buf (Elt F) ((c : Thread nD τ).loc b) := fun c b => W8 m ρ c b

/-- After launch 3: its arrays at what the write-backs fold to over the grid (an input as entered), every other
    buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- An input array of launch 3 is left as entered. -/
theorem W9_in (c : Dev nD) (w : Fin cfg3.W) (hin : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hin _).trans (A_eq3 (V8 m ρ) c w))
/-- The result array of launch 3 holds the write-backs' fold. -/
theorem W9_out (c : Dev nD) : W9 m ρ c (Proc.devRef .tc main_v61) = (dat3 (V8 m ρ) c).arrAt 2 cfg3.N :=
  W9_arr m ρ c 2
/-- Boundary 9's contents read at the TensorCore's references (launch 3's exit contents). -/
abbrev V9 : (c : Dev nD) → (b : Ref sig .tc) → Buf (Elt F) ((c : Thread nD τ).loc b) := fun c b => W9 m ρ c b
/-- At launch 3's exit each of its arrays holds what the pipeline leaves and every other buffer what it held at entry. -/
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After the host stretch `hostOps4`: each buffer an operation writes at what it computes from the contents before. -/
abbrev W10 : Dev nD → Valuation τ sig (Elt F) := fun c => StableHlo.after hostOps4 (W9 m ρ c)
/-- Boundary 10's contents read at the TensorCore's references (what launch 4's proof data take). -/
abbrev V10 : (c : Dev nD) → (b : Ref sig .tc) → Buf (Elt F) ((c : Thread nD τ).loc b) := fun c b => W10 m ρ c b

/-- After launch 4: its arrays at what the write-backs fold to over the grid (an input as entered), every other
    buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
/-- An input array of launch 4 is left as entered. -/
theorem W11_in (c : Dev nD) (w : Fin cfg4.W) (hin : (cfg4.win w).isOut = false) :
    W11 m ρ c (Proc.devRef .tc (Pipeline.arrRef spec4 w)) = W10 m ρ c (Proc.devRef .tc (Pipeline.arrRef spec4 w)) :=
  (W11_arr m ρ c w).trans (((dat4 (V10 m ρ) c).arrAt_in w hin _).trans (A_eq4 (V10 m ρ) c w))
/-- The result array of launch 4 holds the write-backs' fold. -/
theorem W11_out (c : Dev nD) : W11 m ρ c (Proc.devRef .tc main_v63) = (dat4 (V10 m ρ) c).arrAt 2 cfg4.N :=
  W11_arr m ρ c 2
/-- Boundary 11's contents read at the TensorCore's references (launch 4's exit contents). -/
abbrev V11 : (c : Dev nD) → (b : Ref sig .tc) → Buf (Elt F) ((c : Thread nD τ).loc b) := fun c b => W11 m ρ c b
/-- At launch 4's exit each of its arrays holds what the pipeline leaves and every other buffer what it held at entry. -/
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)

/-! ## The arguments end as launched

No host operation writes an argument and no launch has one as a result array (a launch reads it through an input
window or bypasses it), so the fold at an argument's buffer walks back to the launch memory. -/

theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_ne m ρ c main_arg0 (by decide)
    _ = W9 m ρ c (Proc.devRef .tc main_arg0) := StableHlo.after_of_writes_sub hostOps4 _ hostOps4_writes (by decide)
    _ = W8 m ρ c (Proc.devRef .tc main_arg0) := W9_of_ne m ρ c main_arg0 (by decide)
    _ = W7 m ρ c (Proc.devRef .tc main_arg0) := StableHlo.after_of_writes_sub hostOps3 _ hostOps3_writes (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_in m ρ c 0 rfl
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := StableHlo.after_of_writes_sub hostOps4 _ hostOps4_writes (by decide)
    _ = W8 m ρ c (Proc.devRef .tc main_arg1) := W9_of_ne m ρ c main_arg1 (by decide)
    _ = W7 m ρ c (Proc.devRef .tc main_arg1) := StableHlo.after_of_writes_sub hostOps3 _ hostOps3_writes (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := StableHlo.after_of_writes_sub hostOps4 _ hostOps4_writes (by decide)
    _ = W8 m ρ c (Proc.devRef .tc main_arg2) := W9_of_ne m ρ c main_arg2 (by decide)
    _ = W7 m ρ c (Proc.devRef .tc main_arg2) := StableHlo.after_of_writes_sub hostOps3 _ hostOps3_writes (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := StableHlo.after_of_writes_sub hostOps4 _ hostOps4_writes (by decide)
    _ = W8 m ρ c (Proc.devRef .tc main_arg3) := W9_of_ne m ρ c main_arg3 (by decide)
    _ = W7 m ρ c (Proc.devRef .tc main_arg3) := StableHlo.after_of_writes_sub hostOps3 _ hostOps3_writes (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_in m ρ c 1 rfl
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_ne m ρ c main_arg4 (by decide)
    _ = W9 m ρ c (Proc.devRef .tc main_arg4) := StableHlo.after_of_writes_sub hostOps4 _ hostOps4_writes (by decide)
    _ = W8 m ρ c (Proc.devRef .tc main_arg4) := W9_of_ne m ρ c main_arg4 (by decide)
    _ = W7 m ρ c (Proc.devRef .tc main_arg4) := StableHlo.after_of_writes_sub hostOps3 _ hostOps3_writes (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := StableHlo.after_of_writes_sub hostOps4 _ hostOps4_writes (by decide)
    _ = W8 m ρ c (Proc.devRef .tc main_arg5) := W9_of_ne m ρ c main_arg5 (by decide)
    _ = W7 m ρ c (Proc.devRef .tc main_arg5) := StableHlo.after_of_writes_sub hostOps3 _ hostOps3_writes (by decide)
    _ = W6 m ρ c (Proc.devRef .tc main_arg5) := W7_in m ρ c 1 rfl
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W11_main_arg6 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := StableHlo.after_of_writes_sub hostOps4 _ hostOps4_writes (by decide)
    _ = W8 m ρ c (Proc.devRef .tc main_arg6) := W9_of_ne m ρ c main_arg6 (by decide)
    _ = W7 m ρ c (Proc.devRef .tc main_arg6) := StableHlo.after_of_writes_sub hostOps3 _ hostOps3_writes (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

/-! ## The proof data family and the thread state -/

/-- The prefetched tables' admissible contents: no launch has a table. -/
abbrev adm : (p : Fin 5) → (pcfgs (F := F) p).Adm := fun p => (cfgs p).toPCfg_adm
/-- Every launch's proof data, each at its entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references, from the contents `W`: it ends at those references at what
    the stretch's operations leave, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W11 m ρ c) ∗ ∃ r, prngReg c r)

/-! ## The launches as segments -/

set_option backward.isDefEq.respectTransparency.types false in
/-- Launch 0 over the thread state: entered from every unscoped buffer at boundary 3's contents, left at boundary 4's.
    Its arrays are split out of the unscoped buffers and put back at the exit contents; the generator register goes into
    the launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at boundary 5's contents, left at boundary 6's.
    Its arrays are split out of the unscoped buffers and put back at the exit contents; the generator register goes into
    the launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at boundary 6's contents, left at boundary 7's.
    Its arrays are split out of the unscoped buffers and put back at the exit contents; the generator register goes into
    the launch's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered from every unscoped buffer at boundary 8's contents, left at boundary 9's.
    Its arrays are split out of the unscoped buffers and put back at the exit contents; the generator register goes into
    the launch's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4 over the thread state: entered from every unscoped buffer at boundary 10's contents, left at boundary 11's.
    Its arrays are split out of the unscoped buffers and put back at the exit contents; the generator register goes into
    the launch's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V10 m ρ) c).Φ 0 from rfl]
    refine BIBase.Entails.trans ?_ (Φ4_in (V10 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (V10 m ρ) c).Φ (Fin.last _) from rfl]
    refine BIBase.Entails.trans (Φ4_out (V10 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The eleven segments in order: a host segment per stretch from its boundary's contents, a region per launch. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .host (hseg hostOps4 hostOps4_sub hostOps4_fresh (W9 m ρ)),
    .region (reg4 m ρ) ]
/-- The program is the run of the segments: it is the chain of its items, and the segments' run unfolds to the same chain. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of the program on the
    TensorCores terminates, nothing faulting, and in every final state every unscoped buffer of every core holds the last
    boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W11 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c b hb => h c _ (mem_uc b hb))

/-- THE FRAME: every weakly fair execution terminates, nothing faulting, and every final state has the argument arrays as
    launched — each argument is an unscoped buffer, and the last boundary's contents at it are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c main_arg0 (by decide)).trans (W11_main_arg0 m ρ c),
     (h c main_arg1 (by decide)).trans (W11_main_arg1 m ρ c),
     (h c main_arg2 (by decide)).trans (W11_main_arg2 m ρ c),
     (h c main_arg3 (by decide)).trans (W11_main_arg3 m ρ c),
     (h c main_arg4 (by decide)).trans (W11_main_arg4 m ρ c),
     (h c main_arg5 (by decide)).trans (W11_main_arg5 m ρ c),
     (h c main_arg6 (by decide)).trans (W11_main_arg6 m ρ c)⟩) (run_all m ρ)

end Cert.KernelIdeal.Frm

end
-- ==== Proof.KSide.lean ====
/-
  The host operations around the launches, read as pure functions of the buffer contents they find: the edge
  list's two rows with the self loops appended, the in-degree of every node, its inverse square root (zero where
  the degree is zero), the edge weight as the product of the two ends' values, an index vector's negative entries
  wrapped by the row count, one message-passing layer (gather the rows at the source ends, scale each by its edge
  weight, add them up at the destination ends), and the reshapes of the two biases and of the graph ids.
-/
import proofs.«418392_j82944408420780_1_alg».proof.Proof.Gen.KernelIdeal.Launch
import Idealize.ShloMosaic.Lib.StableHlo.Run

noncomputable section

namespace Cert.KernelIdeal.Val

open Cert.KernelIdeal Cert.KernelIdeal.Gen Idealize.ShloMosaic Idealize.ShloMosaic.TcCoe Idealize.SL.Sem Idealize.ShloMosaic.StableHlo

variable {F : FTy → Type} [FloatOps F]

/-- The source ends: row 0 of the edge list, then every node once (its self loop). -/
def srcK (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The destination ends: row 1 of the edge list, then every node once. -/
def dstK (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- The in-degree: one is added at every destination end. -/
def degK (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (broadcastInDim S1700000x1 ![0] bcast_S1700000_S1700000x1_0 dst) (broadcastInDim S1700000 ![] bcast_S_S1700000 (constant S_ .f32 0x3F800000#32))

/-- The inverse square root of a positive degree, zero otherwise. -/
def dinvK (deg : (⟨S100000, .f32⟩ : BufTy).Contents (Elt F)) : (⟨S100000, .f32⟩ : BufTy).Contents (Elt F) :=
  select (cmpf .ogt deg (broadcastInDim S100000 ![] bcast_S_S100000 (constant S_ .f32 0x00000000#32))) (Host.rsqrt deg)
    (broadcastInDim S100000 ![] bcast_S_S100000 (id (constant S_ .f32 0x00000000#32)))

/-- An index vector as the gathers read it: a negative entry is raised by the number of rows, 100000; one column. -/
def wrapK (ix : (⟨S1700000, .i32⟩ : BufTy).Contents (Elt F)) : (⟨S1700000x1, .i32⟩ : BufTy).Contents (Elt F) :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- The edge weight: the product of the two ends' inverse square roots. -/
def normK (src dst : (⟨S1700000, .i32⟩ : BufTy).Contents (Elt F)) (dinv : (⟨S100000, .f32⟩ : BufTy).Contents (Elt F)) : (⟨S1700000, .f32⟩ : BufTy).Contents (Elt F) :=
  mulf (Host.gather gather_S100000_S1700000x1_S1700000_n_0_n_n_0_1_1 dinv (wrapK src)) (Host.gather gather_S100000_S1700000x1_S1700000_n_0_n_n_0_1_1 dinv (wrapK dst))

/-- One layer's aggregation on 128 columns: row e of the messages is `nrm e` times row `src e` of `h`; the result's
    row n is the sum of the messages whose destination is n. -/
def layerK128 (src dst : (⟨S1700000, .i32⟩ : BufTy).Contents (Elt F)) (nrm : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (broadcastInDim S1700000x128 ![0, 1] bcast_S1700000x1_S1700000x128_0_1 (broadcastInDim S1700000x1 ![0] bcast_S1700000_S1700000x1_0 nrm))
      (Host.gather gather_S100000x128_S1700000x1_S1700000x128_1_0_n_n_0_1_1128 h (wrapK src)))

/-- The same on 64 columns. -/
def layerK64 (src dst : (⟨S1700000, .i32⟩ : BufTy).Contents (Elt F)) (nrm : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (broadcastInDim S1700000x64 ![0, 1] bcast_S1700000x1_S1700000x64_0_1 (broadcastInDim S1700000x1 ![0] bcast_S1700000_S1700000x1_0 nrm))
      (Host.gather gather_S100000x64_S1700000x1_S1700000x64_1_0_n_n_0_1_164 h (wrapK src)))

/-! ## What each stretch of host operations writes, from any contents `W` -/

set_option maxHeartbeats 4000000 in
/-- Before the first launch: the source ends. -/
theorem pre_v3 (W : Valuation τ sig (Elt F)) :
    StableHlo.after hostOps0_2 (StableHlo.after hostOps0_1 (StableHlo.after hostOps0 W)) (Proc.devRef .tc main_v3) = srcK (W (Proc.devRef .tc main_arg1)) := by
  after_results_simp <;> rfl

set_option maxHeartbeats 4000000 in
/-- Before the first launch: the destination ends. -/
theorem pre_v6 (W : Valuation τ sig (Elt F)) :
    StableHlo.after hostOps0_2 (StableHlo.after hostOps0_1 (StableHlo.after hostOps0 W)) (Proc.devRef .tc main_v6) = dstK (W (Proc.devRef .tc main_arg1)) := by
  after_results_simp <;> rfl

set_option maxHeartbeats 4000000 in
/-- Before the first launch: the edge weights. -/
theorem pre_v29 (W : Valuation τ sig (Elt F)) :
    StableHlo.after hostOps0_2 (StableHlo.after hostOps0_1 (StableHlo.after hostOps0 W)) (Proc.devRef .tc main_v29)
      = normK (srcK (W (Proc.devRef .tc main_arg1))) (dstK (W (Proc.devRef .tc main_arg1))) (dinvK (degK (dstK (W (Proc.devRef .tc main_arg1))))) := by
  after_results_simp <;> (try simp only [TRef.ofBuf, TRef.toBuf, cast_eq]) <;> rfl

set_option maxHeartbeats 4000000 in
/-- Between the first two launches: the first layer's aggregation of the first launch's result. -/
theorem stretch1_v43 (W : Valuation τ sig (Elt F)) :
    StableHlo.after hostOps1 W (Proc.devRef .tc main_v43)
      = layerK128 (W (Proc.devRef .tc main_v3)) (W (Proc.devRef .tc main_v6)) (W (Proc.devRef .tc main_v29)) (W (Proc.devRef .tc main_v30)) := by
  after_results_simp <;> rfl

set_option maxHeartbeats 4000000 in
/-- Between the first two launches: the first bias as one row. -/
theorem stretch1_v44 (W : Valuation τ sig (Elt F)) :
    StableHlo.after hostOps1 W (Proc.devRef .tc main_v44) = shapeCast S1x128 (W (Proc.devRef .tc main_arg4)) shapeCasts_S128_S1x128 := by
  after_results_simp <;> rfl

set_option maxHeartbeats 4000000 in
/-- Between the third and fourth launches: the second layer's aggregation of the third launch's result. -/
theorem stretch3_v59 (W : Valuation τ sig (Elt F)) :
    StableHlo.after hostOps3 W (Proc.devRef .tc main_v59)
      = layerK64 (W (Proc.devRef .tc main_v3)) (W (Proc.devRef .tc main_v6)) (W (Proc.devRef .tc main_v29)) (W (Proc.devRef .tc main_v46)) := by
  after_results_simp <;> rfl

set_option maxHeartbeats 4000000 in
/-- Between the third and fourth launches: the second bias as one row. -/
theorem stretch3_v60 (W : Valuation τ sig (Elt F)) :
    StableHlo.after hostOps3 W (Proc.devRef .tc main_v60) = shapeCast S1x64 (W (Proc.devRef .tc main_arg6)) shapeCasts_S64_S1x64 := by
  after_results_simp <;> rfl

set_option maxHeartbeats 4000000 in
/-- Before the last launch: the graph ids as one column. -/
theorem stretch4_v62 (W : Valuation τ sig (Elt F)) :
    StableHlo.after hostOps4 W (Proc.devRef .tc main_v62) = shapeCast S100000x1 (W (Proc.devRef .tc main_arg2)) shapeCasts_S100000_S100000x1 := by
  after_results_simp <;> rfl

end Cert.KernelIdeal.Val

end
-- ==== Proof.RefSide.lean ====
/-
  The reference's result as a composition of a few functions: the two linear maps, one message-passing layer
  (gather the rows at the source ends, scale by the edge weight, add up at the destination ends) on 128 and on 64
  columns as a function of the rows it gathers from, bias-and-rectify, and the mean over each graph's rows.
  Each is the reference's own operations with one stage left open, so the reference's last stage is their
  composition by unfolding.
-/
import proofs.«418392_j82944408420780_1_alg».proof.Proof.RefRun
import proofs.«418392_j82944408420780_1_alg».proof.Proof.RefRead

noncomputable section

namespace Cert.ReferenceIdeal.RefSide

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The first layer's aggregation as a function of the rows `h` it gathers from. -/
def layer128 (x1 : (⟨S2x1600000, .i32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (val_main_v41 (F := F)) (val_main_v42 (F := F) x1)
    (mulf (val_main_v39 (F := F) x1) (Host.gather gather_S100000x128_S1700000x1_S1700000x128_1_0_n_n_0_1_1128 h (val_main_v37 (F := F) x1)))

/-- The second layer's aggregation as a function of the rows it gathers from. -/
def layer64 (x1 : (⟨S2x1600000, .i32⟩ : BufTy).Contents (Elt F)) (h : (⟨S100000x64, .f32⟩ : BufTy).Contents (Elt F)) : (⟨S100000x64, .f32⟩ : BufTy).Contents (Elt F) :=
  Host.scatterAdd scatter_S100000x64_S1700000x1_S1700000x64_1_0_0_1 (val_main_v59 (F := F)) (val_main_v60 (F := F) x1)
    (mulf (val_main_v57 (F := F) x1) (Host.gather gather_S100000x64_S1700000x1_S1700000x64_1_0_n_n_0_1_164 h (val_main_v55 (F := F) x1)))

/-- max(a + b, 0), the one-row bias repeated down the rows; 128 columns. -/
def act128 (a : (⟨S100000x128, .f32⟩ : BufTy).Contents (Elt F)) (b : (⟨S1x128, .f32⟩ : BufTy).Contents (Elt F)) : (⟨S100000x128, .f32⟩ : BufTy).Contents (Elt F) :=
  maximumf (addf a (broadcastInDim S100000x128 ![0, 1] bcast_S1x128_S100000x128_0_1 b)) (val_main_call1_v0 (F := F))

/-- The same on 64 columns. -/
def act64 (a : (⟨S100000x64, .f32⟩ : BufTy).Contents (Elt F)) (b : (⟨S1x64, .f32⟩ : BufTy).Contents (Elt F)) : (⟨S100000x64, .f32⟩ : BufTy).Contents (Elt F) :=
  maximumf (addf a (broadcastInDim S100000x64 ![0, 1] bcast_S1x64_S100000x64_0_1 b)) (val_main_call2_v0 (F := F))

/-- The second linear map. -/
def lin2 (h : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none h w

/-- The mean of the rows of `h` over each graph: the rows' sum by graph id over the number of the graph's rows, a
    number below one read as one. -/
def pool (h : (⟨S100000x64, .f32⟩ : BufTy).Contents (Elt F)) (ids : (⟨S100000x1, .i32⟩ : BufTy).Contents (Elt F)) : (⟨S64x64, .f32⟩ : BufTy).Contents (Elt F) :=
  Host.divf (Host.scatterAdd scatter_S64x64_S100000x1_S100000x64_1_0_0_1 (val_main_v66 (F := F)) ids h)
    (broadcastInDim S64x64 ![0, 1] bcast_S64x1_S64x64_0_1 (broadcastInDim S64x1 ![0] bcast_S64_S64x1_0
      (maximumf (Host.scatterAdd scatter_S64_S100000x1_S100000_n_0_0_1 (val_main_v70 (F := F)) ids (val_main_v69 (F := F))) (val_main_v73 (F := F)))))

/-- The reference's last stage is the composition. -/
theorem v77_eq (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F))
    (x4 : (⟨S128, .f32⟩ : BufTy).Contents (Elt F)) (x5 : (⟨S128x64, .f32⟩ : BufTy).Contents (Elt F)) (x6 : (⟨S64, .f32⟩ : BufTy).Contents (Elt F)) :
    val_main_v77 (F := F) x0 x1 x2 x3 x4 x5 x6
      = pool (act64 (layer64 x1 (lin2 (act128 (layer128 x1 (val_main_v30 (F := F) x0 x3)) (val_main_v44 (F := F) x4)) x5)) (val_main_v62 (F := F) x6)) (val_main_v67 (F := F) x2) := rfl

end Cert.ReferenceIdeal.RefSide

end
-- ==== Proof.Bridge0.lean ====
/-
  The kernel program's host functions are the reference's stages: the edge ends, the edge weights, and a
  message-passing layer as a function of the rows it gathers from are the same operations in both programs.
-/
import proofs.«418392_j82944408420780_1_alg».proof.Proof.KSide
import proofs.«418392_j82944408420780_1_alg».proof.Proof.RefSide

noncomputable section

namespace Cert.Proof.Bridge

open Idealize.ShloMosaic Idealize.ShloMosaic.TcCoe Idealize.SL.Sem Idealize.ShloMosaic.StableHlo
open Cert.KernelIdeal.Val Cert.ReferenceIdeal.RefSide Cert.ReferenceIdeal.ReadP

variable {F : FTy → Type} [FloatOps F]

/-- The source ends are the reference's. -/
theorem src_eq (e : (⟨Cert.ReferenceIdeal.S2x1600000, .i32⟩ : BufTy).Contents (Elt F)) : srcK (F := F) e = val_main_v3 (F := F) e := rfl

/-- The destination ends are the reference's. -/
theorem dst_eq (e : (⟨Cert.ReferenceIdeal.S2x1600000, .i32⟩ : BufTy).Contents (Elt F)) : dstK (F := F) e = val_main_v6 (F := F) e := rfl

/-- The edge weights are the reference's. -/
theorem norm_eq (e : (⟨Cert.ReferenceIdeal.S2x1600000, .i32⟩ : BufTy).Contents (Elt F)) :
    normK (F := F) (srcK e) (dstK e) (dinvK (degK (dstK e))) = val_main_v29 (F := F) e := rfl

/-- The first layer's aggregation is the reference's, as a function of the rows gathered from. -/
theorem layer128_eq (e : (⟨Cert.ReferenceIdeal.S2x1600000, .i32⟩ : BufTy).Contents (Elt F)) (h : (⟨Cert.ReferenceIdeal.S100000x128, .f32⟩ : BufTy).Contents (Elt F)) :
    layerK128 (F := F) (srcK e) (dstK e) (normK (srcK e) (dstK e) (dinvK (degK (dstK e)))) h = layer128 (F := F) e h := rfl

/-- The second layer's aggregation is the reference's, as a function of the rows gathered from. -/
theorem layer64_eq (e : (⟨Cert.ReferenceIdeal.S2x1600000, .i32⟩ : BufTy).Contents (Elt F)) (h : (⟨Cert.ReferenceIdeal.S100000x64, .f32⟩ : BufTy).Contents (Elt F)) :
    layerK64 (F := F) (srcK e) (dstK e) (normK (srcK e) (dstK e) (dinvK (degK (dstK e)))) h = layer64 (F := F) e h := rfl

end Cert.Proof.Bridge

end
-- ==== Proof.Bridge1.lean ====
/-
  The kernel program's buffers between its steps, read back to the launch contents: a buffer no step writes keeps
  its contents from step to step; the edge ends and the edge weights, computed before the first launch, reach
  both aggregations unchanged; the arguments reach every step unchanged; and each aggregation, bias row and id
  column is the pure function of the stretch's inputs.
-/
import proofs.«418392_j82944408420780_1_alg».proof.Proof.KI.Run
import proofs.«418392_j82944408420780_1_alg».proof.Proof.KSide

noncomputable section

namespace Cert.KernelIdeal.Val

open Cert.KernelIdeal Cert.KernelIdeal.Gen Cert.KernelIdeal.Frm Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## One step at a time: a reference the step does not write -/

theorem hop1 (c : Dev nD) (r : Ref sig .tc) (h : r ∉ hostOps0_W) : W1 m ρ c (Proc.devRef .tc r) = W0 m ρ c (Proc.devRef .tc r) :=
  StableHlo.after_of_writes_sub hostOps0 _ hostOps0_writes h
theorem hop2 (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem hop3 (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem hop4 (c : Dev nD) (r : Ref sig .tc) (h : ∀ w, Pipeline.arrRef spec0 w ≠ r) : W4 m ρ c (Proc.devRef .tc r) = W3 m ρ c (Proc.devRef .tc r) :=
  W4_of_ne m ρ c r h
theorem hop5 (c : Dev nD) (r : Ref sig .tc) (h : r ∉ hostOps1_W) : W5 m ρ c (Proc.devRef .tc r) = W4 m ρ c (Proc.devRef .tc r) :=
  StableHlo.after_of_writes_sub hostOps1 _ hostOps1_writes h
theorem hop6 (c : Dev nD) (r : Ref sig .tc) (h : ∀ w, Pipeline.arrRef spec1 w ≠ r) : W6 m ρ c (Proc.devRef .tc r) = W5 m ρ c (Proc.devRef .tc r) :=
  W6_of_ne m ρ c r h
theorem hop7 (c : Dev nD) (r : Ref sig .tc) (h : ∀ w, Pipeline.arrRef spec2 w ≠ r) : W7 m ρ c (Proc.devRef .tc r) = W6 m ρ c (Proc.devRef .tc r) :=
  W7_of_ne m ρ c r h
theorem hop8 (c : Dev nD) (r : Ref sig .tc) (h : r ∉ hostOps3_W) : W8 m ρ c (Proc.devRef .tc r) = W7 m ρ c (Proc.devRef .tc r) :=
  StableHlo.after_of_writes_sub hostOps3 _ hostOps3_writes h
theorem hop9 (c : Dev nD) (r : Ref sig .tc) (h : ∀ w, Pipeline.arrRef spec3 w ≠ r) : W9 m ρ c (Proc.devRef .tc r) = W8 m ρ c (Proc.devRef .tc r) :=
  W9_of_ne m ρ c r h
theorem hop10 (c : Dev nD) (r : Ref sig .tc) (h : r ∉ hostOps4_W) : W10 m ρ c (Proc.devRef .tc r) = W9 m ρ c (Proc.devRef .tc r) :=
  StableHlo.after_of_writes_sub hostOps4 _ hostOps4_writes h

/-- The launch contents of a reference. -/
theorem W0_eq (c : Dev nD) (r : Ref sig .tc) : W0 m ρ c (Proc.devRef .tc r) = m ((c : Thread nD τ).loc r) := rfl

/-! ## The arguments at the steps that read them -/

theorem W3_arg (c : Dev nD) (r : Ref sig .tc) (h1 : r ∉ hostOps0_W) (h2 : r ∉ hostOps0_1_W) (h3 : r ∉ hostOps0_2_W) :
    W3 m ρ c (Proc.devRef .tc r) = m ((c : Thread nD τ).loc r) :=
  (hop3 m ρ c r h3).trans ((hop2 m ρ c r h2).trans ((hop1 m ρ c r h1).trans (W0_eq m ρ c r)))

theorem W3_arg0 (c : Dev nD) : W3 m ρ c (Proc.devRef .tc main_arg0) = (m ((c : Thread nD τ).loc main_arg0)) := W3_arg m ρ c main_arg0 (by decide) (by decide) (by decide)
theorem W3_arg3 (c : Dev nD) : W3 m ρ c (Proc.devRef .tc main_arg3) = (m ((c : Thread nD τ).loc main_arg3)) := W3_arg m ρ c main_arg3 (by decide) (by decide) (by decide)
theorem W4_arg4 (c : Dev nD) : W4 m ρ c (Proc.devRef .tc main_arg4) = (m ((c : Thread nD τ).loc main_arg4)) :=
  (hop4 m ρ c main_arg4 (by decide)).trans (W3_arg m ρ c main_arg4 (by decide) (by decide) (by decide))
theorem W6_arg5 (c : Dev nD) : W6 m ρ c (Proc.devRef .tc main_arg5) = (m ((c : Thread nD τ).loc main_arg5)) :=
  (hop6 m ρ c main_arg5 (by decide)).trans ((hop5 m ρ c main_arg5 (by decide)).trans ((hop4 m ρ c main_arg5 (by decide)).trans
    (W3_arg m ρ c main_arg5 (by decide) (by decide) (by decide))))
theorem W7_arg6 (c : Dev nD) : W7 m ρ c (Proc.devRef .tc main_arg6) = (m ((c : Thread nD τ).loc main_arg6)) :=
  (hop7 m ρ c main_arg6 (by decide)).trans ((hop6 m ρ c main_arg6 (by decide)).trans ((hop5 m ρ c main_arg6 (by decide)).trans ((hop4 m ρ c main_arg6 (by decide)).trans
    (W3_arg m ρ c main_arg6 (by decide) (by decide) (by decide)))))
theorem W9_arg2 (c : Dev nD) : W9 m ρ c (Proc.devRef .tc main_arg2) = (m ((c : Thread nD τ).loc main_arg2)) :=
  (hop9 m ρ c main_arg2 (by decide)).trans ((hop8 m ρ c main_arg2 (by decide)).trans ((hop7 m ρ c main_arg2 (by decide)).trans ((hop6 m ρ c main_arg2 (by decide)).trans
    ((hop5 m ρ c main_arg2 (by decide)).trans ((hop4 m ρ c main_arg2 (by decide)).trans (W3_arg m ρ c main_arg2 (by decide) (by decide) (by decide)))))))

/-! ## The edge ends and weights, from the first stretches to both aggregations -/

theorem W3_v3 (c : Dev nD) : W3 m ρ c (Proc.devRef .tc main_v3) = srcK (m ((c : Thread nD τ).loc main_arg1)) := pre_v3 (W0 m ρ c)
theorem W3_v6 (c : Dev nD) : W3 m ρ c (Proc.devRef .tc main_v6) = dstK (m ((c : Thread nD τ).loc main_arg1)) := pre_v6 (W0 m ρ c)
theorem W3_v29 (c : Dev nD) : W3 m ρ c (Proc.devRef .tc main_v29)
    = normK (srcK (m ((c : Thread nD τ).loc main_arg1))) (dstK (m ((c : Thread nD τ).loc main_arg1))) (dinvK (degK (dstK (m ((c : Thread nD τ).loc main_arg1))))) := pre_v29 (W0 m ρ c)

/-- From the first launch's entry to the second aggregation's entry, a reference none of the steps between writes. -/
theorem W4_keep (c : Dev nD) (r : Ref sig .tc) (h4 : ∀ w, Pipeline.arrRef spec0 w ≠ r) : W4 m ρ c (Proc.devRef .tc r) = W3 m ρ c (Proc.devRef .tc r) := hop4 m ρ c r h4
theorem W7_keep (c : Dev nD) (r : Ref sig .tc) (h4 : ∀ w, Pipeline.arrRef spec0 w ≠ r) (h5 : r ∉ hostOps1_W) (h6 : ∀ w, Pipeline.arrRef spec1 w ≠ r)
    (h7 : ∀ w, Pipeline.arrRef spec2 w ≠ r) : W7 m ρ c (Proc.devRef .tc r) = W3 m ρ c (Proc.devRef .tc r) :=
  (hop7 m ρ c r h7).trans ((hop6 m ρ c r h6).trans ((hop5 m ρ c r h5).trans (hop4 m ρ c r h4)))

/-! ## What each launch reads, as pure functions of the launch contents and of the launch before -/

/-- The first aggregation: of the first launch's result. -/
theorem W5_v43 (c : Dev nD) : W5 m ρ c (Proc.devRef .tc main_v43)
    = layerK128 (srcK (m ((c : Thread nD τ).loc main_arg1))) (dstK (m ((c : Thread nD τ).loc main_arg1))) (normK (srcK (m ((c : Thread nD τ).loc main_arg1))) (dstK (m ((c : Thread nD τ).loc main_arg1))) (dinvK (degK (dstK (m ((c : Thread nD τ).loc main_arg1))))))
        (W4 m ρ c (Proc.devRef .tc main_v30)) := by
  refine (stretch1_v43 (W4 m ρ c)).trans ?_
  rw [W4_keep m ρ c main_v3 (by decide), W4_keep m ρ c main_v6 (by decide), W4_keep m ρ c main_v29 (by decide), W3_v3, W3_v6, W3_v29]

/-- The first bias as one row. -/
theorem W5_v44 (c : Dev nD) : W5 m ρ c (Proc.devRef .tc main_v44) = shapeCast S1x128 (m ((c : Thread nD τ).loc main_arg4)) shapeCasts_S128_S1x128 := by
  refine (stretch1_v44 (W4 m ρ c)).trans ?_
  rw [W4_arg4]

/-- The second aggregation: of the third launch's result. -/
theorem W8_v59 (c : Dev nD) : W8 m ρ c (Proc.devRef .tc main_v59)
    = layerK64 (srcK (m ((c : Thread nD τ).loc main_arg1))) (dstK (m ((c : Thread nD τ).loc main_arg1))) (normK (srcK (m ((c : Thread nD τ).loc main_arg1))) (dstK (m ((c : Thread nD τ).loc main_arg1))) (dinvK (degK (dstK (m ((c : Thread nD τ).loc main_arg1))))))
        (W7 m ρ c (Proc.devRef .tc main_v46)) := by
  refine (stretch3_v59 (W7 m ρ c)).trans ?_
  rw [W7_keep m ρ c main_v3 (by decide) (by decide) (by decide) (by decide), W7_keep m ρ c main_v6 (by decide) (by decide) (by decide) (by decide),
    W7_keep m ρ c main_v29 (by decide) (by decide) (by decide) (by decide), W3_v3, W3_v6, W3_v29]

/-- The second bias as one row. -/
theorem W8_v60 (c : Dev nD) : W8 m ρ c (Proc.devRef .tc main_v60) = shapeCast S1x64 (m ((c : Thread nD τ).loc main_arg6)) shapeCasts_S64_S1x64 := by
  refine (stretch3_v60 (W7 m ρ c)).trans ?_
  rw [W7_arg6]

/-- The graph ids as one column. -/
theorem W10_v62 (c : Dev nD) : W10 m ρ c (Proc.devRef .tc main_v62) = shapeCast S100000x1 (m ((c : Thread nD τ).loc main_arg2)) shapeCasts_S100000_S100000x1 := by
  refine (stretch4_v62 (W9 m ρ c)).trans ?_
  rw [W9_arg2]

/-- The fourth launch's result reaches the last launch unchanged. -/
theorem W10_v61 (c : Dev nD) : W10 m ρ c (Proc.devRef .tc main_v61) = W9 m ρ c (Proc.devRef .tc main_v61) := hop10 m ρ c main_v61 (by decide)

end Cert.KernelIdeal.Val

end
-- ==== Proof.ValLin.lean ====
/-
  The value of the two linear launches at the ideal instance, where a float is an extended real, a product into a zero
  accumulator is the exact sum and the narrowing to bf16 is the identity.

  Launch 0 multiplies the 100000×128 node features by the 128×128 weights, launch 2 the 100000×128 hidden features by the
  128×64 weights, each in 20 blocks of 5000 rows against the whole weight matrix. For each launch: the stored value of the
  body at an index of the block is the sum over the 128 contraction coordinates of row entry times weight entry; what grid
  point t writes back is block t of ONE whole-array function G (entry (r, q) = Σ_k X (r, k) · W (k, q)), because the row
  block at t holds rows 5000·t … 5000·t + 4999 of X and the weight block holds all of W; the 20 blocks cover the 100000
  rows (row r lies in block r / 5000); so the result array after the launch is G of the two arrays as the launch finds
  them, and G is the reference's product of those arrays (both are that sum at every entry).
-/
import proofs.«418392_j82944408420780_1_alg».proof.Proof.KI.R0
import proofs.«418392_j82944408420780_1_alg».proof.Proof.KI.R2
import proofs.«418392_j82944408420780_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Frm

/-! ## Launch 0: the payload at an index -/

/-- The row block's operand index of the product at output index `j` and contraction coordinate `k`: row of `j`, column `k`. -/
abbrev bl0 (j : S5000x128.Idx) (k : Fin 128) : S5000x128.Idx := fun a => match a with
  | ⟨0, _⟩ => ⟨(j 0).val, (j 0).isLt⟩
  | ⟨1, _⟩ => ⟨k.val, k.isLt⟩
/-- The weights' operand index: row `k`, column of `j`. -/
abbrev br0 (j : S5000x128.Idx) (k : Fin 128) : S128x128.Idx := fun a => match a with
  | ⟨0, _⟩ => ⟨k.val, k.isLt⟩
  | ⟨1, _⟩ => ⟨(j 1).val, (j 1).isLt⟩

theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at an index of the block: the row of the row block against the column of the weights, summed
    over the 128 contraction coordinates (the narrowing to bf16 is the identity on extended reals, the accumulator is zero). -/
theorem pay0_apply (x0 : Vec Ideal S5000x128 .f32) (x1 : Vec Ideal S128x128 .f32) (j : S5000x128.Idx) :
    k0_pay1 (F := Ideal) x0 x1 j = ∑ k : Fin 128, x0 (bl0 j k) * x1 (br0 j k) := by
  unfold k0_pay1
  refine (Ideal.matmul_constant_zero_apply dot_S5000x128_S128x128_S5000x128_1_0_0_1_n_n none _ _ j).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = bl0 j k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx j ((contrEquiv1 dot_S5000x128_S128x128_S5000x128_1_0_0_1_n_n 128 rfl rfl).symm k) = br0 j k := funext fun a => Fin.ext (by
    match a with
    | ⟨0, _⟩ => exact (rhs0_0 _ _).trans hk
    | ⟨1, _⟩ => exact rhs0_1 _ _)
  rw [el, er]
  rfl

/-! ## Launch 0: from blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The features' operand index of the whole product at output index `i` and contraction coordinate `k`: row of `i`, column `k`. -/
abbrev gl0 (i : S100000x128.Idx) (k : Fin 128) : S100000x128.Idx := fun a => match a with
  | ⟨0, _⟩ => ⟨(i 0).val, (i 0).isLt⟩
  | ⟨1, _⟩ => ⟨k.val, k.isLt⟩
/-- The weights' operand index: row `k`, column of `i`. -/
abbrev gr0 (i : S100000x128.Idx) (k : Fin 128) : S128x128.Idx := fun a => match a with
  | ⟨0, _⟩ => ⟨k.val, k.isLt⟩
  | ⟨1, _⟩ => ⟨(i 1).val, (i 1).isLt⟩

/-- The whole product: entry (r, q) is the sum over `k` of features (r, k) times weights (k, q). -/
def G0 (X : S100000x128.Idx → EReal) (W : S128x128.Idx → EReal) : S100000x128.Idx → EReal :=
  fun i => ∑ k : Fin 128, X (gl0 i k) * W (gr0 i k)

/-- The block indices over the 20 points: the row window and the result window sit at block row `t`, column block 0;
    the weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays as the launch finds them: entry (p, q)
    of the block depends on row 5000·t + p of the features and column q of the weights. -/
theorem flushed0_eq (c : Dev nD) (t : Fin cfg0.N) :
    (dat0 (F := Ideal) V c).flushed 2 t = ((cfg0.win 2).blk t).view.read (Elt Ideal) (G0 (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  funext j
  show k0_pay1 (F := Ideal) (iblk0 V c 0 t) (iblk0 V c 1 t) ((cfg0.win 2).xinj (grid0.coords t) j) = G0 (V c main_arg0) (V c main_arg3) (((cfg0.win 2).blk t).view.emb j)
  rw [pay0_apply]
  unfold G0
  refine Finset.sum_congr rfl fun k _ => ?_
  have h0 : iblk0 V c 0 t (bl0 ((cfg0.win 2).xinj (grid0.coords t) j) k) = V c main_arg0 (gl0 (((cfg0.win 2).blk t).view.emb j) k) := by
    show V c main_arg0 (((cfg0.win 0).blk t).view.emb (bl0 ((cfg0.win 2).xinj (grid0.coords t) j) k)) = _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (br0 ((cfg0.win 2).xinj (grid0.coords t) j) k) = V c main_arg3 (gr0 (((cfg0.win 2).blk t).view.emb j) k) := by
    show V c main_arg3 (((cfg0.win 1).blk t).view.emb (br0 ((cfg0.win 2).xinj (grid0.coords t) j) k)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the result is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The 20 blocks of 5000 rows cover the 100000 rows: row `r` is in the block of point `r / 5000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after launch 0 is the whole product of the features with the first layer's weights. -/
theorem arr0_G (c : Dev nD) : (dat0 (F := Ideal) V c).arrAt 2 cfg0.N = G0 (V c main_arg0) (V c main_arg3) :=
  (dat0 (F := Ideal) V c).arrAt_eq_of_cover 2 (G0 (V c main_arg0) (V c main_arg3)) (fun t _ => flushed0_eq V c t) cover0

/-- The whole product's operand indices are the reference's. -/
theorem gl0_eq (i : S100000x128.Idx) (k : Fin 128) : gl0 i k = Cert.ReferenceIdeal.ReadP.lidx_main_v30 i k :=
  funext fun a => by match a with | ⟨0, _⟩ => rfl | ⟨1, _⟩ => rfl
theorem gr0_eq (i : S100000x128.Idx) (k : Fin 128) : gr0 i k = Cert.ReferenceIdeal.ReadP.ridx_main_v30 i k :=
  funext fun a => by match a with | ⟨0, _⟩ => rfl | ⟨1, _⟩ => rfl

/-- The whole product at an entry, with the reference's operand indices. -/
theorem G0_apply (X : S100000x128.Idx → EReal) (W : S128x128.Idx → EReal) (i : S100000x128.Idx) :
    G0 X W i = ∑ k : Fin 128, X (Cert.ReferenceIdeal.ReadP.lidx_main_v30 i k) * W (Cert.ReferenceIdeal.ReadP.ridx_main_v30 i k) := by
  unfold G0
  refine Finset.sum_congr rfl fun k _ => ?_
  rw [gl0_eq, gr0_eq]

/-- The whole product is the reference's product of the two arrays: both are that sum at every entry. -/
theorem G0_eq_dot (X : S100000x128.Idx → EReal) (W : S128x128.Idx → EReal) :
    G0 X W = Host.dotGeneral (F := Ideal) (φ₁ := .f32) (φ₂ := .f32) Cert.ReferenceIdeal.dot_S100000x128_S128x128_S100000x128_1_0_0_1_n_n none X W := by
  funext i
  exact (G0_apply X W i).trans (Cert.ReferenceIdeal.ReadP.val_main_v30_apply X W i).symm

/-- The result array after launch 0, entry by entry. -/
theorem arr0_apply (c : Dev nD) (i : S100000x128.Idx) :
    (dat0 (F := Ideal) V c).arrAt 2 cfg0.N i = G0 (V c main_arg0) (V c main_arg3) i :=
  congrFun (arr0_G V c) i

/-- The result array after launch 0 is the reference's product of the features with the first layer's weights. -/
theorem arr0_eq (c : Dev nD) :
    (dat0 (F := Ideal) V c).arrAt 2 cfg0.N
      = Host.dotGeneral (F := Ideal) (φ₁ := .f32) (φ₂ := .f32) Cert.ReferenceIdeal.dot_S100000x128_S128x128_S100000x128_1_0_0_1_n_n none (V c main_arg0) (V c main_arg3) :=
  (arr0_G V c).trans (G0_eq_dot _ _)

/-! ## Launch 2: the payload at an index -/

/-- The row block's operand index of the product at output index `j` and contraction coordinate `k`: row of `j`, column `k`. -/
abbrev bl2 (j : S5000x64.Idx) (k : Fin 128) : S5000x128.Idx := fun a => match a with
  | ⟨0, _⟩ => ⟨(j 0).val, (j 0).isLt⟩
  | ⟨1, _⟩ => ⟨k.val, k.isLt⟩
/-- The weights' operand index: row `k`, column of `j`. -/
abbrev br2 (j : S5000x64.Idx) (k : Fin 128) : S128x64.Idx := fun a => match a with
  | ⟨0, _⟩ => ⟨k.val, k.isLt⟩
  | ⟨1, _⟩ => ⟨(j 1).val, (j 1).isLt⟩

theorem lhs2_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs2_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs2_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs2_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at an index of the block: the row of the row block against the column of the weights, summed
    over the 128 contraction coordinates (the cast to the same shape and the narrowing to bf16 are the identity, the
    accumulator is zero). -/
theorem pay2_apply (x0 : Vec Ideal S5000x128 .f32) (x1 : Vec Ideal S128x64 .f32) (j : S5000x64.Idx) :
    k2_pay1 (F := Ideal) x0 x1 j = ∑ k : Fin 128, x0 (bl2 j k) * x1 (br2 j k) := by
  unfold k2_pay1
  rw [shapeCast_self]
  refine (Ideal.matmul_constant_zero_apply dot_S5000x128_S128x64_S5000x64_1_0_0_1_n_n none _ _ j).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx j ((contrEquiv1 dot_S5000x128_S128x64_S5000x64_1_0_0_1_n_n 128 rfl rfl).symm k) = bl2 j k := funext fun a => Fin.ext (by
    match a with
    | ⟨0, _⟩ => exact lhs2_0 _ _
    | ⟨1, _⟩ => exact (lhs2_1 _ _).trans hk)
  have er : dot_S5000x128_S128x64_S5000x64_1_0_0_1_n_n.rhsIdx j ((contrEquiv1 dot_S5000x128_S128x64_S5000x64_1_0_0_1_n_n 128 rfl rfl).symm k) = br2 j k := funext fun a => Fin.ext (by
    match a with
    | ⟨0, _⟩ => exact (rhs2_0 _ _).trans hk
    | ⟨1, _⟩ => exact rhs2_1 _ _)
  rw [el, er]
  rfl

/-! ## Launch 2: from blocks to the array -/

/-- The hidden features' operand index of the whole product at output index `i` and contraction coordinate `k`: row of `i`, column `k`. -/
abbrev gl2 (i : S100000x64.Idx) (k : Fin 128) : S100000x128.Idx := fun a => match a with
  | ⟨0, _⟩ => ⟨(i 0).val, (i 0).isLt⟩
  | ⟨1, _⟩ => ⟨k.val, k.isLt⟩
/-- The weights' operand index: row `k`, column of `i`. -/
abbrev gr2 (i : S100000x64.Idx) (k : Fin 128) : S128x64.Idx := fun a => match a with
  | ⟨0, _⟩ => ⟨k.val, k.isLt⟩
  | ⟨1, _⟩ => ⟨(i 1).val, (i 1).isLt⟩

/-- The whole product: entry (r, q) is the sum over `k` of hidden features (r, k) times weights (k, q). -/
def G2 (X : S100000x128.Idx → EReal) (W : S128x64.Idx → EReal) : S100000x64.Idx → EReal :=
  fun i => ∑ k : Fin 128, X (gl2 i k) * W (gr2 i k)

/-- The block indices over the 20 points: the row window and the result window sit at block row `t`, column block 0;
    the weight window at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the arrays as the launch finds them: entry (p, q)
    of the block depends on row 5000·t + p of the hidden features and column q of the weights. -/
theorem flushed2_eq (c : Dev nD) (t : Fin cfg2.N) :
    (dat2 (F := Ideal) V c).flushed 2 t = ((cfg2.win 2).blk t).view.read (Elt Ideal) (G2 (V c main_v45) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts2 t
  funext j
  show k2_pay1 (F := Ideal) (iblk2 V c 0 t) (iblk2 V c 1 t) ((cfg2.win 2).xinj (grid2.coords t) j) = G2 (V c main_v45) (V c main_arg5) (((cfg2.win 2).blk t).view.emb j)
  rw [pay2_apply]
  unfold G2
  refine Finset.sum_congr rfl fun k _ => ?_
  have h0 : iblk2 V c 0 t (bl2 ((cfg2.win 2).xinj (grid2.coords t) j) k) = V c main_v45 (gl2 (((cfg2.win 2).blk t).view.emb j) k) := by
    show V c main_v45 (((cfg2.win 0).blk t).view.emb (bl2 ((cfg2.win 2).xinj (grid2.coords t) j) k)) = _
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : iblk2 V c 1 t (br2 ((cfg2.win 2).xinj (grid2.coords t) j) k) = V c main_arg5 (gr2 (((cfg2.win 2).blk t).view.emb j) k) := by
    show V c main_arg5 (((cfg2.win 1).blk t).view.emb (br2 ((cfg2.win 2).xinj (grid2.coords t) j) k)) = _
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [h0, h1]

/-- An index of the result is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The 20 blocks of 5000 rows cover the 100000 rows: row `r` is in the block of point `r / 5000`. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, e2, e3, e4, e5⟩ := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after launch 2 is the whole product of the hidden features with the second layer's weights. -/
theorem arr2_G (c : Dev nD) : (dat2 (F := Ideal) V c).arrAt 2 cfg2.N = G2 (V c main_v45) (V c main_arg5) :=
  (dat2 (F := Ideal) V c).arrAt_eq_of_cover 2 (G2 (V c main_v45) (V c main_arg5)) (fun t _ => flushed2_eq V c t) cover2

/-- The whole product's operand indices are the reference's. -/
theorem gl2_eq (i : S100000x64.Idx) (k : Fin 128) : gl2 i k = Cert.ReferenceIdeal.ReadP.lidx_main_v48 i k :=
  funext fun a => by match a with | ⟨0, _⟩ => rfl | ⟨1, _⟩ => rfl
theorem gr2_eq (i : S100000x64.Idx) (k : Fin 128) : gr2 i k = Cert.ReferenceIdeal.ReadP.ridx_main_v48 i k :=
  funext fun a => by match a with | ⟨0, _⟩ => rfl | ⟨1, _⟩ => rfl

/-- The whole product at an entry, with the reference's operand indices. -/
theorem G2_apply (X : S100000x128.Idx → EReal) (W : S128x64.Idx → EReal) (i : S100000x64.Idx) :
    G2 X W i = ∑ k : Fin 128, X (Cert.ReferenceIdeal.ReadP.lidx_main_v48 i k) * W (Cert.ReferenceIdeal.ReadP.ridx_main_v48 i k) := by
  unfold G2
  refine Finset.sum_congr rfl fun k _ => ?_
  rw [gl2_eq, gr2_eq]

/-- The whole product is the reference's product of the two arrays: the reference's product at an entry is the sum over its
    one contraction axis, re-indexed by the 128 contraction coordinates, of the same factors. -/
theorem G2_eq_dot (X : S100000x128.Idx → EReal) (W : S128x64.Idx → EReal) :
    G2 X W = Host.dotGeneral (F := Ideal) (φ₁ := .f32) (φ₂ := .f32) Cert.ReferenceIdeal.dot_S100000x128_S128x64_S100000x64_1_0_0_1_n_n none X W := by
  funext i
  refine (G2_apply X W i).trans ?_
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((contrEquiv1 Cert.ReferenceIdeal.dot_S100000x128_S128x64_S100000x64_1_0_0_1_n_n 128 rfl rfl).symm k) = Cert.ReferenceIdeal.ReadP.lidx_main_v48 i k := funext fun a => Fin.ext (by
    match a with
    | ⟨0, _⟩ => exact Cert.ReferenceIdeal.ReadP.lhs_main_v48_0 _ _
    | ⟨1, _⟩ => exact (Cert.ReferenceIdeal.ReadP.lhs_main_v48_1 _ _).trans hk)
  have er : Cert.ReferenceIdeal.dot_S100000x128_S128x64_S100000x64_1_0_0_1_n_n.rhsIdx i ((contrEquiv1 Cert.ReferenceIdeal.dot_S100000x128_S128x64_S100000x64_1_0_0_1_n_n 128 rfl rfl).symm k) = Cert.ReferenceIdeal.ReadP.ridx_main_v48 i k := funext fun a => Fin.ext (by
    match a with
    | ⟨0, _⟩ => exact (Cert.ReferenceIdeal.ReadP.rhs_main_v48_0 _ _).trans hk
    | ⟨1, _⟩ => exact Cert.ReferenceIdeal.ReadP.rhs_main_v48_1 _ _)
  rw [el, er]

/-- The result array after launch 2, entry by entry. -/
theorem arr2_apply (c : Dev nD) (i : S100000x64.Idx) :
    (dat2 (F := Ideal) V c).arrAt 2 cfg2.N i = G2 (V c main_v45) (V c main_arg5) i :=
  congrFun (arr2_G V c) i

/-- The result array after launch 2 is the reference's product of the hidden features with the second layer's weights. -/
theorem arr2_eq (c : Dev nD) :
    (dat2 (F := Ideal) V c).arrAt 2 cfg2.N
      = Host.dotGeneral (F := Ideal) (φ₁ := .f32) (φ₂ := .f32) Cert.ReferenceIdeal.dot_S100000x128_S128x64_S100000x64_1_0_0_1_n_n none (V c main_v45) (V c main_arg5) :=
  (arr2_G V c).trans (G2_eq_dot _ _)

end Cert.KernelIdeal.Val

end
-- ==== Proof.ValAct.lean ====
/-
  The two bias-and-rectify launches, read as values. Each launch walks the rows of an aggregated-message array in
  blocks of 5000, adds the one-row bias to every row of the block, rectifies at zero and writes the block back to the
  same rows of the result. Here: the stored block at an index, each written-back block as a block of ONE function of
  the two arrays the launch reads, the twenty blocks' cover of the 100000 rows, hence the whole result array; and the
  three reshapes of a vector to a one-row or one-column matrix, which read the same entries as the broadcasts that
  add the unit axis.
-/
import proofs.«418392_j82944408420780_1_alg».proof.Proof.KI.R1
import proofs.«418392_j82944408420780_1_alg».proof.Proof.KI.R3
import proofs.«418392_j82944408420780_1_alg».proof.Proof.RefRead
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx

open Cert.KernelIdeal Cert.KernelIdeal.Gen Cert.KernelIdeal.Frm

variable {F : FTy → Type} [FloatOps F]

/-! ## A vector reshaped to a one-row or one-column matrix -/

/-- The 128 biases as a 1×128 row: entry (0, q) is bias q, whether the unit axis is added by a reshape or by a broadcast. -/
theorem reshape_b128 (x : (⟨S128, .f32⟩ : BufTy).Contents (Elt F)) :
    shapeCast S1x128 x Facts₀.shapeCasts_S128_S1x128
      = broadcastInDim Cert.ReferenceIdeal.S1x128 ![1] Cert.ReferenceIdeal.Facts₀.bcast_S128_S1x128_1 x := by
  funext j
  obtain ⟨u, q, rfl⟩ : ∃ (u : Fin 1) (q : Fin 128), j = ix2 u q := ⟨j 0, j 1, eq_ix2 j⟩
  refine (shapeCast_a_1a_apply x _ u q).trans (Eq.symm ?_)
  refine broadcastInDim_apply _ _ x _ (ix1 q) fun a => ?_
  match a with
  | ⟨0, _⟩ => show q.val = if (128 : Nat) = 1 then 0 else q.val; rw [if_neg (by decide)]

/-- The 64 biases as a 1×64 row, likewise. -/
theorem reshape_b64 (x : (⟨S64, .f32⟩ : BufTy).Contents (Elt F)) :
    shapeCast S1x64 x Facts₀.shapeCasts_S64_S1x64
      = broadcastInDim Cert.ReferenceIdeal.S1x64 ![1] Cert.ReferenceIdeal.Facts₀.bcast_S64_S1x64_1 x := by
  funext j
  obtain ⟨u, q, rfl⟩ : ∃ (u : Fin 1) (q : Fin 64), j = ix2 u q := ⟨j 0, j 1, eq_ix2 j⟩
  refine (shapeCast_a_1a_apply x _ u q).trans (Eq.symm ?_)
  refine broadcastInDim_apply _ _ x _ (ix1 q) fun a => ?_
  match a with
  | ⟨0, _⟩ => show q.val = if (64 : Nat) = 1 then 0 else q.val; rw [if_neg (by decide)]

/-- The 100000 graph ids as a 100000×1 column: entry (r, 0) is id r, by reshape or by broadcast. -/
theorem reshape_ids (x : (⟨S100000, .i32⟩ : BufTy).Contents (Elt F)) :
    shapeCast S100000x1 x Facts₀.shapeCasts_S100000_S100000x1
      = broadcastInDim Cert.ReferenceIdeal.S100000x1 ![0] Cert.ReferenceIdeal.Facts₀.bcast_S100000_S100000x1_0 x := by
  funext j
  obtain ⟨r, u, rfl⟩ : ∃ (r : Fin 100000) (u : Fin 1), j = ix2 r u := ⟨j 0, j 1, eq_ix2 j⟩
  refine (shapeCast_apply x _ (ix2 r u) (ix1 r) ?_).trans (Eq.symm ?_)
  · have hu : u.val = 0 := by omega
    rw [Shape.rowMajor_val_two, Shape.rowMajor_val_one]
    show r.val = r.val * 1 + u.val
    rw [hu, Nat.mul_one, Nat.add_zero]
  · refine broadcastInDim_apply _ _ x _ (ix1 r) fun a => ?_
    match a with
    | ⟨0, _⟩ => show r.val = if (100000 : Nat) = 1 then 0 else r.val; rw [if_neg (by decide)]

variable (V : (c : Dev nD) → (b : Ref sig .tc) → Buf (Elt F) ((c : Thread nD τ).loc b))

theorem zeros2 : (![0, 0] : Fin 2 → Nat) = fun _ => 0 := funext fun a => by fin_cases a <;> rfl

/-! ## The first launch: 128 columns -/

/-- Where the bias row is read for an index of a 5000×128 block: row 0, the index's column. -/
abbrev rowOf128 (j : S5000x128.Idx) : S1x128.Idx := fun a => match a with
  | ⟨0, _⟩ => ⟨0, Nat.one_pos⟩
  | ⟨1, _⟩ => ⟨(j 1).val, (j 1).isLt⟩

/-- The stored block at an index: the message entry plus its column's bias, rectified at zero. -/
theorem pay1_apply (x0 : Vec F S5000x128 .f32) (x1 : Vec F S1x128 .f32) (j : S5000x128.Idx) :
    k1_pay1 x0 x1 j = FloatOps.maximumf (FloatOps.addf (x0 j) (x1 (rowOf128 j))) (FloatOps.ofBits .f32 0x00000000#32) := by
  obtain ⟨p, q, rfl⟩ : ∃ (p : Fin 5000) (q : Fin 128), j = ix2 p q := ⟨j 0, j 1, eq_ix2 j⟩
  unfold k1_pay1
  show FloatOps.maximumf (FloatOps.addf (shapeCast S5000x128 x0 _ (ix2 p q)) (broadcastTo S5000x128 (shapeCast S1x128 x1 _) _ (ix2 p q))) _ = _
  rw [shapeCast_self, shapeCast_self, broadcastTo_1b_ab_apply]
  exact congrArg (fun z => FloatOps.maximumf (FloatOps.addf (x0 (ix2 p q)) (x1 z)) _)
    (funext fun a => match a with | ⟨0, _⟩ => rfl | ⟨1, _⟩ => rfl)

/-- The whole result as ONE function of the message array `A` and the bias row `B`: entry (r, q) is max (A (r, q) + B (0, q), 0). -/
abbrev act128 (A : S100000x128.Idx → Elt F .f32) (B : S1x128.Idx → Elt F .f32) : S100000x128.Idx → Elt F .f32 :=
  fun i => FloatOps.maximumf (FloatOps.addf (A i) (B (Cert.ReferenceIdeal.ReadP.idx_main_v45 i))) (FloatOps.ofBits .f32 0x00000000#32)

/-- The block index maps over the twenty points: the message window and the result window sit at row block `t`,
    column block 0; the bias window at block (0, 0) throughout. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

set_option maxHeartbeats 400000 in
/-- What point `t` writes back is block `t` of `act128` of the two arrays the launch reads: the message block and the
    result block are the same rows, and the bias window is the whole bias row. -/
theorem flushed1_eq (c : Dev nD) (t : Fin cfg1.N) :
    (dat1 V c).flushed 2 t = ((cfg1.win 2).blk t).view.read (Elt F) (act128 (V c main_v43) (V c main_v44)) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S1x128) zeros2]
  obtain ⟨e0, e1, e2, e3, e4, e5⟩ := idx_facts1 t
  funext j
  show k1_pay1 (iblk1 V c 0 t) (iblk1 V c 1 t) ((win1 2).xinj (grid1.coords t) j) = _
  refine (pay1_apply _ _ _).trans ?_
  rw [View.read_apply]
  show FloatOps.maximumf (FloatOps.addf (V c main_v43 (((cfg1.win 0).blk t).view.emb ((win1 2).xinj (grid1.coords t) j)))
        (V c main_v44 (((cfg1.win 1).blk t).view.emb (rowOf128 ((win1 2).xinj (grid1.coords t) j))))) _
      = FloatOps.maximumf (FloatOps.addf (V c main_v43 (((cfg1.win 2).blk t).view.emb j))
        (V c main_v44 (Cert.ReferenceIdeal.ReadP.idx_main_v45 (((cfg1.win 2).blk t).view.emb j)))) _
  have h0 : ((cfg1.win 0).blk t).view.emb ((win1 2).xinj (grid1.coords t) j) = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (rowOf128 ((win1 2).xinj (grid1.coords t) j))
      = Cert.ReferenceIdeal.ReadP.idx_main_v45 (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the result is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The twenty blocks cover the 100000 rows: row `r` is in block `r / 5000`, and every block spans all 128 columns. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 5000 < cfg1.N := by show _ < grid1.N; rw [N_1]; omega
  obtain ⟨e0, e1, e2, e3, e4, e5⟩ := idx_facts1 ⟨(i 0).val / 5000, hN⟩
  have e4' : win1_2.index ⟨(i 0).val / 5000, hN⟩ (0 : Fin 2) = (i 0).val / 5000 := e4
  refine ⟨⟨(i 0).val / 5000, hN⟩, flush1_2 _, ?_⟩
  rw [mem_blk1]
  intro a
  match a with
  | ⟨0, _⟩ =>
    show win1_2.index ⟨(i 0).val / 5000, hN⟩ (0 : Fin 2) * 5000 ≤ (i 0).val ∧ (i 0).val < win1_2.index ⟨(i 0).val / 5000, hN⟩ (0 : Fin 2) * 5000 + 5000
    omega
  | ⟨1, _⟩ =>
    show win1_2.index ⟨(i 0).val / 5000, hN⟩ (1 : Fin 2) * 128 ≤ (i 1).val ∧ (i 1).val < win1_2.index ⟨(i 0).val / 5000, hN⟩ (1 : Fin 2) * 128 + 128
    omega

/-- The result array after the launch is `act128` of the message array and the bias row the launch found. -/
theorem arr1_act (c : Dev nD) : (dat1 V c).arrAt 2 cfg1.N = act128 (V c main_v43) (V c main_v44) :=
  (dat1 V c).arrAt_eq_of_cover 2 (act128 (V c main_v43) (V c main_v44)) (fun t _ => flushed1_eq V c t) cover1

/-- The same function in whole-array operations: the bias row repeated down the rows, added to the messages, the sum
    rectified against the all-zero array. -/
theorem act128_eq (A : S100000x128.Idx → Elt F .f32) (B : S1x128.Idx → Elt F .f32) :
    act128 A B = maximumf (addf A (broadcastInDim Cert.ReferenceIdeal.S100000x128 ![0, 1] Cert.ReferenceIdeal.Facts₀.bcast_S1x128_S100000x128_0_1 B))
      (Cert.ReferenceIdeal.ReadP.val_main_call1_v0 (F := F)) := by
  funext i
  show _ = FloatOps.maximumf (FloatOps.addf (A i) (broadcastInDim Cert.ReferenceIdeal.S100000x128 ![0, 1] Cert.ReferenceIdeal.Facts₀.bcast_S1x128_S100000x128_0_1 B i))
    (Cert.ReferenceIdeal.ReadP.val_main_call1_v0 (F := F) i)
  rw [Cert.ReferenceIdeal.ReadP.val_main_call1_v0_apply, Cert.ReferenceIdeal.ReadP.val_main_call1_cst_apply,
    broadcastInDim_apply _ _ B i (Cert.ReferenceIdeal.ReadP.idx_main_v45 i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])]

/-- THE FIRST LAUNCH'S RESULT: the messages plus the broadcast bias row, rectified. -/
theorem arr1_eq (c : Dev nD) :
    ((dat1 V c).arrAt 2 cfg1.N : S100000x128.Idx → Elt F .f32)
      = maximumf (addf (V c main_v43 : S100000x128.Idx → Elt F .f32)
          (broadcastInDim Cert.ReferenceIdeal.S100000x128 ![0, 1] Cert.ReferenceIdeal.Facts₀.bcast_S1x128_S100000x128_0_1 (V c main_v44 : S1x128.Idx → Elt F .f32)))
        (Cert.ReferenceIdeal.ReadP.val_main_call1_v0 (F := F)) :=
  (arr1_act V c).trans (act128_eq _ _)

/-- The same, entry by entry. -/
theorem arr1_apply (c : Dev nD) (i : S100000x128.Idx) :
    ((dat1 V c).arrAt 2 cfg1.N : S100000x128.Idx → Elt F .f32) i
      = FloatOps.maximumf (FloatOps.addf ((V c main_v43 : S100000x128.Idx → Elt F .f32) i)
          ((V c main_v44 : S1x128.Idx → Elt F .f32) (Cert.ReferenceIdeal.ReadP.idx_main_v45 i))) (FloatOps.ofBits .f32 0x00000000#32) :=
  congrFun (arr1_act V c) i
/-! ## The second launch: 64 columns -/

/-- Where the bias row is read for an index of a 5000×64 block: row 0, the index's column. -/
abbrev rowOf64 (j : S5000x64.Idx) : S1x64.Idx := fun a => match a with
  | ⟨0, _⟩ => ⟨0, Nat.one_pos⟩
  | ⟨1, _⟩ => ⟨(j 1).val, (j 1).isLt⟩

/-- The stored block at an index: the message entry plus its column's bias, rectified at zero. -/
theorem pay3_apply (x0 : Vec F S5000x64 .f32) (x1 : Vec F S1x64 .f32) (j : S5000x64.Idx) :
    k3_pay1 x0 x1 j = FloatOps.maximumf (FloatOps.addf (x0 j) (x1 (rowOf64 j))) (FloatOps.ofBits .f32 0x00000000#32) := by
  obtain ⟨p, q, rfl⟩ : ∃ (p : Fin 5000) (q : Fin 64), j = ix2 p q := ⟨j 0, j 1, eq_ix2 j⟩
  unfold k3_pay1
  show FloatOps.maximumf (FloatOps.addf (shapeCast S5000x64 x0 _ (ix2 p q)) (broadcastTo S5000x64 (shapeCast S1x64 x1 _) _ (ix2 p q))) _ = _
  rw [shapeCast_self, shapeCast_self, broadcastTo_1b_ab_apply]
  exact congrArg (fun z => FloatOps.maximumf (FloatOps.addf (x0 (ix2 p q)) (x1 z)) _)
    (funext fun a => match a with | ⟨0, _⟩ => rfl | ⟨1, _⟩ => rfl)

/-- The whole result as ONE function of the message array `A` and the bias row `B`: entry (r, q) is max (A (r, q) + B (0, q), 0). -/
abbrev act64 (A : S100000x64.Idx → Elt F .f32) (B : S1x64.Idx → Elt F .f32) : S100000x64.Idx → Elt F .f32 :=
  fun i => FloatOps.maximumf (FloatOps.addf (A i) (B (Cert.ReferenceIdeal.ReadP.idx_main_v63 i))) (FloatOps.ofBits .f32 0x00000000#32)

/-- The block index maps over the twenty points: the message window and the result window sit at row block `t`,
    column block 0; the bias window at block (0, 0) throughout. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 400000 in
/-- What point `t` writes back is block `t` of `act64` of the two arrays the launch reads: the message block and the
    result block are the same rows, and the bias window is the whole bias row. -/
theorem flushed3_eq (c : Dev nD) (t : Fin cfg3.N) :
    (dat3 V c).flushed 2 t = ((cfg3.win 2).blk t).view.read (Elt F) (act64 (V c main_v59) (V c main_v60)) := by
  show (cfg3.win 2).cut (grid3.coords t) ((dat3 V c).after 2 t) = _
  rw [after3_2]
  unfold out3_2
  rw [View.canon_unit_zero zeros2]
  simp only [View.ld_unit_zero (S := S5000x64) zeros2, View.ld_unit_zero (S := S1x64) zeros2]
  obtain ⟨e0, e1, e2, e3, e4, e5⟩ := idx_facts3 t
  funext j
  show k3_pay1 (iblk3 V c 0 t) (iblk3 V c 1 t) ((win3 2).xinj (grid3.coords t) j) = _
  refine (pay3_apply _ _ _).trans ?_
  rw [View.read_apply]
  show FloatOps.maximumf (FloatOps.addf (V c main_v59 (((cfg3.win 0).blk t).view.emb ((win3 2).xinj (grid3.coords t) j)))
        (V c main_v60 (((cfg3.win 1).blk t).view.emb (rowOf64 ((win3 2).xinj (grid3.coords t) j))))) _
      = FloatOps.maximumf (FloatOps.addf (V c main_v59 (((cfg3.win 2).blk t).view.emb j))
        (V c main_v60 (Cert.ReferenceIdeal.ReadP.idx_main_v63 (((cfg3.win 2).blk t).view.emb j)))) _
  have h0 : ((cfg3.win 0).blk t).view.emb ((win3 2).xinj (grid3.coords t) j) = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (rowOf64 ((win3 2).xinj (grid3.coords t) j))
      = Cert.ReferenceIdeal.ReadP.idx_main_v63 (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [h0, h1]

/-- An index of the result is in point `t`'s block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The twenty blocks cover the 100000 rows: row `r` is in block `r / 5000`, and every block spans all 64 columns. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 5000 < cfg3.N := by show _ < grid3.N; rw [N_3]; omega
  obtain ⟨e0, e1, e2, e3, e4, e5⟩ := idx_facts3 ⟨(i 0).val / 5000, hN⟩
  have e4' : win3_2.index ⟨(i 0).val / 5000, hN⟩ (0 : Fin 2) = (i 0).val / 5000 := e4
  refine ⟨⟨(i 0).val / 5000, hN⟩, flush3_2 _, ?_⟩
  rw [mem_blk3]
  intro a
  match a with
  | ⟨0, _⟩ =>
    show win3_2.index ⟨(i 0).val / 5000, hN⟩ (0 : Fin 2) * 5000 ≤ (i 0).val ∧ (i 0).val < win3_2.index ⟨(i 0).val / 5000, hN⟩ (0 : Fin 2) * 5000 + 5000
    omega
  | ⟨1, _⟩ =>
    show win3_2.index ⟨(i 0).val / 5000, hN⟩ (1 : Fin 2) * 64 ≤ (i 1).val ∧ (i 1).val < win3_2.index ⟨(i 0).val / 5000, hN⟩ (1 : Fin 2) * 64 + 64
    omega

/-- The result array after the launch is `act64` of the message array and the bias row the launch found. -/
theorem arr3_act (c : Dev nD) : (dat3 V c).arrAt 2 cfg3.N = act64 (V c main_v59) (V c main_v60) :=
  (dat3 V c).arrAt_eq_of_cover 2 (act64 (V c main_v59) (V c main_v60)) (fun t _ => flushed3_eq V c t) cover3

/-- The same function in whole-array operations: the bias row repeated down the rows, added to the messages, the sum
    rectified against the all-zero array. -/
theorem act64_eq (A : S100000x64.Idx → Elt F .f32) (B : S1x64.Idx → Elt F .f32) :
    act64 A B = maximumf (addf A (broadcastInDim Cert.ReferenceIdeal.S100000x64 ![0, 1] Cert.ReferenceIdeal.Facts₀.bcast_S1x64_S100000x64_0_1 B))
      (Cert.ReferenceIdeal.ReadP.val_main_call2_v0 (F := F)) := by
  funext i
  show _ = FloatOps.maximumf (FloatOps.addf (A i) (broadcastInDim Cert.ReferenceIdeal.S100000x64 ![0, 1] Cert.ReferenceIdeal.Facts₀.bcast_S1x64_S100000x64_0_1 B i))
    (Cert.ReferenceIdeal.ReadP.val_main_call2_v0 (F := F) i)
  rw [Cert.ReferenceIdeal.ReadP.val_main_call2_v0_apply, Cert.ReferenceIdeal.ReadP.val_main_call2_cst_apply,
    broadcastInDim_apply _ _ B i (Cert.ReferenceIdeal.ReadP.idx_main_v63 i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])]

/-- THE SECOND LAUNCH'S RESULT: the messages plus the broadcast bias row, rectified. -/
theorem arr3_eq (c : Dev nD) :
    ((dat3 V c).arrAt 2 cfg3.N : S100000x64.Idx → Elt F .f32)
      = maximumf (addf (V c main_v59 : S100000x64.Idx → Elt F .f32)
          (broadcastInDim Cert.ReferenceIdeal.S100000x64 ![0, 1] Cert.ReferenceIdeal.Facts₀.bcast_S1x64_S100000x64_0_1 (V c main_v60 : S1x64.Idx → Elt F .f32)))
        (Cert.ReferenceIdeal.ReadP.val_main_call2_v0 (F := F)) :=
  (arr3_act V c).trans (act64_eq _ _)

/-- The same, entry by entry. -/
theorem arr3_apply (c : Dev nD) (i : S100000x64.Idx) :
    ((dat3 V c).arrAt 2 cfg3.N : S100000x64.Idx → Elt F .f32) i
      = FloatOps.maximumf (FloatOps.addf ((V c main_v59 : S100000x64.Idx → Elt F .f32) i)
          ((V c main_v60 : S1x64.Idx → Elt F .f32) (Cert.ReferenceIdeal.ReadP.idx_main_v63 i))) (FloatOps.ofBits .f32 0x00000000#32) :=
  congrFun (arr3_act V c) i

end Cert.KernelIdeal.Val

end
-- ==== Proof.LibRowGatherScatter.lean ====
/-
  ROWS OF A TABLE, GATHERED AND SCATTER-ADDED, READ AT AN INDEX.

  For a table of shape [N, C] and E integer row indices (an [E, 1] array of words):

  * the row gather (dimension numbers: offset axis 1, collapsed axis 0, start index map [0], index vector on axis 1,
    slices of size [1, C]) has, at result position (e, j), the table's element at row idx[e, 0] — read as a signed
    integer and clamped into [0, N - 1] — and column j (gather_rows_apply);
  * the row scatter with an add body (window axis 1, inserted axis 0, scatter axis 0, index vector on axis 1) has, at
    the exact (extended-real) instance, at position (n, j) the operand's element plus the sum, over the rows e of the
    updates whose index idx[e, 0], read as a signed integer and NOT clamped, is exactly n, of upd[e, j]; a row whose
    index lies outside [0, N) contributes nowhere (scatterAdd_rows_apply);
  * both operations act column by column, so they commute with restricting every array to a block of columns
    c0, …, c0 + C' - 1 (gather_rows_cols, scatterAdd_rows_cols).
-/
import Idealize.ShloMosaic.Lib.ValueIdx
import Idealize.ShloMosaic.PureOps.Contract

noncomputable section

open scoped BigOperators

namespace Cert.LibRows

open Idealize.ShloMosaic Idealize.ShloMosaic.ValueIdx

/-! ## The row gather -/

section Gather
variable {α : Type}

/-- The row gather's dimension numbers for a table [N, C], start indices [E, 1] and result [E, C]; their conditions
    are decided on literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The conditions hold only of a table with at least one row: the size-1 slice must fit on axis 0. -/
theorem rowGather_pos {N E C : Nat}
    (wf : GatherDims.WF ⟨2, ![N, C]⟩ ⟨2, ![E, 1]⟩ ⟨2, ![E, C]⟩ [1] [0] [] [0] [] 1 ![1, C]) : 0 < N :=
  (rowGather N E C wf).slice_le 0

/-- THE ROW GATHER AT (e, j): the table at row idx[e, 0], read signed and clamped into [0, N - 1], and column j. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j)
      = x (ix2 ⟨min (idx (ix2 e (0 : Fin 1))).toInt.toNat (N - 1), by omega⟩ j) := by
  have h10 : (1 : Fin 2) ∉ ([0] : List (Fin 2)) := by decide
  -- axis 0 is collapsed: no offset coordinate; its start is the clamped index
  have h0 : (rowGather N E C wf).start (ix2 e j) idx (0 : Fin 2) + (rowGather N E C wf).batchCoord (ix2 e j) (0 : Fin 2)
      + (rowGather N E C wf).offCoord (ix2 e j) (0 : Fin 2) = min (idx (ix2 e (0 : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1 is not indexed: its start is 0 and its offset coordinate the result's column
  have h1 : (rowGather N E C wf).start (ix2 e j) idx (1 : Fin 2) + (rowGather N E C wf).batchCoord (ix2 e j) (1 : Fin 2)
      + (rowGather N E C wf).offCoord (ix2 e j) (1 : Fin 2) = j.val := by
    have hs : (rowGather N E C wf).start (ix2 e j) idx (1 : Fin 2) = 0 := by
      unfold GatherDims.start
      rw [dif_neg (show (1 : Fin 2) ∉ (rowGather N E C wf).startIndexMap from h10)]
    have ho : (rowGather N E C wf).offCoord (ix2 e j) (1 : Fin 2) = j.val := by
      unfold GatherDims.offCoord
      rw [dif_pos (show (1 : Fin 2) ∈ (rowGather N E C wf).sKept from
        (GatherDims.mem_sKept _ _).mpr ⟨h10, List.not_mem_nil⟩)]
      rfl
    rw [GatherDims.batchCoord_eq_zero _ _ _ List.not_mem_nil, hs, ho]; omega
  unfold Host.gather
  congr 1
  funext a
  refine Fin.ext ?_
  match a with
  | ⟨0, _⟩ => exact h0
  | ⟨1, _⟩ => exact h1

end Gather

/-! ## The row scatter with an add body -/

section Scatter

/-- The row scatter's dimension numbers for an operand [N, C], scatter indices [E, 1] and updates [E, C]; their
    conditions are decided on literal shapes. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On axis 0 the window of update (e, j) starts at the index idx[e, 0], read signed. -/
theorem rowScatter_start0 (idx : IVec ⟨2, ![E, 1]⟩ w) (e : Fin E) (j : Fin C) :
    (rowScatter N E C wf).start (ix2 e j) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e j)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis 1, which no index names, it starts at 0. -/
theorem rowScatter_start1 (idx : IVec ⟨2, ![E, 1]⟩ w) (e : Fin E) (j : Fin C) :
    (rowScatter N E C wf).start (ix2 e j) idx (1 : Fin 2) = 0 := by
  unfold ScatterDims.start
  have h10 : (1 : Fin 2) ∉ ([0] : List (Fin 2)) := by decide
  rw [dif_neg (show (1 : Fin 2) ∉ (rowScatter N E C wf).scatterDimsToOperandDims from h10)]

/-- Axis 0 is an inserted axis: the window coordinate there is 0. -/
theorem rowScatter_window0 (e : Fin E) (j : Fin C) : (rowScatter N E C wf).window (ix2 e j) (0 : Fin 2) = 0 := by
  unfold ScatterDims.window
  rw [dif_neg (show (0 : Fin 2) ∉ (rowScatter N E C wf).sKept from by
    simp [ScatterDims.sKept, Shape.kept, List.mem_filter, List.mem_finRange])]

/-- On axis 1 the window coordinate is the update's column. -/
theorem rowScatter_window1 (e : Fin E) (j : Fin C) : (rowScatter N E C wf).window (ix2 e j) (1 : Fin 2) = j.val := by
  unfold ScatterDims.window
  rw [dif_pos (show (1 : Fin 2) ∈ (rowScatter N E C wf).sKept from by
    simp [ScatterDims.sKept, Shape.kept, List.mem_filter, List.mem_finRange])]
  rfl

/-- WHERE AN UPDATE LANDS: update (e, j') goes to operand position (n, j) exactly when its row index idx[e, 0], read
    signed, is n and j' = j. (An index outside [0, N) is no n : Fin N: that update lands nowhere.) -/
theorem rowScatter_resultIdx?_eq_some (idx : IVec ⟨2, ![E, 1]⟩ w) (e : Fin E) (j' : Fin C) (n : Fin N) (j : Fin C) :
    (rowScatter N E C wf).resultIdx? (ix2 e j') idx = some (ix2 n j)
      ↔ (idx (ix2 e (0 : Fin 1))).toInt = (n.val : ℤ) ∧ j' = j := by
  have hs0 := rowScatter_start0 wf idx e j'
  have hs1 := rowScatter_start1 wf idx e j'
  have hw0 := rowScatter_window0 wf e j'
  have hw1 := rowScatter_window1 wf e j'
  constructor
  · intro h
    unfold ScatterDims.resultIdx? at h
    split at h
    · rename_i hall
      have h' := Option.some.inj h
      have e0 : ((rowScatter N E C wf).start (ix2 e j') idx (0 : Fin 2)
          + ((rowScatter N E C wf).window (ix2 e j') (0 : Fin 2) : ℤ)).toNat = n.val :=
        congrArg (fun f => (f (0 : Fin 2)).val) h'
      have e1 : ((rowScatter N E C wf).start (ix2 e j') idx (1 : Fin 2)
          + ((rowScatter N E C wf).window (ix2 e j') (1 : Fin 2) : ℤ)).toNat = j.val :=
        congrArg (fun f => (f (1 : Fin 2)).val) h'
      have b0 := (hall (0 : Fin 2)).1
      rw [hs0, hw0] at e0 b0
      rw [hs1, hw1] at e1
      exact ⟨by omega, Fin.ext (by omega)⟩
    · exact absurd h (by simp)
  · rintro ⟨hn, rfl⟩
    unfold ScatterDims.resultIdx?
    have hall : ∀ a, 0 ≤ (rowScatter N E C wf).start (ix2 e j') idx a + ((rowScatter N E C wf).window (ix2 e j') a : ℤ)
        ∧ (rowScatter N E C wf).start (ix2 e j') idx a + ((rowScatter N E C wf).window (ix2 e j') a : ℤ)
          < (((⟨2, ![N, C]⟩ : Shape).size a : ℕ) : ℤ) := by
      intro a
      match a with
      | ⟨0, _⟩ =>
        show 0 ≤ (rowScatter N E C wf).start (ix2 e j') idx (0 : Fin 2)
            + ((rowScatter N E C wf).window (ix2 e j') (0 : Fin 2) : ℤ)
          ∧ (rowScatter N E C wf).start (ix2 e j') idx (0 : Fin 2)
            + ((rowScatter N E C wf).window (ix2 e j') (0 : Fin 2) : ℤ) < ((N : ℕ) : ℤ)
        rw [hs0, hw0, hn]; have := n.isLt; omega
      | ⟨1, _⟩ =>
        show 0 ≤ (rowScatter N E C wf).start (ix2 e j') idx (1 : Fin 2)
            + ((rowScatter N E C wf).window (ix2 e j') (1 : Fin 2) : ℤ)
          ∧ (rowScatter N E C wf).start (ix2 e j') idx (1 : Fin 2)
            + ((rowScatter N E C wf).window (ix2 e j') (1 : Fin 2) : ℤ) < ((C : ℕ) : ℤ)
        rw [hs1, hw1]; have := j'.isLt; omega
    rw [dif_pos hall]
    congr 1
    funext a
    refine Fin.ext ?_
    match a with
    | ⟨0, _⟩ =>
      show ((rowScatter N E C wf).start (ix2 e j') idx (0 : Fin 2)
          + ((rowScatter N E C wf).window (ix2 e j') (0 : Fin 2) : ℤ)).toNat = n.val
      rw [hs0, hw0, hn]; omega
    | ⟨1, _⟩ =>
      show ((rowScatter N E C wf).start (ix2 e j') idx (1 : Fin 2)
          + ((rowScatter N E C wf).window (ix2 e j') (1 : Fin 2) : ℤ)).toNat = j'.val
      rw [hs1, hw1]; omega

/-- THE ROW SCATTER-ADD AT (n, j), exact instance: the operand's element plus the sum of upd[e, j] over the update
    rows e whose index idx[e, 0], read signed and not clamped, is n. -/
theorem scatterAdd_rows_apply (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatter N E C wf) x idx upd (ix2 n j)
      = x (ix2 n j) + ∑ e ∈ Finset.univ.filter (fun e : Fin E => (idx (ix2 e (0 : Fin 1))).toInt = (n.val : ℤ)),
          upd (ix2 e j) := by
  unfold Ideal.hostScatterAdd
  congr 1
  -- the updates that land at (n, j) are the (e, j) with idx[e, 0] = n: re-index the sum by the row e
  refine Finset.sum_nbij' (fun u : (⟨2, ![E, C]⟩ : Shape).Idx => (u 0 : Fin E)) (fun e : Fin E => ix2 e j) ?_ ?_ ?_ ?_ ?_
  · intro u hu
    obtain ⟨e, j', rfl⟩ : ∃ (e : Fin E) (j' : Fin C), u = ix2 e j' := ⟨u 0, u 1, eq_ix2 u⟩
    exact Finset.mem_filter.mpr ⟨Finset.mem_univ _,
      ((rowScatter_resultIdx?_eq_some wf idx e j' n j).mp (Finset.mem_filter.mp hu).2).1⟩
  · intro e he
    exact Finset.mem_filter.mpr ⟨Finset.mem_univ _,
      (rowScatter_resultIdx?_eq_some wf idx e j n j).mpr ⟨(Finset.mem_filter.mp he).2, rfl⟩⟩
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
  · intro e _
    rfl
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl

/-- The same of the host operation at the exact instance, for any float format. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  exact scatterAdd_rows_apply wf x idx upd n j

end Scatter

/-! ## Restriction to a block of columns -/

section Cols

/-- The columns c0, …, c0 + C' - 1 of an [R, C] array, as an [R, C'] array. -/
def cols {α : Type} {R C C' : Nat} (c0 : Nat) (h : c0 + C' ≤ C) (X : (⟨2, ![R, C]⟩ : Shape).Idx → α) :
    (⟨2, ![R, C']⟩ : Shape).Idx → α :=
  fun i => X (ix2 ⟨(i 0).val, idx2_lt0 i⟩ ⟨c0 + (i 1).val, by have := idx2_lt1 i; omega⟩)

/-- Its element (r, c) is the array's element (r, c0 + c). -/
theorem cols_apply {α : Type} {R C C' : Nat} (c0 : Nat) (h : c0 + C' ≤ C) (X : (⟨2, ![R, C]⟩ : Shape).Idx → α)
    (r : Fin R) (c : Fin C') : cols c0 h X (ix2 r c) = X (ix2 r ⟨c0 + c.val, by omega⟩) := rfl

/-- THE ROW GATHER COMMUTES WITH TAKING COLUMNS: gathering rows of the column block is the column block of the
    gathered rows (the row chosen depends on the index only). -/
theorem gather_rows_cols {α : Type} {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (c0 : Nat) (h : c0 + C' ≤ C) (x : (⟨2, ![N, C]⟩ : Shape).Idx → α) (idx : IVec ⟨2, ![E, 1]⟩ w) :
    Host.gather (rowGather N E C' wf') (cols c0 h x) idx = cols c0 h (Host.gather (rowGather N E C wf) x idx) := by
  funext i
  obtain ⟨e, c, rfl⟩ : ∃ (e : Fin E) (c : Fin C'), i = ix2 e c := ⟨i 0, i 1, eq_ix2 i⟩
  rw [gather_rows_apply hN wf', cols_apply, cols_apply, gather_rows_apply hN wf]

/-- THE ROW SCATTER-ADD COMMUTES WITH TAKING COLUMNS (exact instance): column c0 + c of the result is made of column
    c0 + c of the operand and of the updates only. -/
theorem scatterAdd_rows_cols {φ : FTy} {N E C C' w : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (c0 : Nat) (h : c0 + C' ≤ C) (x : FVec Ideal ⟨2, ![N, C]⟩ φ) (idx : IVec ⟨2, ![E, 1]⟩ w)
    (upd : FVec Ideal ⟨2, ![E, C]⟩ φ) :
    Host.scatterAdd (F := Ideal) (rowScatter N E C' wf') (cols c0 h x) idx (cols c0 h upd)
      = cols c0 h (Host.scatterAdd (F := Ideal) (rowScatter N E C wf) x idx upd) := by
  funext i
  obtain ⟨n, c, rfl⟩ : ∃ (n : Fin N) (c : Fin C'), i = ix2 n c := ⟨i 0, i 1, eq_ix2 i⟩
  rw [host_scatterAdd_rows_apply wf', cols_apply, cols_apply, host_scatterAdd_rows_apply wf]
  rfl

end Cols

end Cert.LibRows

end
-- ==== Proof.ValPool.lean ====
/-
  The value of the pooling launch at the exact (extended-real) instance.

  The launch reads the node features H (100000 × 64) and the graph ids B (100000 × 1, 32-bit words) in 50 blocks of
  2000 rows. Point n adds, for every graph g < 64 and column d, the sum of H (r, d) over the block's rows r whose id
  is the word g to entry (g, d) of the sums, and the number of such rows to entry g of the counts: the transposed
  one-hot matrix (id of row r = g, as 1 or 0) times the block, and times a column of ones; 0 · x = 0 and 1 · x = x
  hold for every extended real, so no finiteness is asked. By induction on the points, the accumulators after point n
  hold the rows below 2000·(n+1); after the last point, every row. The stored result is sum / max(count, 1).

  The reference scatter-adds H's rows, and ones, by the ids read as signed integers and not clamped: an update lands
  on graph g exactly when its id, read signed, is g, which for g < 64 is the id being the word g; ids outside
  [0, 64) land nowhere on either side. So the two agree entry by entry (res4_eq).
-/
import proofs.«418392_j82944408420780_1_alg».proof.Proof.KI.R4Defs
import proofs.«418392_j82944408420780_1_alg».proof.Proof.RefRead
import proofs.«418392_j82944408420780_1_alg».proof.Proof.LibRowGatherScatter
import Idealize.ShloMosaic.Lib.Pipeline.Value
import Idealize.ShloMosaic.Lib.ValueIdx
import Idealize.ShloMosaic.Lib.ValueLayout
import Idealize.ShloMosaic.Lib.FinSumWindow
import Idealize.ShloMosaic.PureOps.Ideal.Laws

set_option maxRecDepth 16384

noncomputable section

namespace Cert.KernelIdeal.ValPool

open Idealize.ShloMosaic Idealize.ShloMosaic.TcCoe Idealize.ShloMosaic.ValueIdx
open Idealize.SL.Sem
open Idealize.ShloMosaic.Pipeline (Dat Cfg Window cellOf)
open Cert.KernelIdeal Cert.KernelIdeal.Gen Cert.KernelIdeal.Frm
open scoped BigOperators

/-! ## The one-hot factor -/

/-- The kernel's indicator of two 32-bit words being equal (compare, zero-extend, convert): one or zero. -/
theorem onehot_val (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · rw [if_pos h]
    have e : (IntOp.cmpi .eq a b).setWidth 32 = 1#32 := by
      subst h; simp [IntOp.cmpi]
    rw [e]
    have : ((1#32 : BitVec 32).toInt : ℝ) = 1 := by norm_num [BitVec.toInt]
    rw [this]; rfl
  · rw [if_neg h]
    have hb : (a == b) = false := by simpa using h
    have e : (IntOp.cmpi .eq a b).setWidth 32 = 0#32 := by
      show BitVec.setWidth 32 (BitVec.ofBool (a == b)) = 0#32
      rw [hb]; rfl
    rw [e]
    have : ((0#32 : BitVec 32).toInt : ℝ) = 0 := by norm_num [BitVec.toInt]
    rw [this]; rfl

/-- Entry (g, r) of the transposed one-hot matrix of a block of ids: whether row r's id is the word g. -/
theorem pay3_apply (v4 : Vec Ideal S2000x1 .i32) (g : Fin 64) (r : Fin 2000) :
    k4_pay3 (F := Ideal) v4 (ix2 g r) = if v4 (ix2 r (0 : Fin 1)) = BitVec.ofNat 32 g.val then 1 else 0 := by
  unfold k4_pay3
  rw [truncf_apply,
    transpose_apply [1, 0] _ transposes_S2000x64_p1_0_S64x2000 (ix2 g r) (ix2 r g)
      (fun b => match b with | ⟨0, _⟩ => rfl | ⟨1, _⟩ => rfl),
    sitofp_apply, extui_apply]
  show FloatOps.sitofp (F := Ideal) .f32 ((IntOp.cmpi .eq
      (broadcastTo S2000x64 (shapeCast S2000x1 v4 shapeCasts_S2000x1_S2000x1) broadcasts_S2000x1_S2000x64 (ix2 r g))
      (iota Kind.tc S2000x64 32 [1] iota_S2000x64_d1_w32 (ix2 r g))).setWidth 32) = _
  rw [broadcastTo_apply _ broadcasts_S2000x1_S2000x64 (ix2 r g) (ix2 r (0 : Fin 1)) (fun a => match a with
      | ⟨0, _⟩ => by show r.val = if (2000 : Nat) = 1 then 0 else r.val; rw [if_neg (by decide)]
      | ⟨1, _⟩ => by show 0 = if (1 : Nat) = 1 then 0 else _; rw [if_pos rfl]),
    iota_single_apply, shapeCast_self]
  exact onehot_val _ _

/-! ## The count scatter (operand [64], indices [100000, 1], updates [100000]) read at an index -/

/-- The reference's scatter of ones into the 64 counts. -/
abbrev dC : ScatterDims Cert.ReferenceIdeal.S64 Cert.ReferenceIdeal.S100000x1 Cert.ReferenceIdeal.S100000 :=
  Cert.ReferenceIdeal.scatter_S64_S100000x1_S100000_n_0_0_1

/-- Update e's window starts at its id, read signed. -/
theorem cnt_start (idx : IVec Cert.ReferenceIdeal.S100000x1 32) (e : Fin 100000) :
    dC.start (ix1 e) idx (0 : Fin 1) = (idx (ix2 e (0 : Fin 1))).toInt := by
  unfold ScatterDims.start
  rw [dif_pos (show (0 : Fin 1) ∈ dC.scatterDimsToOperandDims from List.mem_singleton.mpr rfl)]
  have hsi : dC.siIdx (ix1 e) ⟨List.idxOf (0 : Fin 1) dC.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is 0. -/
theorem cnt_window (e : Fin 100000) : dC.window (ix1 e) (0 : Fin 1) = 0 := by
  unfold ScatterDims.window
  rw [dif_neg (show (0 : Fin 1) ∉ dC.sKept from by decide)]

/-- Update e lands on count n exactly when its id, read signed, is n. -/
theorem cnt_resultIdx?_eq_some (idx : IVec Cert.ReferenceIdeal.S100000x1 32) (e : Fin 100000) (n : Fin 64) :
    dC.resultIdx? (ix1 e) idx = some (ix1 n) ↔ (idx (ix2 e (0 : Fin 1))).toInt = (n.val : ℤ) := by
  have hs0 := cnt_start idx e
  have hw0 := cnt_window e
  constructor
  · intro h
    unfold ScatterDims.resultIdx? at h
    split at h
    · rename_i hall
      have h' := Option.some.inj h
      have e0 : (dC.start (ix1 e) idx (0 : Fin 1) + (dC.window (ix1 e) (0 : Fin 1) : ℤ)).toNat = n.val :=
        congrArg (fun f => (f (0 : Fin 1)).val) h'
      have b0 := (hall (0 : Fin 1)).1
      rw [hs0, hw0] at e0 b0
      omega
    · exact absurd h (by simp)
  · intro hn
    unfold ScatterDims.resultIdx?
    have hall : ∀ a, 0 ≤ dC.start (ix1 e) idx a + (dC.window (ix1 e) a : ℤ)
        ∧ dC.start (ix1 e) idx a + (dC.window (ix1 e) a : ℤ) < ((Cert.ReferenceIdeal.S64.size a : ℕ) : ℤ) := by
      intro a
      match a with
      | ⟨0, _⟩ =>
        show 0 ≤ dC.start (ix1 e) idx (0 : Fin 1) + (dC.window (ix1 e) (0 : Fin 1) : ℤ)
          ∧ dC.start (ix1 e) idx (0 : Fin 1) + (dC.window (ix1 e) (0 : Fin 1) : ℤ) < ((64 : ℕ) : ℤ)
        rw [hs0, hw0, hn]; have := n.isLt; omega
    rw [dif_pos hall]
    congr 1
    funext a
    refine Fin.ext ?_
    match a with
    | ⟨0, _⟩ =>
      show (dC.start (ix1 e) idx (0 : Fin 1) + (dC.window (ix1 e) (0 : Fin 1) : ℤ)).toNat = n.val
      rw [hs0, hw0, hn]; omega

/-- The count scatter at n: the operand's entry plus the sum of the updates whose id, read signed, is n. -/
theorem cnt_scatter_apply (x : Cert.ReferenceIdeal.S64.Idx → EReal) (idx : IVec Cert.ReferenceIdeal.S100000x1 32)
    (upd : Cert.ReferenceIdeal.S100000.Idx → EReal) (n : Fin 64) :
    Ideal.hostScatterAdd dC x idx upd (ix1 n)
      = x (ix1 n) + ∑ e ∈ Finset.univ.filter (fun e : Fin 100000 => (idx (ix2 e (0 : Fin 1))).toInt = (n.val : ℤ)),
          upd (ix1 e) := by
  unfold Ideal.hostScatterAdd
  refine congrArg (fun z => x (ix1 n) + z) ?_
  refine Finset.sum_nbij' (fun u : Cert.ReferenceIdeal.S100000.Idx => (u 0 : Fin 100000)) (fun e : Fin 100000 => ix1 e) ?_ ?_ ?_ ?_ ?_
  · intro u hu
    obtain ⟨e, rfl⟩ : ∃ e : Fin 100000, u = ix1 e := ⟨u 0, eq_ix1 u⟩
    exact Finset.mem_filter.mpr ⟨Finset.mem_univ _, (cnt_resultIdx?_eq_some idx e n).mp (Finset.mem_filter.mp hu).2⟩
  · intro e he
    exact Finset.mem_filter.mpr ⟨Finset.mem_univ _, (cnt_resultIdx?_eq_some idx e n).mpr (Finset.mem_filter.mp he).2⟩
  · intro u hu
    exact (eq_ix1 u).symm
  · intro e _
    rfl
  · intro u hu
    exact congrArg upd (eq_ix1 u)

/-! ## One block's contribution -/

/-- The block product of the sums. -/
abbrev D4 : DotDims S64x2000 S2000x64 S64x64 := dot_S64x2000_S2000x64_S64x64_1_0_0_1_n_n
/-- The block product of the counts. -/
abbrev D5 : DotDims S64x2000 S2000x1 S64x1 := dot_S64x2000_S2000x1_S64x1_1_0_0_1_n_n

/-- One as a bf16 pattern. -/
theorem one_bf16 : Ideal.ofBits .bf16 0x3F80#16 = 1 := IdealRules.sign_bit.ideal_onePat .bf16
/-- One as an f32 pattern. -/
theorem one_f32 : Ideal.ofBits .f32 0x3F800000#32 = 1 := IdealRules.sign_bit.ideal_onePat .f32

/-- The left operand's row is the result's row. -/
theorem lhs4_0 (i : S64x64.Idx) (q : D4.contr.Idx) : (D4.lhsIdx i q 0).val = (i 0).val := by
  unfold DotDims.lhsIdx
  rw [dif_neg (show ¬(0 : Fin S64x2000.rank) ∈ D4.lhsBatch by decide), dif_pos (show (0 : Fin S64x2000.rank) ∈ D4.lhsNonContracting by decide)]
  rfl
/-- The right operand's column is the result's column. -/
theorem rhs4_1 (i : S64x64.Idx) (q : D4.contr.Idx) : (D4.rhsIdx i q 1).val = (i 1).val := by
  unfold DotDims.rhsIdx
  rw [dif_neg (show ¬(1 : Fin S2000x64.rank) ∈ D4.rhsBatch by decide), dif_pos (show (1 : Fin S2000x64.rank) ∈ D4.rhsNonContracting by decide)]
  rfl
/-- The same of the counts' product. -/
theorem lhs5_0 (i : S64x1.Idx) (q : D5.contr.Idx) : (D5.lhsIdx i q 0).val = (i 0).val := by
  unfold DotDims.lhsIdx
  rw [dif_neg (show ¬(0 : Fin S64x2000.rank) ∈ D5.lhsBatch by decide), dif_pos (show (0 : Fin S64x2000.rank) ∈ D5.lhsNonContracting by decide)]
  rfl

/-- A point's new sums at (g, d): the old entry plus the block's rows with id g, column d. -/
theorem pay4_apply (v4 : Vec Ideal S2000x1 .i32) (v12 : Vec Ideal S2000x64 .f32) (v16 : Vec Ideal S64x64 .f32) (g d : Fin 64) :
    k4_pay4 (F := Ideal) v4 v12 v16 (ix2 g d)
      = v16 (ix2 g d) + ∑ r : Fin 2000, (if v4 (ix2 r (0 : Fin 1)) = BitVec.ofNat 32 g.val then v12 (ix2 r d) else 0) := by
  unfold k4_pay4
  simp only [matmul]
  rw [shapeCast_self, addf_apply, Ideal.matmul_constant_zero_apply,
    ← Equiv.sum_comp (ValueIdx.contrEquiv1 D4 2000 rfl rfl).symm]
  refine congrArg (fun z => v16 (ix2 g d) + z) (Finset.sum_congr rfl fun k _ => ?_)
  have hk := ValueIdx.contrEquiv1_symm_val D4 2000 rfl rfl k
  have el : D4.lhsIdx (ix2 g d) ((ValueIdx.contrEquiv1 D4 2000 rfl rfl).symm k) = ix2 g k := funext fun a => Fin.ext (by
    match a with
    | ⟨0, _⟩ => exact lhs4_0 _ _
    | ⟨1, _⟩ => exact (D4.lhsIdx_val_of_single rfl _ _).trans hk)
  have er : D4.rhsIdx (ix2 g d) ((ValueIdx.contrEquiv1 D4 2000 rfl rfl).symm k) = ix2 k d := funext fun a => Fin.ext (by
    match a with
    | ⟨0, _⟩ => exact (D4.rhsIdx_val_of_single rfl _ _).trans hk
    | ⟨1, _⟩ => exact rhs4_1 _ _)
  rw [el, er, pay3_apply, truncf_apply, shapeCast_self, ite_mul, one_mul, zero_mul]

/-- A point's new counts at g: the old entry plus one for each of the block's rows with id g. -/
theorem pay5_apply (v4 : Vec Ideal S2000x1 .i32) (v22 : Vec Ideal S64x1 .f32) (g : Fin 64) :
    k4_pay5 (F := Ideal) v4 v22 (ix2 g (0 : Fin 1))
      = v22 (ix2 g (0 : Fin 1)) + ∑ r : Fin 2000, (if v4 (ix2 r (0 : Fin 1)) = BitVec.ofNat 32 g.val then (1 : EReal) else 0) := by
  unfold k4_pay5
  simp only [matmul]
  rw [shapeCast_self, addf_apply, Ideal.matmul_constant_zero_apply,
    ← Equiv.sum_comp (ValueIdx.contrEquiv1 D5 2000 rfl rfl).symm]
  refine congrArg (fun z => v22 (ix2 g (0 : Fin 1)) + z) (Finset.sum_congr rfl fun k _ => ?_)
  have hk := ValueIdx.contrEquiv1_symm_val D5 2000 rfl rfl k
  have el : D5.lhsIdx (ix2 g (0 : Fin 1)) ((ValueIdx.contrEquiv1 D5 2000 rfl rfl).symm k) = ix2 g k := funext fun a => Fin.ext (by
    match a with
    | ⟨0, _⟩ => exact lhs5_0 _ _
    | ⟨1, _⟩ => exact (D5.lhsIdx_val_of_single rfl _ _).trans hk)
  rw [el, pay3_apply, broadcast_apply]
  show (if v4 (ix2 k (0 : Fin 1)) = BitVec.ofNat 32 g.val then (1 : EReal) else 0) * Ideal.ofBits .bf16 0x3F80#16 = _
  rw [one_bf16, mul_one]

/-! ## Sums over the rows below a bound, a block at a time -/

/-- The rows below lo, then the W rows from lo on, are the rows below lo + W. -/
theorem prefix_step {M : Type} [AddCommMonoid M] {N : ℕ} (T : Fin N → M) (lo W : ℕ) (h : lo + W ≤ N) :
    (∑ r : Fin N, if r.val < lo then T r else 0) + ∑ p : Fin W, T ⟨lo + p.val, by have := p.isLt; omega⟩
      = ∑ r : Fin N, if r.val < lo + W then T r else 0 := by
  have e : ∑ p : Fin W, T ⟨lo + p.val, by have := p.isLt; omega⟩
      = ∑ r : Fin N, (if lo ≤ r.val ∧ r.val < lo + W then T r else 0) := by
    rw [FinSumWindow.sum_window lo h (fun r => if lo ≤ r.val ∧ r.val < lo + W then T r else 0) (fun P hP => if_neg hP)]
    exact Finset.sum_congr rfl fun p _ => (if_pos ⟨by show lo ≤ lo + p.val; omega, by show lo + p.val < lo + W; have := p.isLt; omega⟩).symm
  rw [e, ← Finset.sum_add_distrib]
  refine Finset.sum_congr rfl fun r _ => ?_
  by_cases h1 : r.val < lo
  · rw [if_pos h1, if_neg (by omega), if_pos (by omega), add_zero]
  · by_cases h2 : r.val < lo + W
    · rw [if_neg h1, if_pos ⟨by omega, h2⟩, if_pos h2, zero_add]
    · rw [if_neg h1, if_neg (by omega), if_neg h2, add_zero]

/-! ## The blocks, read off the arrays -/

variable (V : (c : Dev nD) → (b : Ref sig .tc) → Buf (Elt Ideal) ((c : Thread nD τ).loc b))

/-- The node features the launch finds. -/
abbrev HH (c : Dev nD) : S100000x64.Idx → EReal := V c main_v61
/-- The graph ids the launch finds. -/
abbrev BB (c : Dev nD) : S100000x1.Idx → BitVec 32 := V c main_v62

/-- Point t's feature block starts at row t of the blocks, column 0. -/
theorem idx4_0 (t : Fin cfg4.N) : win4_0.index t 0 = t.val ∧ win4_0.index t 1 = 0 := by
  have ht : t.val < 50 := t.isLt
  constructor
  · show (BitVec.ofNat 32 (t.val / grid4.stride 0 % 50)).toNat = t.val
    rw [show grid4.stride 0 = 1 from by decide, BitVec.toNat_ofNat]
    omega
  · rfl
/-- Point t's id block likewise. -/
theorem idx4_1 (t : Fin cfg4.N) : win4_1.index t 0 = t.val ∧ win4_1.index t 1 = 0 := by
  have ht : t.val < 50 := t.isLt
  constructor
  · show (BitVec.ofNat 32 (t.val / grid4.stride 0 % 50)).toNat = t.val
    rw [show grid4.stride 0 = 1 from by decide, BitVec.toNat_ofNat]
    omega
  · rfl

/-- Row p of point n's feature block is row 2000·n + p of the array. -/
theorem hblk4_apply (c : Dev nD) (n : ℕ) (hn : n < 50) (p : Fin 2000) (d : Fin 64) :
    hblk4 V c n (ix2 p d) = HH V c (ix2 ⟨2000 * n + p.val, by have := p.isLt; omega⟩ d) := by
  unfold hblk4
  rw [dif_pos (show n < cfg4.N from hn)]
  unfold iblk4
  rw [View.read_apply]
  show HH V c _ = HH V c _
  refine congrArg (HH V c) (funext fun a => Fin.ext ?_)
  match a with
  | ⟨0, _⟩ =>
    show win4_0.index ⟨n, hn⟩ 0 * 2000 + 1 * p.val = 2000 * n + p.val
    have h0 : win4_0.index ⟨n, hn⟩ 0 = n := (idx4_0 ⟨n, hn⟩).1
    rw [h0]; omega
  | ⟨1, _⟩ =>
    show win4_0.index ⟨n, hn⟩ 1 * 64 + 1 * d.val = d.val
    rw [(idx4_0 ⟨n, hn⟩).2]; omega

/-- Row p of point n's id block is row 2000·n + p of the id array. -/
theorem bblk4_apply (c : Dev nD) (n : ℕ) (hn : n < 50) (p : Fin 2000) :
    bblk4 V c n (ix2 p (0 : Fin 1)) = BB V c (ix2 ⟨2000 * n + p.val, by have := p.isLt; omega⟩ (0 : Fin 1)) := by
  unfold bblk4
  rw [dif_pos (show n < cfg4.N from hn)]
  unfold iblk4
  rw [View.read_apply]
  show BB V c _ = BB V c _
  refine congrArg (BB V c) (funext fun a => Fin.ext ?_)
  match a with
  | ⟨0, _⟩ =>
    show win4_1.index ⟨n, hn⟩ 0 * 2000 + 1 * p.val = 2000 * n + p.val
    have h0 : win4_1.index ⟨n, hn⟩ 0 = n := (idx4_1 ⟨n, hn⟩).1
    rw [h0]; omega
  | ⟨1, _⟩ =>
    show win4_1.index ⟨n, hn⟩ 1 * 1 + 1 * 0 = 0
    rw [(idx4_1 ⟨n, hn⟩).2]

/-! ## The accumulators after each point -/

/-- Row r's share of graph g's sum in column d: its feature there if its id is the word g. -/
def rowTerm (c : Dev nD) (g d : Fin 64) (r : Fin 100000) : EReal :=
  if BB V c (ix2 r (0 : Fin 1)) = BitVec.ofNat 32 g.val then HH V c (ix2 r d) else 0
/-- Row r's share of graph g's count. -/
def rowOne (c : Dev nD) (g : Fin 64) (r : Fin 100000) : EReal :=
  if BB V c (ix2 r (0 : Fin 1)) = BitVec.ofNat 32 g.val then 1 else 0

/-- The cleared sums. -/
theorem pay1_apply (i : S64x64.Idx) : k4_pay1 (F := Ideal) i = 0 := by
  unfold k4_pay1
  rw [shapeCast_self, broadcast_apply]
  exact Ideal.ofBits_zero_f32
/-- The cleared counts. -/
theorem pay2_apply (i : S64x1.Idx) : k4_pay2 (F := Ideal) i = 0 := by
  unfold k4_pay2
  rw [shapeCast_self, broadcast_apply]
  exact Ideal.ofBits_zero_f32

/-- An accumulator holding the rows below 2000·m, plus block m's rows, holds the rows below 2000·(m+1). -/
theorem step_sum (T : Fin 100000 → EReal) (m : ℕ) (hm : m < 50) (acc : EReal)
    (hacc : acc = ∑ r : Fin 100000, if r.val < 2000 * m then T r else 0) :
    acc + ∑ p : Fin 2000, T ⟨2000 * m + p.val, by have := p.isLt; omega⟩
      = ∑ r : Fin 100000, if r.val < 2000 * (m + 1) then T r else 0 := by
  rw [hacc, prefix_step T (2000 * m) 2000 (by omega), show 2000 * (m + 1) = 2000 * m + 2000 from by omega]

/-- After point n the sums hold the rows below 2000·(n+1). -/
theorem sumsAt4_apply (c : Dev nD) (g d : Fin 64) (n : ℕ) (hn : n < 50) :
    sumsAt4 V c n (ix2 g d) = ∑ r : Fin 100000, if r.val < 2000 * (n + 1) then rowTerm V c g d r else 0 := by
  have blk : ∀ m (hm : m < 50),
      (∑ p : Fin 2000, (if bblk4 V c m (ix2 p (0 : Fin 1)) = BitVec.ofNat 32 g.val then hblk4 V c m (ix2 p d) else 0))
        = ∑ p : Fin 2000, rowTerm V c g d ⟨2000 * m + p.val, by have := p.isLt; omega⟩ := fun m hm =>
    Finset.sum_congr rfl fun p _ => by rw [bblk4_apply V c m hm, hblk4_apply V c m hm]; rfl
  induction n with
  | zero =>
    show k4_pay4 (F := Ideal) (bblk4 V c 0) (hblk4 V c 0) (k4_pay1 (F := Ideal)) (ix2 g d) = _
    rw [pay4_apply, pay1_apply, blk 0 hn]
    exact step_sum (rowTerm V c g d) 0 hn 0 (Finset.sum_eq_zero fun r _ => if_neg (by omega)).symm
  | succ n ih =>
    show k4_pay4 (F := Ideal) (bblk4 V c (n + 1)) (hblk4 V c (n + 1)) (sumsAt4 V c n) (ix2 g d) = _
    rw [pay4_apply, blk (n + 1) hn]
    exact step_sum (rowTerm V c g d) (n + 1) hn _ (ih (by omega) blk)

/-- After point n the counts hold the rows below 2000·(n+1). -/
theorem cntsAt4_apply (c : Dev nD) (g : Fin 64) (n : ℕ) (hn : n < 50) :
    cntsAt4 V c n (ix2 g (0 : Fin 1)) = ∑ r : Fin 100000, if r.val < 2000 * (n + 1) then rowOne V c g r else 0 := by
  have blk : ∀ m (hm : m < 50),
      (∑ p : Fin 2000, (if bblk4 V c m (ix2 p (0 : Fin 1)) = BitVec.ofNat 32 g.val then (1 : EReal) else 0))
        = ∑ p : Fin 2000, rowOne V c g ⟨2000 * m + p.val, by have := p.isLt; omega⟩ := fun m hm =>
    Finset.sum_congr rfl fun p _ => by rw [bblk4_apply V c m hm]; rfl
  induction n with
  | zero =>
    show k4_pay5 (F := Ideal) (bblk4 V c 0) (k4_pay2 (F := Ideal)) (ix2 g (0 : Fin 1)) = _
    rw [pay5_apply, pay2_apply, blk 0 hn]
    exact step_sum (rowOne V c g) 0 hn 0 (Finset.sum_eq_zero fun r _ => if_neg (by omega)).symm
  | succ n ih =>
    show k4_pay5 (F := Ideal) (bblk4 V c (n + 1)) (cntsAt4 V c n) (ix2 g (0 : Fin 1)) = _
    rw [pay5_apply, blk (n + 1) hn]
    exact step_sum (rowOne V c g) (n + 1) hn _ (ih (by omega) blk)

/-- What the last point stores at (g, d): graph g's sum in column d over its count, a count below one read as one. -/
theorem res4_apply (c : Dev nD) (g d : Fin 64) :
    res4 (F := Ideal) V c (ix2 g d)
      = Ideal.div (∑ r : Fin 100000, rowTerm V c g d r) (max (∑ r : Fin 100000, rowOne V c g r) 1) := by
  have hs : sumsAt4 V c 49 (ix2 g d) = ∑ r : Fin 100000, rowTerm V c g d r := by
    rw [sumsAt4_apply V c g d 49 (by norm_num)]
    exact Finset.sum_congr rfl fun r _ => if_pos (by have := r.isLt; omega)
  have hc : cntsAt4 V c 49 (ix2 g (0 : Fin 1)) = ∑ r : Fin 100000, rowOne V c g r := by
    rw [cntsAt4_apply V c g 49 (by norm_num)]
    exact Finset.sum_congr rfl fun r _ => if_pos (by have := r.isLt; omega)
  unfold res4 k4_pay6
  rw [divf_apply, broadcastTo_apply _ broadcasts_S64x1_S64x64 (ix2 g d) (ix2 g (0 : Fin 1)) (fun a => match a with
      | ⟨0, _⟩ => by show g.val = if (64 : Nat) = 1 then 0 else g.val; rw [if_neg (by decide)]
      | ⟨1, _⟩ => by show 0 = if (1 : Nat) = 1 then 0 else _; rw [if_pos rfl]),
    maximumf_apply, broadcast_apply, hs, hc]
  show Ideal.div _ (max _ (Ideal.ofBits .f32 0x3F800000#32)) = _
  rw [one_f32]

/-! ## The reference's stage at an index, and the join -/

/-- An id, read signed, is g exactly when it is the word g (g below 64). -/
theorem toInt_eq_iff (b : BitVec 32) (g : Fin 64) : b.toInt = (g.val : ℤ) ↔ b = BitVec.ofNat 32 g.val := by
  have hg : (BitVec.ofNat 32 g.val).toInt = (g.val : ℤ) := by
    have hlt := g.isLt
    have h1 : g.val % 2 ^ 32 = g.val := Nat.mod_eq_of_lt (by omega)
    rw [BitVec.toInt_eq_toNat_cond, BitVec.toNat_ofNat, h1, if_pos (by omega)]
  constructor
  · intro h; exact BitVec.eq_of_toInt_eq (h.trans hg.symm)
  · rintro rfl; exact hg

/-- The reference's scattered sums at (g, d). -/
theorem refSums_apply (c : Dev nD) (g d : Fin 64) :
    Host.scatterAdd (F := Ideal) (φ := .f32) Cert.ReferenceIdeal.scatter_S64x64_S100000x1_S100000x64_1_0_0_1
        (Cert.ReferenceIdeal.ReadP.val_main_v66 (F := Ideal)) (BB V c) (HH V c) (ix2 g d)
      = ∑ r : Fin 100000, rowTerm V c g d r := by
  have h := Cert.LibRows.host_scatterAdd_rows_apply (φ := .f32)
    Cert.ReferenceIdeal.Facts₀.scatter_S64x64_S100000x1_S100000x64_1_0_0_1_wf
    (Cert.ReferenceIdeal.ReadP.val_main_v66 (F := Ideal)) (BB V c) (HH V c) g d
  refine h.trans ?_
  rw [Cert.ReferenceIdeal.ReadP.val_main_v66_apply, Cert.ReferenceIdeal.ReadP.val_main_cst_12_apply]
  show Ideal.ofBits .f32 0x00000000#32 + _ = _
  rw [Ideal.ofBits_zero_f32, zero_add, Finset.sum_filter]
  exact Finset.sum_congr rfl fun r _ => by
    unfold rowTerm
    by_cases h : BB V c (ix2 r (0 : Fin 1)) = BitVec.ofNat 32 g.val
    · rw [if_pos ((toInt_eq_iff _ g).mpr h), if_pos h]
    · rw [if_neg (fun h' => h ((toInt_eq_iff _ g).mp h')), if_neg h]

/-- The reference's scattered counts at g. -/
theorem refCnts_apply (c : Dev nD) (g : Fin 64) :
    Host.scatterAdd (F := Ideal) (φ := .f32) Cert.ReferenceIdeal.scatter_S64_S100000x1_S100000_n_0_0_1
        (Cert.ReferenceIdeal.ReadP.val_main_v70 (F := Ideal)) (BB V c)
        (Cert.ReferenceIdeal.ReadP.val_main_v69 (F := Ideal)) (ix1 g)
      = ∑ r : Fin 100000, rowOne V c g r := by
  unfold Host.scatterAdd
  rw [Ideal.hostScatterAdd_def]
  refine (cnt_scatter_apply _ (BB V c) _ g).trans ?_
  rw [Cert.ReferenceIdeal.ReadP.val_main_v70_apply, Cert.ReferenceIdeal.ReadP.val_main_cst_14_apply]
  show Ideal.ofBits .f32 0x00000000#32 + _ = _
  rw [Ideal.ofBits_zero_f32, zero_add, Finset.sum_filter]
  exact Finset.sum_congr rfl fun r _ => by
    unfold rowOne
    rw [Cert.ReferenceIdeal.ReadP.val_main_v69_apply, Cert.ReferenceIdeal.ReadP.val_main_cst_13_apply]
    show (if _ then Ideal.ofBits .f32 0x3F800000#32 else 0) = _
    rw [one_f32]
    by_cases h : BB V c (ix2 r (0 : Fin 1)) = BitVec.ofNat 32 g.val
    · rw [if_pos ((toInt_eq_iff _ g).mpr h), if_pos h]
    · rw [if_neg (fun h' => h ((toInt_eq_iff _ g).mp h')), if_neg h]

/-- The host's division at an index. -/
theorem host_divf_apply {s : Shape} {φ : FTy} (x y : FVec Ideal s φ) (i : s.Idx) :
    Host.divf x y i = Ideal.div (x i) (y i) := rfl

/-- THE POOLING LAUNCH'S VALUE: what the last point stores is the reference's mean pool of the arrays the launch
    finds — per graph and column the scattered sum over the scattered count, a count below one read as one. -/
theorem res4_eq (c : Dev nD) : (res4 (F := Ideal) V c : S64x64.Idx → EReal) = Host.divf (F := Ideal) (φ := .f32) (Host.scatterAdd Cert.ReferenceIdeal.scatter_S64x64_S100000x1_S100000x64_1_0_0_1 (Cert.ReferenceIdeal.ReadP.val_main_v66 (F := Ideal)) (V c main_v62) (V c main_v61)) (broadcastInDim Cert.ReferenceIdeal.S64x64 ![0, 1] Cert.ReferenceIdeal.Facts₀.bcast_S64x1_S64x64_0_1 (broadcastInDim Cert.ReferenceIdeal.S64x1 ![0] Cert.ReferenceIdeal.Facts₀.bcast_S64_S64x1_0 (maximumf (Host.scatterAdd Cert.ReferenceIdeal.scatter_S64_S100000x1_S100000_n_0_0_1 (Cert.ReferenceIdeal.ReadP.val_main_v70 (F := Ideal)) (V c main_v62) (Cert.ReferenceIdeal.ReadP.val_main_v69 (F := Ideal))) (Cert.ReferenceIdeal.ReadP.val_main_v73 (F := Ideal))))) := by
  funext i
  obtain ⟨g, d, rfl⟩ : ∃ (g d : Fin 64), i = ix2 g d := ⟨i 0, i 1, eq_ix2 i⟩
  rw [res4_apply, host_divf_apply, refSums_apply V c g d,
    broadcastInDim_apply _ Cert.ReferenceIdeal.Facts₀.bcast_S64x1_S64x64_0_1 _ (ix2 g d) (ix2 g (0 : Fin 1)) (fun a => match a with
      | ⟨0, _⟩ => by show g.val = if (64 : Nat) = 1 then 0 else g.val; rw [if_neg (by decide)]
      | ⟨1, _⟩ => by show 0 = if (1 : Nat) = 1 then 0 else d.val; rw [if_pos rfl]),
    broadcastInDim_apply _ Cert.ReferenceIdeal.Facts₀.bcast_S64_S64x1_0 _ (ix2 g (0 : Fin 1)) (ix1 g) (fun a => match a with
      | ⟨0, _⟩ => by show g.val = if (64 : Nat) = 1 then 0 else g.val; rw [if_neg (by decide)]),
    maximumf_apply, refCnts_apply V c g, Cert.ReferenceIdeal.ReadP.val_main_v73_apply,
    Cert.ReferenceIdeal.ReadP.val_main_cst_15_apply, Ideal.ofBits_def, one_f32]

end Cert.KernelIdeal.ValPool

end
-- ==== Proof.ValPoolArr.lean ====
/-
  The pooling launch's result array. The launch's output window is the whole 64×64 result, one block whose index is
  (0, 0) at every grid point, and it is written back exactly once, after the last of the fifty points. So the array the
  launch leaves is that one write-back: the per-graph sums over the per-graph counts, a count below one read as one.
-/
import proofs.«418392_j82944408420780_1_alg».proof.Proof.KI.R4
import Idealize.ShloMosaic.Lib.Pipeline.Value

set_option maxRecDepth 16384

noncomputable section

namespace Cert.KernelIdeal.Val

open Idealize.ShloMosaic Idealize.ShloMosaic.TcCoe Idealize.SL.Sem
open Idealize.ShloMosaic.Pipeline (Dat Cfg Window)

open Cert.KernelIdeal Cert.KernelIdeal.Gen Cert.KernelIdeal.Frm

variable {F : FTy → Type} [FloatOps F]

variable (V : (c : Dev nD) → (b : Ref sig .tc) → Buf (Elt F) ((c : Thread nD τ).loc b))

/-- The result window's block index is (0, 0) at every one of the fifty points. -/
theorem idx_facts4 : ∀ t : Fin cfg4.N, win4_2.index t (0 : Fin 2) = 0 ∧ win4_2.index t (1 : Fin 2) = 0 :=
  (by decide +kernel : ∀ t : Fin grid4.N, _)

set_option maxHeartbeats 400000 in
/-- What a point would write back is the stored 64×64 value read through the window's one block, which sits at
    offset (0, 0) and spans the array: entry (g, k) of the block is entry (g, k) of the array. -/
theorem flushed4_eq (c : Dev nD) (t : Fin cfg4.N) :
    (dat4 V c).flushed 2 t = ((cfg4.win 2).blk t).view.read (Elt F) (res4 V c) := by
  show (cfg4.win 2).cut (grid4.coords t) ((dat4 V c).after 2 t) = _
  rw [after4_2]
  obtain ⟨e0, e1⟩ := idx_facts4 t
  funext j
  rw [View.read_apply]
  show res4 V c ((win4 2).xinj (grid4.coords t) j) = res4 V c (((cfg4.win 2).blk t).view.emb j)
  refine congrArg (res4 V c) ?_
  funext a; apply Fin.ext
  match a with
  | ⟨0, _⟩ => show (j 0).val = win4_2.index t (0 : Fin 2) * 64 + 1 * (j 0).val; omega
  | ⟨1, _⟩ => show (j 1).val = win4_2.index t (1 : Fin 2) * 64 + 1 * (j 1).val; omega

/-- An index of the result is in point `t`'s block iff each coordinate is in the block's range on its axis. -/
theorem mem_blk4 (t : Fin cfg4.N) (i : S64x64.Idx) :
    i ∈ ((cfg4.win 2).blk t).view.set ↔ ∀ a : Fin 2, win4_2.index t a * S64x64.size a ≤ (i a).val ∧ (i a).val < win4_2.index t a * S64x64.size a + S64x64.size a := by
  show i ∈ ((View.whole main_v63).slice (win4_2.rect t)).set ↔ _
  rw [View.set_slice_whole, Rect.mem_set_unit]
  exact Iff.rfl

/-- The last point's block covers the whole array, and the last point writes back. -/
theorem cover4 (i : S64x64.Idx) : ∃ t : Fin cfg4.N, (cfg4.win 2).flush t = true ∧ i ∈ ((cfg4.win 2).blk t).view.set := by
  have hi0 : (i 0).val < 64 := (i 0).isLt
  have hi1 : (i 1).val < 64 := (i 1).isLt
  have hN : 49 < cfg4.N := by show _ < grid4.N; rw [N_4]; omega
  obtain ⟨e0, e1⟩ := idx_facts4 ⟨49, hN⟩
  refine ⟨⟨49, hN⟩, (flush4_2 ⟨49, hN⟩).mpr rfl, ?_⟩
  rw [mem_blk4]
  intro a
  match a with
  | ⟨0, _⟩ =>
    show win4_2.index ⟨49, hN⟩ (0 : Fin 2) * 64 ≤ (i 0).val ∧ (i 0).val < win4_2.index ⟨49, hN⟩ (0 : Fin 2) * 64 + 64
    omega
  | ⟨1, _⟩ =>
    show win4_2.index ⟨49, hN⟩ (1 : Fin 2) * 64 ≤ (i 1).val ∧ (i 1).val < win4_2.index ⟨49, hN⟩ (1 : Fin 2) * 64 + 64
    omega

/-- THE POOLING LAUNCH'S RESULT: the array ends holding the one stored value. -/
theorem arr4_eq (c : Dev nD) : ((dat4 V c).arrAt 2 cfg4.N : S64x64.Idx → Elt F .f32) = res4 V c :=
  (dat4 V c).arrAt_eq_of_cover 2 (res4 V c) (fun t _ => flushed4_eq V c t) cover4

end Cert.KernelIdeal.Val

end
-- ==== Proof.Bridge2.lean ====
/-
  At the ideal instance the kernel program's result is the reference's. Launch by launch: the first launch's result
  is the reference's first product; the first aggregation of it is the reference's; the second launch's result is
  max(· + bias, 0) of that; the third launch's result is the second product of that; the second aggregation and
  the fourth launch likewise; and the last launch's result is the mean over each graph's rows of that — the same
  composition the reference's last stage unfolds to.
-/
import proofs.«418392_j82944408420780_1_alg».proof.Proof.Bridge0
import proofs.«418392_j82944408420780_1_alg».proof.Proof.Bridge1
import proofs.«418392_j82944408420780_1_alg».proof.Proof.ValLin
import proofs.«418392_j82944408420780_1_alg».proof.Proof.ValAct
import proofs.«418392_j82944408420780_1_alg».proof.Proof.ValPool
import proofs.«418392_j82944408420780_1_alg».proof.Proof.ValPoolArr

noncomputable section

namespace Cert.Proof.Bridge

open Idealize.ShloMosaic Idealize.ShloMosaic.TcCoe Idealize.SL.Sem Idealize.ShloMosaic.StableHlo
open Cert.KernelIdeal Cert.KernelIdeal.Gen Cert.KernelIdeal.Frm Cert.KernelIdeal.Val Cert.KernelIdeal.ValPool

variable (m : (ℓ : Loc nD τ sig) → Buf (Elt Ideal) ℓ) (ρ : Dev nD → PrngReg) (c : Dev nD)

/-- The first launch's result is the reference's first product. -/
theorem v30_eq : W4 m ρ c (Proc.devRef .tc main_v30) = Cert.ReferenceIdeal.ReadP.val_main_v30 (F := Ideal) (m ((c : Thread nD τ).loc main_arg0)) (m ((c : Thread nD τ).loc main_arg3)) := by
  refine (W4_out m ρ c).trans ((arr0_eq (V3 m ρ) c).trans ?_)
  rw [show V3 m ρ c main_arg0 = (m ((c : Thread nD τ).loc main_arg0)) from W3_arg0 m ρ c, show V3 m ρ c main_arg3 = (m ((c : Thread nD τ).loc main_arg3)) from W3_arg3 m ρ c]
  rfl

/-- The first aggregation is the reference's, of the reference's first product. -/
theorem v43_eq : W5 m ρ c (Proc.devRef .tc main_v43) = Cert.ReferenceIdeal.RefSide.layer128 (F := Ideal) (m ((c : Thread nD τ).loc main_arg1)) (Cert.ReferenceIdeal.ReadP.val_main_v30 (F := Ideal) (m ((c : Thread nD τ).loc main_arg0)) (m ((c : Thread nD τ).loc main_arg3))) := by
  refine (W5_v43 m ρ c).trans ?_
  rw [v30_eq]
  exact layer128_eq (F := Ideal) (m ((c : Thread nD τ).loc main_arg1)) _

/-- The first bias as one row is the reference's. -/
theorem v44_eq : W5 m ρ c (Proc.devRef .tc main_v44) = Cert.ReferenceIdeal.ReadP.val_main_v44 (F := Ideal) (m ((c : Thread nD τ).loc main_arg4)) :=
  (W5_v44 m ρ c).trans (reshape_b128 (F := Ideal) (m ((c : Thread nD τ).loc main_arg4)))

/-- The second launch's result: max(· + bias, 0) of the first aggregation. -/
theorem v45_eq : W6 m ρ c (Proc.devRef .tc main_v45) = Cert.ReferenceIdeal.RefSide.act128 (F := Ideal) (Cert.ReferenceIdeal.RefSide.layer128 (F := Ideal) (m ((c : Thread nD τ).loc main_arg1)) (Cert.ReferenceIdeal.ReadP.val_main_v30 (F := Ideal) (m ((c : Thread nD τ).loc main_arg0)) (m ((c : Thread nD τ).loc main_arg3)))) (Cert.ReferenceIdeal.ReadP.val_main_v44 (F := Ideal) (m ((c : Thread nD τ).loc main_arg4))) := by
  refine (W6_out m ρ c).trans ((arr1_eq (F := Ideal) (V5 m ρ) c).trans ?_)
  rw [show V5 m ρ c main_v43 = _ from v43_eq m ρ c, show V5 m ρ c main_v44 = _ from v44_eq m ρ c]
  rfl

/-- The third launch's result: the second product of that. -/
theorem v46_eq : W7 m ρ c (Proc.devRef .tc main_v46) = Cert.ReferenceIdeal.RefSide.lin2 (F := Ideal) (Cert.ReferenceIdeal.RefSide.act128 (F := Ideal) (Cert.ReferenceIdeal.RefSide.layer128 (F := Ideal) (m ((c : Thread nD τ).loc main_arg1)) (Cert.ReferenceIdeal.ReadP.val_main_v30 (F := Ideal) (m ((c : Thread nD τ).loc main_arg0)) (m ((c : Thread nD τ).loc main_arg3)))) (Cert.ReferenceIdeal.ReadP.val_main_v44 (F := Ideal) (m ((c : Thread nD τ).loc main_arg4)))) (m ((c : Thread nD τ).loc main_arg5)) := by
  refine (W7_out m ρ c).trans ((arr2_eq (V6 m ρ) c).trans ?_)
  rw [show V6 m ρ c main_v45 = _ from v45_eq m ρ c, show V6 m ρ c main_arg5 = (m ((c : Thread nD τ).loc main_arg5)) from W6_arg5 m ρ c]
  rfl

/-- The second aggregation is the reference's. -/
theorem v59_eq : W8 m ρ c (Proc.devRef .tc main_v59) = Cert.ReferenceIdeal.RefSide.layer64 (F := Ideal) (m ((c : Thread nD τ).loc main_arg1)) (Cert.ReferenceIdeal.RefSide.lin2 (F := Ideal) (Cert.ReferenceIdeal.RefSide.act128 (F := Ideal) (Cert.ReferenceIdeal.RefSide.layer128 (F := Ideal) (m ((c : Thread nD τ).loc main_arg1)) (Cert.ReferenceIdeal.ReadP.val_main_v30 (F := Ideal) (m ((c : Thread nD τ).loc main_arg0)) (m ((c : Thread nD τ).loc main_arg3)))) (Cert.ReferenceIdeal.ReadP.val_main_v44 (F := Ideal) (m ((c : Thread nD τ).loc main_arg4)))) (m ((c : Thread nD τ).loc main_arg5))) := by
  refine (W8_v59 m ρ c).trans ?_
  rw [v46_eq]
  exact layer64_eq (F := Ideal) (m ((c : Thread nD τ).loc main_arg1)) _

/-- The second bias as one row is the reference's. -/
theorem v60_eq : W8 m ρ c (Proc.devRef .tc main_v60) = Cert.ReferenceIdeal.ReadP.val_main_v62 (F := Ideal) (m ((c : Thread nD τ).loc main_arg6)) :=
  (W8_v60 m ρ c).trans (reshape_b64 (F := Ideal) (m ((c : Thread nD τ).loc main_arg6)))

/-- The fourth launch's result: max(· + bias, 0) of the second aggregation. -/
theorem v61_eq : W9 m ρ c (Proc.devRef .tc main_v61) = Cert.ReferenceIdeal.RefSide.act64 (F := Ideal) (Cert.ReferenceIdeal.RefSide.layer64 (F := Ideal) (m ((c : Thread nD τ).loc main_arg1)) (Cert.ReferenceIdeal.RefSide.lin2 (F := Ideal) (Cert.ReferenceIdeal.RefSide.act128 (F := Ideal) (Cert.ReferenceIdeal.RefSide.layer128 (F := Ideal) (m ((c : Thread nD τ).loc main_arg1)) (Cert.ReferenceIdeal.ReadP.val_main_v30 (F := Ideal) (m ((c : Thread nD τ).loc main_arg0)) (m ((c : Thread nD τ).loc main_arg3)))) (Cert.ReferenceIdeal.ReadP.val_main_v44 (F := Ideal) (m ((c : Thread nD τ).loc main_arg4)))) (m ((c : Thread nD τ).loc main_arg5)))) (Cert.ReferenceIdeal.ReadP.val_main_v62 (F := Ideal) (m ((c : Thread nD τ).loc main_arg6))) := by
  refine (W9_out m ρ c).trans ((arr3_eq (F := Ideal) (V8 m ρ) c).trans ?_)
  rw [show V8 m ρ c main_v59 = _ from v59_eq m ρ c, show V8 m ρ c main_v60 = _ from v60_eq m ρ c]
  rfl

/-- The graph ids as one column are the reference's. -/
theorem v62_eq : W10 m ρ c (Proc.devRef .tc main_v62) = Cert.ReferenceIdeal.ReadP.val_main_v67 (F := Ideal) (m ((c : Thread nD τ).loc main_arg2)) :=
  (W10_v62 m ρ c).trans (reshape_ids (F := Ideal) (m ((c : Thread nD τ).loc main_arg2)))

/-- The kernel program's result is the reference's last stage of the launch contents. -/
theorem kernel_value : W11 m ρ c (Proc.devRef .tc main_v63)
    = Cert.ReferenceIdeal.ReadP.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W11_out m ρ c).trans ((arr4_eq (F := Ideal) (V10 m ρ) c).trans ((res4_eq (V10 m ρ) c).trans ?_))
  rw [show V10 m ρ c main_v61 = _ from (W10_v61 m ρ c).trans (v61_eq m ρ c), show V10 m ρ c main_v62 = _ from v62_eq m ρ c, Cert.ReferenceIdeal.RefSide.v77_eq]
  rfl

end Cert.Proof.Bridge

end
-- ==== Proof.lean ====
/-
  A two-layer graph convolution followed by a mean over each graph's nodes: the kernel program computes the two
  linear maps, the two bias-and-rectify steps and the pooling in five pipelined launches and leaves the edge
  normalisation, the gathers along the edges and the sums at the destination ends to the host, exactly as the
  reference does them. Over the extended reals the five launches compute what the reference's operations
  compute:
    * a linear launch multiplies 5000 rows at a time by the whole weight matrix, and the blocks' products are
      the rows of the one whole product (a product into a zero accumulator is the plain sum over the
      contracted axis, and rounding to a narrower format is the identity);
    * a bias launch stores max(a + b, 0) block by block, the reference the same on the whole array;
    * the pooling launch adds, for each graph g, the rows of each 2000-row block whose id is g (a 0/1 matrix times
      the block: 0·x = 0 and 1·x = x for every extended real) into an accumulator carried from grid point to
      grid point, counts them likewise, and at the last point divides by max(count, 1): the sums over the 50
      blocks are the sums over all rows with that id, which is what the reference's sum by graph id is, ids outside
      0…63 contributing to neither.
  The host operations between the launches are the reference's own, so the two results are the same composition
  of the same functions (Bridge0, Bridge1, Bridge2). Every program's run terminates without a fault and leaves
  its arguments as launched: for the two kernel programs launch by launch (K/Run, KI/Run: each launch's proof
  data, its body's run and its place among the host stretches), for the reference by its operations in order.
  Nothing was rewritten on the way from the word-level program to the idealized one.
-/
import proofs.«418392_j82944408420780_1_alg».proof.Defs
import proofs.«418392_j82944408420780_1_alg».proof.Proof.Gen.Kernel
import proofs.«418392_j82944408420780_1_alg».proof.Proof.Gen.KernelIdeal
import proofs.«418392_j82944408420780_1_alg».proof.Proof.Gen.ReferenceIdeal
import proofs.«418392_j82944408420780_1_alg».proof.Proof.Gen.Pre_finite_inputs
import proofs.«418392_j82944408420780_1_alg».proof.Proof.K.Run
import proofs.«418392_j82944408420780_1_alg».proof.Proof.KI.Run
import proofs.«418392_j82944408420780_1_alg».proof.Proof.RefRun
import proofs.«418392_j82944408420780_1_alg».proof.Proof.RefRead
import proofs.«418392_j82944408420780_1_alg».proof.Proof.Bridge2
import Idealize.ShloMosaic.Adequacy
import Idealize.ShloMosaic.Init

noncomputable section

namespace Cert.Proof

open Idealize.ShloMosaic Idealize.ShloMosaic.TcCoe Idealize.SL.Sem

/-- The word-level kernel program runs to its end and leaves its arguments as launched. -/
theorem frame_kernel : Cert.frame_Kernel := fun m ρ _ => Cert.Kernel.Frm.frame m ρ

/-- So does the idealized kernel program. -/
theorem frame_kernelIdeal : Cert.frame_KernelIdeal := fun m ρ _ => Cert.KernelIdeal.Frm.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealized kernel program is the word-level one's text: nothing was rewritten. -/
theorem preserves : Cert.preserves_Kernel_KernelIdeal := trivial

/-- From memories agreeing on the arguments the two idealized programs end with the same result: the kernel
    program's, read off its last launch, is the reference's last stage of the launch contents. -/
theorem algebraic : Cert.algebraic_KernelIdeal_ReferenceIdeal := by
  intro m ρ m' ρ' _ hagree
  refine ⟨fun c => Cert.KernelIdeal.Frm.W11 m ρ c (Proc.devRef .tc Cert.KernelIdeal.main_v63), ?_, ?_⟩
  · refine (θ_run Cert.KernelIdeal.defs _ _).mono (fun r h c => ⟨h c Cert.KernelIdeal.main_v63 (by decide), ?_⟩) (Cert.KernelIdeal.Frm.run_all m ρ)
    exact ⟨(h c Cert.KernelIdeal.main_arg0 (by decide)).trans (Cert.KernelIdeal.Frm.W11_main_arg0 m ρ c),
      (h c Cert.KernelIdeal.main_arg1 (by decide)).trans (Cert.KernelIdeal.Frm.W11_main_arg1 m ρ c),
      (h c Cert.KernelIdeal.main_arg2 (by decide)).trans (Cert.KernelIdeal.Frm.W11_main_arg2 m ρ c),
      (h c Cert.KernelIdeal.main_arg3 (by decide)).trans (Cert.KernelIdeal.Frm.W11_main_arg3 m ρ c),
      (h c Cert.KernelIdeal.main_arg4 (by decide)).trans (Cert.KernelIdeal.Frm.W11_main_arg4 m ρ c),
      (h c Cert.KernelIdeal.main_arg5 (by decide)).trans (Cert.KernelIdeal.Frm.W11_main_arg5 m ρ c),
      (h c Cert.KernelIdeal.main_arg6 (by decide)).trans (Cert.KernelIdeal.Frm.W11_main_arg6 m ρ c)⟩
  · refine (θ_run Cert.ReferenceIdeal.defs _ _).mono (fun _ h c => ⟨(h c).1.trans ?_, (h c).2⟩) (Cert.ReferenceIdeal.ValueP.run (F := Ideal) m' ρ')
    rw [Cert.ReferenceIdeal.ReadP.val_main_v77_eq, (hagree c).1, (hagree c).2.1, (hagree c).2.2.1, (hagree c).2.2.2.1, (hagree c).2.2.2.2.1,
      (hagree c).2.2.2.2.2.1, (hagree c).2.2.2.2.2.2]
    exact (Cert.Proof.Bridge.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
